-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x16384x256 : Shape := ⟨3, ![6, 16384, 256]⟩
abbrev S16384x6 : Shape := ⟨2, ![16384, 6]⟩
abbrev S6x256 : Shape := ⟨2, ![6, 256]⟩
abbrev S16384x6x4 : Shape := ⟨3, ![16384, 6, 4]⟩
abbrev S_ : Shape := ⟨0, ![]⟩

class Facts : Prop where
  bcast_S_S6x16384x256 : S_.BroadcastsInDim S6x16384x256 (![] : Fin 0 → Fin S6x16384x256.rank)
  reducesTo_S6x16384x256_S_d0_1_2 : S6x16384x256.ReducesTo [0, 1, 2] S_
  h_S_ : 0 < S_.numel
  bcast_S_S16384x6 : S_.BroadcastsInDim S16384x6 (![] : Fin 0 → Fin S16384x6.rank)
  reducesTo_S16384x6_S_d0_1 : S16384x6.ReducesTo [0, 1] S_
  bcast_S_S6x256 : S_.BroadcastsInDim S6x256 (![] : Fin 0 → Fin S6x256.rank)
  reducesTo_S6x256_S_d0_1 : S6x256.ReducesTo [0, 1] S_
  bcast_S_S16384x6x4 : S_.BroadcastsInDim S16384x6x4 (![] : Fin 0 → Fin S16384x6x4.rank)
  reducesTo_S16384x6x4_S_d0_1_2 : S16384x6x4.ReducesTo [0, 1, 2] S_

variable [Facts]

def fn_part1 {F : FTy → Type} [FloatOps F] (main_arg4 : IVec S16384x6x4 32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_c_6 : IVec S_ 32 := constantI S_ 32 0#32
  let main_v19 : IVec S16384x6x4 32 := broadcastInDim S16384x6x4 ![] bcast_S_S16384x6x4 main_c_6
  let main_v20 : IVec S16384x6x4 1 := cmpi .sge main_arg4 main_v19
  let main_c_7 : IVec S_ 32 := constantI S_ 32 256#32
  let main_v21 : IVec S16384x6x4 32 := broadcastInDim S16384x6x4 ![] bcast_S_S16384x6x4 main_c_7
  let main_v22 : IVec S16384x6x4 1 := cmpi .slt main_arg4 main_v21
  let main_v23 : IVec S16384x6x4 1 := andi main_v20 main_v22
  let main_c_8 : IVec S_ 1 := constantI S_ 1 1#1
  let main_v24 : IVec S_ 1 := (fun x v => Host.reduce IntOp.andi x v reducesTo_S16384x6x4_S_d0_1_2 h_S_) main_v23 main_c_8
  let main_v25 : IVec S_ 1 := andi main_v18 main_v24
  main_v25

def fn {F : FTy → Type} [FloatOps F] (main_arg0 : FVec F S6x16384x256 .f32) (main_arg1 : FVec F S6x16384x256 .f32) (main_arg2 : FVec F S16384x6 .f32) (main_arg3 : FVec F S6x256 .f32) (main_arg4 : IVec S16384x6x4 32) : IVec S_ 1 :=
  let main_v0 : FVec F S6x16384x256 .f32 := Host.absf main_arg0
  let main_cst : FVec F S_ .f32 := constant S_ .f32 0x7F800000#32
  let main_v1 : FVec F S6x16384x256 .f32 := broadcastInDim S6x16384x256 ![] bcast_S_S6x16384x256 main_cst
  let main_v2 : IVec S6x16384x256 1 := cmpf .olt main_v0 main_v1
  let main_c : IVec S_ 1 := constantI S_ 1 1#1
  let main_v3 : IVec S_ 1 := (fun x v => Host.reduce IntOp.andi x v reducesTo_S6x16384x256_S_d0_1_2 h_S_) main_v2 main_c
  let main_v4 : FVec F S6x16384x256 .f32 := Host.absf main_arg1
  let main_cst_0 : FVec F S_ .f32 := constant S_ .f32 0x7F800000#32
  let main_v5 : FVec F S6x16384x256 .f32 := broadcastInDim S6x16384x256 ![] bcast_S_S6x16384x256 main_cst_0
  let main_v6 : IVec S6x16384x256 1 := cmpf .olt main_v4 main_v5
  let main_c_1 : IVec S_ 1 := constantI S_ 1 1#1
  let main_v7 : IVec S_ 1 := (fun x v => Host.reduce IntOp.andi x v reducesTo_S6x16384x256_S_d0_1_2 h_S_) main_v6 main_c_1
  let main_v8 : IVec S_ 1 := andi main_v3 main_v7
  let main_v9 : FVec F S16384x6 .f32 := Host.absf main_arg2
  let main_cst_2 : FVec F S_ .f32 := constant S_ .f32 0x7F800000#32
  let main_v10 : FVec F S16384x6 .f32 := broadcastInDim S16384x6 ![] bcast_S_S16384x6 main_cst_2
  let main_v11 : IVec S16384x6 1 := cmpf .olt main_v9 main_v10
  let main_c_3 : IVec S_ 1 := constantI S_ 1 1#1
  let main_v12 : IVec S_ 1 := (fun x v => Host.reduce IntOp.andi x v reducesTo_S16384x6_S_d0_1 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_v13 main_v16
-- ==== Kernel.lean ====
abbrev S6x16384x256 : Shape := ⟨3, ![6, 16384, 256]⟩
abbrev S16384x6 : Shape := ⟨2, ![16384, 6]⟩
abbrev S6x256 : Shape := ⟨2, ![6, 256]⟩
abbrev S16384x6x4 : Shape := ⟨3, ![16384, 6, 4]⟩
abbrev S6x16384x4 : Shape := ⟨3, ![6, 16384, 4]⟩
abbrev S6x16384 : Shape := ⟨2, ![6, 16384]⟩
abbrev S1x128 : Shape := ⟨2, ![1, 128]⟩
abbrev S6x128 : Shape := ⟨2, ![6, 128]⟩
abbrev S6x512x256 : Shape := ⟨3, ![6, 512, 256]⟩
abbrev S6x512 : Shape := ⟨2, ![6, 512]⟩
abbrev S6x512x4 : Shape := ⟨3, ![6, 512, 4]⟩
abbrev S6x512x1 : Shape := ⟨3, ![6, 512, 1]⟩
abbrev S1x6x512x1 : Shape := ⟨4, ![1, 6, 512, 1]⟩
abbrev S1 : Shape := ⟨1, ![1]⟩
abbrev S1x1x1x1 : Shape := ⟨4, ![1, 1, 1, 1]⟩
abbrev S6x1x256 : Shape := ⟨3, ![6, 1, 256]⟩
abbrev S6x1 : Shape := ⟨2, ![6, 1]⟩
abbrev S1x1 : Shape := ⟨2, ![1, 1]⟩
abbrev S_ : Shape := ⟨0, ![]⟩
abbrev S6 : Shape := ⟨1, ![6]⟩

abbrev nBuf : Space → Nat
  | .hbm => 57
  | .vmem => 11
  | .smem => 0
  | _ => 0

abbrev bufTy : (tb : Table) → Fin (tcTables nBuf tb) → BufTy
  | .hbm, ⟨0, _⟩ => ⟨S6x16384x256, .f32⟩
  | .hbm, ⟨1, _⟩ => ⟨S6x16384x256, .f32⟩
  | .hbm, ⟨2, _⟩ => ⟨S16384x6, .f32⟩
  | .hbm, ⟨3, _⟩ => ⟨S6x256, .f32⟩
  | .hbm, ⟨4, _⟩ => ⟨S16384x6x4, .i32⟩
  | .hbm, ⟨5, _⟩ => ⟨S6x16384x4, .i32⟩
  | .hbm, ⟨6, _⟩ => ⟨S6x16384, .f32⟩
  | .hbm, ⟨7, _⟩ => ⟨S1x128, .f32⟩
  | .hbm, ⟨8, _⟩ => ⟨S6x128, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S6x1, .f32⟩
  | .hbm, ⟨16, _⟩ => ⟨S6, .f32⟩
  | .hbm, ⟨17, _⟩ => ⟨S6x1, .f32⟩
  | .hbm, ⟨18, _⟩ => ⟨S6, .f32⟩
  | .hbm, ⟨19, _⟩ => ⟨S_, .f32⟩
  | .hbm, ⟨20, _⟩ => ⟨S6, .f32⟩
  | .hbm, ⟨21, _⟩ => ⟨S6, .f32⟩
  | .hbm, ⟨22, _⟩ => ⟨S_, .f32⟩
  | .hbm, ⟨23, _⟩ => ⟨S6, .f32⟩
  | .hbm, ⟨24, _⟩ => ⟨S6, .f32⟩
  | .hbm, ⟨25, _⟩ => ⟨S_, .f32⟩
  | .hbm, ⟨26, _⟩ => ⟨S6, .f32⟩
  | .hbm, ⟨27, _⟩ => ⟨S6, .f32⟩
  | .hbm, ⟨28, _⟩ => ⟨S6, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S6, .i32⟩
  | .hbm, ⟨36, _⟩ => ⟨S6, .i32⟩
  | .hbm, ⟨37, _⟩ => ⟨S_, .i32⟩
  | .hbm, ⟨38, _⟩ => ⟨S6, .i32⟩
  | .hbm, ⟨39, _⟩ => ⟨S6, .i1⟩
  | .hbm, ⟨40, _⟩ => ⟨S_, .i32⟩
  | .hbm, ⟨41, _⟩ => ⟨S6, .i32⟩
  | .hbm, ⟨42, _⟩ => ⟨S6, .i1⟩
  | .hbm, ⟨43, _⟩ => ⟨S_, .i32⟩
  | .hbm, ⟨44, _⟩ => ⟨S_, .i1⟩
  | .hbm, ⟨45, _⟩ => ⟨S6, .i1⟩
  | .hbm, ⟨46, _⟩ => ⟨S6, .i1⟩
  | .hbm, ⟨47, _⟩ => ⟨S6, .i1⟩
  | .hbm, ⟨48, _⟩ => ⟨S6, .i32⟩
  | .hbm, ⟨49, _⟩ => ⟨S6, .i32⟩
  | .hbm, ⟨50, _⟩ => ⟨S6, .i32⟩
  | .hbm, ⟨51, _⟩ => ⟨S_, .i32⟩
  | .hbm, ⟨52, _⟩ => ⟨S6, .i32⟩
  | .hbm, ⟨53, _⟩ => ⟨S6, .i1⟩
  | .hbm, ⟨54, _⟩ => ⟨S6, .f32⟩
  | .hbm, ⟨55, _⟩ => ⟨S_, .f32⟩
  | .hbm, ⟨56, _⟩ => ⟨S_, .f32⟩
  | .local _ .vmem, ⟨0, _⟩ => ⟨S6x512x256, .f32⟩
  | .local _ .vmem, ⟨1, _⟩ => ⟨S6x512x256, .f32⟩
  | .local _ .vmem, ⟨2, _⟩ => ⟨S6x512x256, .f32⟩
  | .local _ .vmem, ⟨3, _⟩ => ⟨S6x512x256, .f32⟩
  | .local _ .vmem, ⟨4, _⟩ => ⟨S6x512, .f32⟩
  | .local _ .vmem, ⟨5, _⟩ => ⟨S6x512, .f32⟩
  | .local _ .vmem, ⟨6, _⟩ => ⟨S6x256, .f32⟩
  | .local _ .vmem, ⟨7, _⟩ => ⟨S6x512x4, .i32⟩
  | .local _ .vmem, ⟨8, _⟩ => ⟨S6x512x4, .i32⟩
  | .local _ .vmem, ⟨9, _⟩ => ⟨S1x128, .f32⟩
  | .local _ .vmem, ⟨10, _⟩ => ⟨S6x128, .f32⟩
  | _, _ => ⟨S6x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6x512x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  transposes_S16384x6x4_S6x16384x4_1_0_2 : S16384x6x4.Transposes [1, 0, 2] S6x16384x4
  transposes_S16384x6_S6x16384_1_0 : S16384x6.Transposes [1, 0] S6x16384
  inb_S1x128_S1x128_0_0 : ∀ a, (![0, 0] : Fin 2 → Nat) a + S1x128.size a ≤ S1x128.size a
  h_S1x128 : 0 < S1x128.numel
  inb_S6x128_S6x128_0_0 : ∀ a, (![0, 0] : Fin 2 → Nat) a + S6x128.size a ≤ S6x128.size a
  h_S6x128 : 0 < S6x128.numel
  inb_S6x512x256_S6x512x256_0_0_0 : ∀ a, (![0, 0, 0] : Fin 3 → Nat) a + S6x512x256.size a ≤ S6x512x256.size a
  h_S6x512x256 : 0 < S6x512x256.numel
  inb_S6x512_S6x512_0_0 : ∀ a, (![0, 0] : Fin 2 → Nat) a + S6x512.size a ≤ S6x512.size a
  h_S6x512 : 0 < S6x512.numel
  shapeCasts_S6x512_S6x512 : S6x512.ShapeCasts S6x512
  inb_S6x256_S6x256_0_0 : ∀ a, (![0, 0] : Fin 2 → Nat) a + S6x256.size a ≤ S6x256.size a
  h_S6x256 : 0 < S6x256.numel
  inb_S6x512x4_S6x512x4_0_0_0 : ∀ a, (![0, 0, 0] : Fin 3 → Nat) a + S6x512x4.size a ≤ S6x512x4.size a
  h_S6x512x4 : 0 < S6x512x4.numel
  shapeCasts_S6x512x4_S6x512x4 : S6x512x4.ShapeCasts S6x512x4
  iota_S6x512x256_d2_w32 : S6x512x256.Iotas .tc 32 [2]
  reduces_S6x512x256_S6x512 : S6x512x256.Reduces [2] S6x512
  shapeCasts_S6x512_S6x512x1 : S6x512.ShapeCasts S6x512x1
  broadcasts_S6x512x1_S6x512x256 : S6x512x1.Broadcasts S6x512x256
  slices_S6x512x4_o0_0_0_S6x512x1 : S6x512x4.Slices ![0, 0, 0] S6x512x1
  shapeCasts_S6x512x1_S6x512 : S6x512x1.ShapeCasts S6x512
  shapeCasts_S6x512x1_S1x6x512x1 : S6x512x1.ShapeCasts S1x6x512x1
  reduces_S1x6x512x1_S1 : S1x6x512x1.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S6x256_S6x1x256 : S6x256.ShapeCasts S6x1x256
  shapeCasts_S6x1x256_S6x1x256 : S6x1x256.ShapeCasts S6x1x256
  broadcasts_S6x1x256_S6x512x256 : S6x1x256.Broadcasts S6x512x256
  reduces_S6x512x1_S6x1 : S6x512x1.Reduces [1] S6x1
  slices_S6x512x4_o0_0_1_S6x512x1 : S6x512x4.Slices ![0, 0, 1] S6x512x1
  slices_S6x512x4_o0_0_2_S6x512x1 : S6x512x4.Slices ![0, 0, 2] S6x512x1
  slices_S6x512x4_o0_0_3_S6x512x1 : S6x512x4.Slices ![0, 0, 3] S6x512x1
  shapeCasts_S1x128_S1x128 : S1x128.ShapeCasts S1x128
  iota_S6x128_d1_w32 : S6x128.Iotas .tc 32 [1]
  shapeCasts_S6x1_S6x1 : S6x1.ShapeCasts S6x1
  broadcasts_S6x1_S6x128 : S6x1.Broadcasts S6x128
  shapeCasts_S6x128_S6x128 : S6x128.ShapeCasts S6x128
  slices_S1x128_S1x1_0_0 : S1x128.Slices ![0, 0] S1x1
  shapeCasts_S1x1_S_ : S1x1.ShapeCasts S_
  slices_S6x128_S6x1_0_0 : S6x128.Slices ![0, 0] S6x1
  shapeCasts_S6x1_S6 : S6x1.ShapeCasts S6
  slices_S6x128_S6x1_0_1 : S6x128.Slices ![0, 1] S6x1
  bcast_S_S6 : S_.BroadcastsInDim S6 (![] : Fin 0 → Fin S6.rank)
  reducesTo_S6_S_d0 : S6.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x512x256.size a ≤ S6x16384x256.size a
  hwx0_0 : ∀ i : grid0.Coords, EltTy.bits .f32 = 32 ∨ (Rect.block (s := S6x16384x256) S6x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x512x256.size a ≤ S6x16384x256.size a
  hwx0_1 : ∀ i : grid0.Coords, EltTy.bits .f32 = 32 ∨ (Rect.block (s := S6x16384x256) S6x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x512.size a ≤ S6x16384.size a
  hwx0_2 : ∀ i : grid0.Coords, EltTy.bits .f32 = 32 ∨ (Rect.block (s := S6x16384) S6x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256.size a ≤ S6x256.size a
  hwx0_3 : ∀ i : grid0.Coords, EltTy.bits .f32 = 32 ∨ (Rect.block (s := S6x256) S6x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x512x4.size a ≤ S6x16384x4.size a
  hwx0_4 : ∀ i : grid0.Coords, EltTy.bits .i32 = 32 ∨ (Rect.block (s := S6x16384x4) S6x512x4.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x128.size a ≤ S6x128.size a
  hwx0_6 : ∀ i : grid0.Coords, EltTy.bits .f32 = 32 ∨ (Rect.block (s := S6x128) S6x128.size (cc0_transform_6 i) (hinb0_6 i)).WholeWords (EltTy.packing .f32)

variable [Facts₀]

abbrev win0_0 : Pipeline.Window sig grid0 :=
  Pipeline.Window.ofSpec (Memref.whole main_arg0) S6x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S6x512x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S6x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S6x16384x256 : Shape := ⟨3, ![6, 16384, 256]⟩
abbrev S16384x6 : Shape := ⟨2, ![16384, 6]⟩
abbrev S6x256 : Shape := ⟨2, ![6, 256]⟩
abbrev S16384x6x4 : Shape := ⟨3, ![16384, 6, 4]⟩
abbrev S_ : Shape := ⟨0, ![]⟩
abbrev S6x16384 : Shape := ⟨2, ![6, 16384]⟩
abbrev S6x16384x1 : Shape := ⟨3, ![6, 16384, 1]⟩
abbrev S16384x6x1 : Shape := ⟨3, ![16384, 6, 1]⟩
abbrev S6x16384x1x1 : Shape := ⟨4, ![6, 16384, 1, 1]⟩
abbrev S1 : Shape := ⟨1, ![1]⟩
abbrev S1x1x1x1 : Shape := ⟨4, ![1, 1, 1, 1]⟩
abbrev S6 : Shape := ⟨1, ![6]⟩
abbrev S6x16384x4 : Shape := ⟨3, ![6, 16384, 4]⟩
abbrev S6x16384x4x1 : Shape := ⟨4, ![6, 16384, 4, 1]⟩

abbrev nBuf : Space → Nat
  | .hbm => 141
  | .vmem => 0
  | .smem => 0
  | _ => 0

abbrev hbmTy0_0 (i : Nat) : BufTy := match i % 128 with
  | 0 => ⟨S6x16384x256, .f32⟩
  | 1 => ⟨S6x16384x256, .f32⟩
  | 2 => ⟨S16384x6, .f32⟩
  | 3 => ⟨S6x256, .f32⟩
  | 4 => ⟨S16384x6x4, .i32⟩
  | 5 => ⟨S_, .f32⟩
  | 6 => ⟨S6x16384, .f32⟩
  | 7 => ⟨S_, .f32⟩
  | 8 => ⟨S6x16384, .f32⟩
  | 9 => ⟨S6x16384, .f32⟩
  | 10 => ⟨S6x16384x1, .f32⟩
  | 11 => ⟨S6x16384x256, .f32⟩
  | 12 => ⟨S6x16384x256, .f32⟩
  | 13 => ⟨S6x16384x256, .f32⟩
  | 14 => ⟨S_, .f32⟩
  | 15 => ⟨S6x16384, .f32⟩
  | 16 => ⟨S6x16384x1, .f32⟩
  | 17 => ⟨S6x16384x1, .f32⟩
  | 18 => ⟨S6x16384x256, .f32⟩
  | 19 => ⟨S6x16384x256, .f32⟩
  | 20 => ⟨S16384x6x1, .i32⟩
  | 21 => ⟨S16384x6, .i32⟩
  | 22 => ⟨S6x16384, .i32⟩
  | 23 => ⟨S6x16384x1, .i32⟩
  | 24 => ⟨S_, .i32⟩
  | 25 => ⟨S6x16384x1, .i32⟩
  | 26 => ⟨S6x16384x1, .i1⟩
  | 27 => ⟨S_, .i32⟩
  | 28 => ⟨S6x16384x1, .i32⟩
  | 29 => ⟨S6x16384x1, .i32⟩
  | 30 => ⟨S6x16384x1, .i32⟩
  | 31 => ⟨S6x16384x1x1, .i32⟩
  | 32 => ⟨S1, .i32⟩
  | 33 => ⟨S_, .i32⟩
  | 34 => ⟨S6x16384x1x1, .i32⟩
  | 35 => ⟨S6x16384x1x1, .i1⟩
  | 36 => ⟨S1x1x1x1, .i32⟩
  | 37 => ⟨S6x16384x1x1, .i32⟩
  | 38 => ⟨S6x16384x1x1, .i1⟩
  | 39 => ⟨S6x16384x1x1, .i1⟩
  | 40 => ⟨S_, .i1⟩
  | 41 => ⟨S6x16384x1, .i1⟩
  | 42 => ⟨S6x16384x1, .f32⟩
  | 43 => ⟨S_, .f32⟩
  | 44 => ⟨S6x16384x1, .f32⟩
  | 45 => ⟨S6x16384x1, .f32⟩
  | 46 => ⟨S6x16384, .f32⟩
  | 47 => ⟨S6x16384, .f32⟩
  | 48 => ⟨S_, .f32⟩
  | 49 => ⟨S6, .f32⟩
  | 50 => ⟨S_, .f32⟩
  | 51 => ⟨S6, .f32⟩
  | 52 => ⟨S6, .f32⟩
  | 53 => ⟨S_, .f32⟩
  | 54 => ⟨S_, .f32⟩
  | 55 => ⟨S_, .f32⟩
  | 56 => ⟨S_, .f32⟩
  | 57 => ⟨S6x16384x4, .i32⟩
  | 58 => ⟨S_, .i32⟩
  | 59 => ⟨S6x16384x4, .i32⟩
  | 60 => ⟨S6x16384x4, .i1⟩
  | 61 => ⟨S_, .i32⟩
  | 62 => ⟨S6x16384x4, .i32⟩
  | 63 => ⟨S6x16384x4, .i32⟩
  | 64 => ⟨S6x16384x4, .i32⟩
  | 65 => ⟨S6x16384x4x1, .i32⟩
  | 66 => ⟨S6x16384x4, .f32⟩
  | 67 => ⟨S_, .i32⟩
  | 68 => ⟨S6x16384x4, .i32⟩
  | 69 => ⟨S6x16384x4, .i1⟩
  | 70 => ⟨S_, .i32⟩
  | 71 => ⟨S6x16384x4, .i32⟩
  | 72 => ⟨S6x16384x4, .i32⟩
  | 73 => ⟨S6x16384x4, .i32⟩
  | 74 => ⟨S6x16384x4x1, .i32⟩
  | 75 => ⟨S1, .i32⟩
  | 76 => ⟨S_, .i32⟩
  | 77 => ⟨S6x16384x4x1, .i32⟩
  | 78 => ⟨S6x16384x4x1, .i1⟩
  | 79 => ⟨S1x1x1x1, .i32⟩
  | 80 => ⟨S6x16384x4x1, .i32⟩
  | 81 => ⟨S6x16384x4x1, .i1⟩
  | 82 => ⟨S6x16384x4x1, .i1⟩
  | 83 => ⟨S_, .i1⟩
  | 84 => ⟨S6x16384x4, .i1⟩
  | 85 => ⟨S6x16384x4, .f32⟩
  | 86 => ⟨S_, .f32⟩
  | 87 => ⟨S6x16384x4, .f32⟩
  | 88 => ⟨S6x16384x4, .f32⟩
  | 89 => ⟨S6x16384, .f32⟩
  | 90 => ⟨S6x16384x1, .f32⟩
  | 91 => ⟨S6x16384x4, .f32⟩
  | 92 => ⟨S6x16384x4, .f32⟩
  | 93 => ⟨S6x16384x4, .f32⟩
  | 94 => ⟨S6, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S6, .i32⟩
  | 102 => ⟨S6, .i32⟩
  | 103 => ⟨S_, .i32⟩
  | 104 => ⟨S6, .i32⟩
  | 105 => ⟨S6, .i1⟩
  | 106 => ⟨S_, .i32⟩
  | 107 => ⟨S6, .i32⟩
  | 108 => ⟨S6, .i1⟩
  | 109 => ⟨S_, .i32⟩
  | 110 => ⟨S_, .i1⟩
  | 111 => ⟨S6, .i1⟩
  | 112 => ⟨S6, .i1⟩
  | 113 => ⟨S6, .i1⟩
  | 114 => ⟨S6, .i32⟩
  | 115 => ⟨S6, .i32⟩
  | 116 => ⟨S6, .i32⟩
  | 117 => ⟨S_, .i32⟩
  | 118 => ⟨S6, .i32⟩
  | 119 => ⟨S6, .i1⟩
  | 120 => ⟨S_, .f32⟩
  | 121 => ⟨S6x16384x4, .f32⟩
  | 122 => ⟨S6x16384x4, .f32⟩
  | 123 => ⟨S6x16384x4, .f32⟩
  | 124 => ⟨S_, .f32⟩
  | 125 => ⟨S6, .f32⟩
  | 126 => ⟨S_, .f32⟩
  | 127 => ⟨S6, .f32⟩
  | _ => ⟨S6x16384x256, .f32⟩

abbrev hbmTy0_1 (i : Nat) : BufTy := match i % 128 with
  | 0 => ⟨S6, .f32⟩
  | 1 => ⟨S_, .f32⟩
  | 2 => ⟨S6, .f32⟩
  | 3 => ⟨S6, .f32⟩
  | 4 => ⟨S6x16384x4, .f32⟩
  | 5 => ⟨S_, .f32⟩
  | 6 => ⟨S6, .f32⟩
  | 7 => ⟨S_, .f32⟩
  | 8 => ⟨S6, .f32⟩
  | 9 => ⟨S6, .f32⟩
  | 10 => ⟨S6, .f32⟩
  | 11 => ⟨S_, .f32⟩
  | 12 => ⟨S_, .f32⟩
  | _ => ⟨S6x16384x256, .f32⟩

abbrev hbmTy (i : Nat) : BufTy := match i / 128 with
  | 0 => hbmTy0_0 i
  | 1 => hbmTy0_1 i
  | _ => ⟨S6x16384x256, .f32⟩

abbrev bufTy : (tb : Table) → Fin (tcTables nBuf tb) → BufTy
  | .hbm, ⟨i, _⟩ => hbmTy i
  | _, _ => ⟨S6x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst : Ref sig .tc := ⟨.hbm, 48, rfl⟩
abbrev main_v8 : Ref sig .tc := ⟨.hbm, 49, rfl⟩
abbrev main_cst_0 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_v13 : Ref sig .tc := ⟨.hbm, 57, rfl⟩
abbrev main_c : Ref sig .tc := ⟨.hbm, 58, rfl⟩
abbrev main_v14 : Ref sig .tc := ⟨.hbm, 59, rfl⟩
abbrev main_v15 : Ref sig .tc := ⟨.hbm, 60, rfl⟩
abbrev main_c_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_c_4 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_1 : Ref sig .tc := ⟨.hbm, 103, rfl⟩
abbrev main_call3_v5 : Ref sig .tc := ⟨.hbm, 104, rfl⟩
abbrev main_call3_v6 : Ref sig .tc := ⟨.hbm, 105, rfl⟩
abbrev main_call3_c_2 : Ref sig .tc := ⟨.hbm, 106, rfl⟩
abbrev main_call3_v7 : Ref sig .tc := ⟨.hbm, 107, rfl⟩
abbrev main_call3_v8 : Ref sig .tc := ⟨.hbm, 108, rfl⟩
abbrev main_call3_c_3 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_v28 : Ref sig .tc := ⟨.hbm, 116, rfl⟩
abbrev main_c_5 : Ref sig .tc := ⟨.hbm, 117, rfl⟩
abbrev main_v29 : Ref sig .tc := ⟨.hbm, 118, rfl⟩
abbrev main_v30 : Ref sig .tc := ⟨.hbm, 119, rfl⟩
abbrev main_cst_6 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_cst_7 : Ref sig .tc := ⟨.hbm, 124, rfl⟩
abbrev main_v34 : Ref sig .tc := ⟨.hbm, 125, rfl⟩
abbrev main_cst_8 : Ref sig .tc := ⟨.hbm, 126, rfl⟩
abbrev main_v35 : Ref sig .tc := ⟨.hbm, 127, rfl⟩
abbrev main_v36 : Ref sig .tc := ⟨.hbm, 128, rfl⟩
abbrev main_cst_9 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_10 : Ref sig .tc := ⟨.hbm, 133, rfl⟩
abbrev main_v40 : Ref sig .tc := ⟨.hbm, 134, rfl⟩
abbrev main_cst_11 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_cst_12 : Ref sig .tc := ⟨.hbm, 139, rfl⟩
abbrev main_v44 : Ref sig .tc := ⟨.hbm, 140, rfl⟩

abbrev nD : Nat := 1
abbrev τ : Topo := Topo.v7x

variable {F : FTy → Type} [FloatOps F]

class Facts₀ : Prop where
  reducesTo_S6x16384x256_S6x16384_d2 : S6x16384x256.ReducesTo [2] S6x16384
  h_S_ : 0 < S_.numel
  bcast_S_S6x16384 : S_.BroadcastsInDim S6x16384 (![] : Fin 0 → Fin S6x16384.rank)
  bcast_S6x16384_S6x16384x1_0_1 : S6x16384.BroadcastsInDim S6x16384x1 (![0, 1] : Fin 2 → Fin S6x16384x1.rank)
  bcast_S6x16384x1_S6x16384x256_0_1_2 : S6x16384x1.BroadcastsInDim S6x16384x256 (![0, 1, 2] : Fin 3 → Fin S6x16384x256.rank)
  slices_S16384x6x4_S16384x6x1_0_0_0 : S16384x6x4.Slices ![0, 0, 0] S16384x6x1
  shapeCasts_S16384x6x1_S16384x6 : S16384x6x1.ShapeCasts S16384x6
  transposes_S16384x6_S6x16384_1_0 : S16384x6.Transposes [1, 0] S6x16384
  bcast_S_S6x16384x1 : S_.BroadcastsInDim S6x16384x1 (![] : Fin 0 → Fin S6x16384x1.rank)
  shapeCasts_S6x16384x1_S6x16384x1x1 : S6x16384x1.ShapeCasts S6x16384x1x1
  bcast_S_S6x16384x1x1 : S_.BroadcastsInDim S6x16384x1x1 (![] : Fin 0 → Fin S6x16384x1x1.rank)
  bcast_S1_S1x1x1x1_3 : S1.BroadcastsInDim S1x1x1x1 (![3] : Fin 1 → Fin S1x1x1x1.rank)
  bcast_S1x1x1x1_S6x16384x1x1_0_1_2_3 : S1x1x1x1.BroadcastsInDim S6x16384x1x1 (![0, 1, 2, 3] : Fin 4 → Fin S6x16384x1x1.rank)
  reducesTo_S6x16384x1x1_S6x16384x1_d3 : S6x16384x1x1.ReducesTo [3] S6x16384x1
  shapeCasts_S6x16384x1_S6x16384 : S6x16384x1.ShapeCasts S6x16384
  reducesTo_S6x16384_S6_d1 : S6x16384.ReducesTo [1] S6
  bcast_S_S6 : S_.BroadcastsInDim S6 (![] : Fin 0 → Fin S6.rank)
  reducesTo_S6_S_d0 : S6.ReducesTo [0] S_
  transposes_S16384x6x4_S6x16384x4_1_0_2 : S16384x6x4.Transposes [1, 0, 2] S6x16384x4
  bcast_S_S6x16384x4 : S_.BroadcastsInDim S6x16384x4 (![] : Fin 0 → Fin S6x16384x4.rank)
  bcast_S6x16384x4_S6x16384x4x1_0_1_2 : S6x16384x4.BroadcastsInDim S6x16384x4x1 (![0, 1, 2] : Fin 3 → Fin S6x16384x4x1.rank)
  shapeCasts_S6x16384x4_S6x16384x4x1 : S6x16384x4.ShapeCasts S6x16384x4x1
  bcast_S_S6x16384x4x1 : S_.BroadcastsInDim S6x16384x4x1 (![] : Fin 0 → Fin S6x16384x4x1.rank)
  bcast_S1x1x1x1_S6x16384x4x1_0_1_2_3 : S1x1x1x1.BroadcastsInDim S6x16384x4x1 (![0, 1, 2, 3] : Fin 4 → Fin S6x16384x4x1.rank)
  reducesTo_S6x16384x4x1_S6x16384x4_d3 : S6x16384x4x1.ReducesTo [3] S6x16384x4
  bcast_S6x16384x1_S6x16384x4_0_1_2 : S6x16384x1.BroadcastsInDim S6x16384x4 (![0, 1, 2] : Fin 3 → Fin S6x16384x4.rank)
  reducesTo_S6x16384x4_S6_d1_2 : S6x16384x4.ReducesTo [1, 2] S6
  gather_S6x16384x256_S6x16384x1x1_S6x16384x1_n_2_01_01_2_3_111_wf : GatherDims.WF S6x16384x256 S6x16384x1x1 S6x16384x1 [] [2] [0, 1] [2] [0, 1] 3 ![1, 1, 1]
  gather_S6x256_S6x16384x4x1_S6x16384x4_n_1_0_0_1_3_11_wf : GatherDims.WF S6x256 S6x16384x4x1 S6x16384x4 [] [1] [0] [1] [0] 3 ![1, 1]
  gather_S6x16384x256_S6x16384x4x1_S6x16384x4_n_2_01_01_2_3_111_wf : GatherDims.WF S6x16384x256 S6x16384x4x1 S6x16384x4 [] [2] [0, 1] [2] [0, 1] 3 ![1, 1, 1]

variable [Facts₀]

def gather_S6x16384x256_S6x16384x1x1_S6x16384x1_n_2_01_01_2_3_111 : GatherDims S6x16384x256 S6x16384x1x1 S6x16384x1 where
  offsetDims := []
  collapsedSliceDims := [2]
  operandBatchingDims := [0, 1]
  startIndicesBatchingDims := [0, 1]
  startIndexMap := [2]
  indexVectorDim := 3
  sliceSizes := ![1, 1, 1]
  wf := gather_S6x16384x256_S6x16384x1x1_S6x16384x1_n_2_01_01_2_3_111_wf
def gather_S6x256_S6x16384x4x1_S6x16384x4_n_1_0_0_1_3_11 : GatherDims S6x256 S6x16384x4x1 S6x16384x4 where
  offsetDims := []
  collapsedSliceDims := [1]
  operandBatchingDims := [0]
  startIndicesBatchingDims := [0]
  startIndexMap := [1]
  indexVectorDim := 3
  sliceSizes := ![1, 1]
  wf := gather_S6x256_S6x16384x4x1_S6x16384x4_n_1_0_0_1_3_11_wf
def gather_S6x16384x256_S6x16384x4x1_S6x16384x4_n_2_01_01_2_3_111 : GatherDims S6x16384x256 S6x16384x4x1 S6x16384x4 where
  offsetDims := []
  collapsedSliceDims := [2]
  operandBatchingDims := [0, 1]
  startIndicesBatchingDims := [0, 1]
  startIndexMap := [2]
  indexVectorDim := 3
  sliceSizes := ![1, 1, 1]
  wf := gather_S6x16384x256_S6x16384x4x1_S6x16384x4_n_2_01_01_2_3_111_wf

class Facts : Prop extends Facts₀ where

variable [Facts]
-- ==== Proof.KUpd.lean ====
/-
  The kernel's two per-point updates and the host's lines after the region, as pure terms at any float instance.

  One grid point turns the two carried output blocks into new ones: the classification block gains, in every lane,
  the tile's sum of negated first-label log-probabilities (`updC`), and the regression block gains, per parameter,
  the tile's squared-error sum in lane 0 and cosine sum in lane 1 (`updR`). After the region the host scales lane 0
  of the first block into the classification loss (`tail0`) and lanes 0 and 1 of the second into the per-parameter
  terms, chooses by parameter kind and sums (`tail1`).
-/
import proofs.«407714_j46377056862517_3_alg».proof.Proof.Gen.KernelIdeal.Skeleton

noncomputable section

namespace Cert.KernelIdeal.Val

open Idealize.ShloMosaic Idealize.SL.Sem
open Cert.KernelIdeal Cert.KernelIdeal.Gen

variable {F : FTy → Type} [FloatOps F]

/-- The bin number of every lane of a logits tile. -/
abbrev lanes : IVec S6x512x256 32 := iota .tc S6x512x256 32 [2] Facts₀.iota_S6x512x256_d2_w32

/-- The classification block after a point, from the logits tile, the labels tile and the block before. -/
def updC (x0 : Vec F S6x512x256 .f32) (x4 : Vec F S6x512x4 .i32) (xo5 : Vec F S1x128 .f32) : Vec F S1x128 .f32 :=
  k0_pay1 (k0_pay8 (k0_pay7 x0 x4)) xo5

/-- The regression block after a point, from the offsets, targets, centres and labels tiles and the block before. -/
def updR (x1 : Vec F S6x512x256 .f32) (x2 : Vec F S6x512 .f32) (x3 : Vec F S6x256 .f32) (x4 : Vec F S6x512x4 .i32)
    (xo6 : Vec F S6x128 .f32) : Vec F S6x128 .f32 :=
  k0_pay2
    (k0_pay17 x1 (k0_pay6 x4) lanes (k0_pay9 x3) (k0_pay10 (k0_pay5 x2))
      (k0_pay12 x1 (k0_pay5 x2) x3 (k0_pay6 x4) lanes) (k0_pay15 x1 (k0_pay5 x2) x3 (k0_pay6 x4) lanes))
    (k0_pay18 x1 (k0_pay6 x4) lanes (k0_pay9 x3) (k0_pay10 (k0_pay5 x2))
      (k0_pay13 x1 (k0_pay5 x2) x3 (k0_pay6 x4) lanes) (k0_pay14 x1 (k0_pay5 x2) x3 (k0_pay6 x4) lanes))
    (k0_pay19 x1 (k0_pay6 x4) lanes (k0_pay9 x3) (k0_pay10 (k0_pay5 x2)))
    (k0_pay20 x1 (k0_pay6 x4) lanes (k0_pay9 x3) (k0_pay10 (k0_pay5 x2)))
    xo6

/-! ## The host's lines after the region -/

/-- The first result from the classification block: lane 0, times one, over the batch size. -/
def tail0 (cls : FVec F S1x128 .f32) : FVec F S_ .f32 :=
  Host.divf
    (mulf (constant S_ .f32 0x3F800000#32)
      (shapeCast S_ (extractStridedSlice S1x1 ![0, 0] cls Facts₀.slices_S1x128_S1x1_0_0) Facts₀.shapeCasts_S1x1_S_))
    (constant S_ .f32 0x46800000#32)

/-- Which parameters are orientations: the parameter's number modulo two is one (jnp's floored remainder). -/
def isRot : IVec S6 1 :=
  let two : IVec S_ 32 := id (constantI S_ 32 2#32)
  let dv : IVec S_ 32 := select (cmpi .eq two (constantI S_ 32 0#32)) (constantI S_ 32 1#32) two
  let rm : IVec S6 32 := Host.remsi (iotaInDim S6 32 0) (broadcastInDim S6 ![] Facts₀.bcast_S_S6 dv)
  cmpi .eq
    (select
      (andi (cmpi .ne (cmpi .slt rm (broadcastInDim S6 ![] Facts₀.bcast_S_S6 (constantI S_ 32 0#32)))
          (broadcastInDim S6 ![] Facts₀.bcast_S_S6 (cmpi .slt dv (constantI S_ 32 0#32))))
        (cmpi .ne rm (broadcastInDim S6 ![] Facts₀.bcast_S_S6 (constantI S_ 32 0#32))))
      (addi rm (broadcastInDim S6 ![] Facts₀.bcast_S_S6 dv)) rm)
    (broadcastInDim S6 ![] Facts₀.bcast_S_S6 (constantI S_ 32 1#32))

/-- The second result from the regression block: lane 0 over the count is the squared-error term, minus lane 1 over
    the count the orientation term; each parameter takes the one of its kind, and the six are summed. -/
def tail1 (reg : FVec F S6x128 .f32) : FVec F S_ .f32 :=
  Host.reduceAdd
    (select isRot
      (Host.divf
        (mulf (broadcastInDim S6 ![] Facts₀.bcast_S_S6 (constant S_ .f32 0xBF800000#32))
          (shapeCast S6 (extractStridedSlice S6x1 ![0, 1] reg Facts₀.slices_S6x128_S6x1_0_1) Facts₀.shapeCasts_S6x1_S6))
        (broadcastInDim S6 ![] Facts₀.bcast_S_S6 (constant S_ .f32 0x47800000#32)))
      (Host.divf (shapeCast S6 (extractStridedSlice S6x1 ![0, 0] reg Facts₀.slices_S6x128_S6x1_0_0) Facts₀.shapeCasts_S6x1_S6)
        (broadcastInDim S6 ![] Facts₀.bcast_S_S6 (constant S_ .f32 0x47800000#32))))
    (constant S_ .f32 0x00000000#32) Facts₀.reducesTo_S6_S_d0 Facts₀.h_S_

end Cert.KernelIdeal.Val

end
-- ==== Proof.KDefs.lean ====
/-
  The kernel's two output blocks over the grid, at any float instance: point 0 starts both from the zero splat and
  applies the point's updates to its five input tiles; every later point applies them to what the point before left.
-/
import proofs.«407714_j46377056862517_3_alg».proof.Proof.KUpd
import proofs.«407714_j46377056862517_3_alg».proof.Proof.Gen.KernelIdeal.Frame

noncomputable section

namespace Cert.KernelIdeal.Val

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- The five input tiles at a grid point, at their literal types. -/
abbrev xb0 (c : Dev nD) (t : Fin cfg0.N) : Vec F S6x512x256 .f32 := iblk m c 0 t
abbrev xb1 (c : Dev nD) (t : Fin cfg0.N) : Vec F S6x512x256 .f32 := iblk m c 1 t
abbrev xb2 (c : Dev nD) (t : Fin cfg0.N) : Vec F S6x512 .f32 := iblk m c 2 t
abbrev xb3 (c : Dev nD) (t : Fin cfg0.N) : Vec F S6x256 .f32 := iblk m c 3 t
abbrev xb4 (c : Dev nD) (t : Fin cfg0.N) : Vec F S6x512x4 .i32 := iblk m c 4 t

/-- The two output blocks after point `n`: from the zero splats at point 0, then point by point. -/
def chain (c : Dev nD) : (n : ℕ) → n < cfg0.N → Vec F S1x128 .f32 × Vec F S6x128 .f32
  | 0, h => (updC (xb0 m c ⟨0, h⟩) (xb4 m c ⟨0, h⟩) k0_pay3,
      updR (xb1 m c ⟨0, h⟩) (xb2 m c ⟨0, h⟩) (xb3 m c ⟨0, h⟩) (xb4 m c ⟨0, h⟩) k0_pay4)
  | n + 1, h => (updC (xb0 m c ⟨n + 1, h⟩) (xb4 m c ⟨n + 1, h⟩) (chain c n (Nat.lt_of_succ_lt h)).1,
      updR (xb1 m c ⟨n + 1, h⟩) (xb2 m c ⟨n + 1, h⟩) (xb3 m c ⟨n + 1, h⟩) (xb4 m c ⟨n + 1, h⟩) (chain c n (Nat.lt_of_succ_lt h)).2)

/-- The two output blocks after the last point. -/
abbrev last (c : Dev nD) : Vec F S1x128 .f32 × Vec F S6x128 .f32 := chain m c 31 (by rw [show cfg0.N = 32 from N_0]; decide)

end Cert.KernelIdeal.Val

end
-- ==== Proof.KPieces.lean ====
/-
  What each case of the kernel body leaves in the two carried output blocks, read back as values, and from that the
  blocks after every grid point and the two result arrays after the region.

  A point that is not the first stores once into each block: the block before plus the tile's contribution. The first
  point stores the zero splat, reads it back, and stores zero plus the tile's contribution. So after point n the blocks
  are the running pair `chain`, by induction on the point; both blocks sit at block index (0, 0) throughout and are
  written back once, after the last point, where the block is the whole array.
-/
import proofs.«407714_j46377056862517_3_alg».proof.Proof.KDefs
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]
variable (m : (ℓ : Loc nD τ sig) → Buf (Elt F) ℓ) (ρ : Dev nD → PrngReg)

/-- The zero offsets of a two-axis access, as the constant function. -/
private theorem hz : (![0, 0] : Fin 2 → Nat) = fun _ => 0 := funext fun a => by fin_cases a <;> rfl

/-- The zero offsets of a three-axis access, as the constant function. -/
private theorem hz3 : (![0, 0, 0] : Fin 3 → Nat) = fun _ => 0 := funext fun a => by fin_cases a <;> rfl

theorem outB5 (c : Dev nD) (i : grid0.Coords) (a1 : Memref sig .tc .vmem S6x512x256 .f32) (h1 : a1.IsWhole) (a2 : Memref sig .tc .vmem S6x512x256 .f32) (h2 : a2.IsWhole) (a3 : Memref sig .tc .vmem S6x512 .f32) (h3 : a3.IsWhole) (a4 : Memref sig .tc .vmem S6x256 .f32) (h4 : a4.IsWhole) (a5 : Memref sig .tc .vmem S6x512x4 .i32) (h5 : a5.IsWhole) (a6 : Memref sig .tc .vmem S1x128 .f32) (h6 : a6.IsWhole) (a7 : Memref sig .tc .vmem S6x128 .f32) (h7 : a7.IsWhole) (hc : ¬cond0_0 i)
    (x0 x1 : Vec F S6x512x256 .f32) (x2 : Vec F S6x512 .f32) (x3 : Vec F S6x256 .f32) (x4 : Vec F S6x512x4 .i32) (xo5 : Vec F S1x128 .f32) (xo6 : Vec F S6x128 .f32) :
    out0_B_5 c i a1 h1 a2 h2 a3 h3 a4 h4 a5 h5 a6 h6 a7 h7 hc x0 x1 x2 x3 x4 xo5 xo6 = updC x0 x4 xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h5.read_unread, h6.read_unread,
    View.ld_unit_zero (S := S6x512x256) hz3, View.ld_unit_zero (S := S6x512x4) hz3, View.ld_unit_zero (S := S1x128) hz]
  rfl

theorem outB6 (c : Dev nD) (i : grid0.Coords) (a1 : Memref sig .tc .vmem S6x512x256 .f32) (h1 : a1.IsWhole) (a2 : Memref sig .tc .vmem S6x512x256 .f32) (h2 : a2.IsWhole) (a3 : Memref sig .tc .vmem S6x512 .f32) (h3 : a3.IsWhole) (a4 : Memref sig .tc .vmem S6x256 .f32) (h4 : a4.IsWhole) (a5 : Memref sig .tc .vmem S6x512x4 .i32) (h5 : a5.IsWhole) (a6 : Memref sig .tc .vmem S1x128 .f32) (h6 : a6.IsWhole) (a7 : Memref sig .tc .vmem S6x128 .f32) (h7 : a7.IsWhole) (hc : ¬cond0_0 i)
    (x0 x1 : Vec F S6x512x256 .f32) (x2 : Vec F S6x512 .f32) (x3 : Vec F S6x256 .f32) (x4 : Vec F S6x512x4 .i32) (xo5 : Vec F S1x128 .f32) (xo6 : Vec F S6x128 .f32) :
    out0_B_6 c i a1 h1 a2 h2 a3 h3 a4 h4 a5 h5 a6 h6 a7 h7 hc x0 x1 x2 x3 x4 xo5 xo6 = updR x1 x2 x3 x4 xo6 := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h2.read_unread, h3.read_unread, h4.read_unread, h5.read_unread, h7.read_unread,
    View.ld_unit_zero (S := S6x512x256) hz3, View.ld_unit_zero (S := S6x512x4) hz3, View.ld_unit_zero (S := S6x512) hz,
    View.ld_unit_zero (S := S6x256) hz, View.ld_unit_zero (S := S6x128) hz]
  rfl

theorem outA5 (c : Dev nD) (i : grid0.Coords) (a1 : Memref sig .tc .vmem S6x512x256 .f32) (h1 : a1.IsWhole) (a2 : Memref sig .tc .vmem S6x512x256 .f32) (h2 : a2.IsWhole) (a3 : Memref sig .tc .vmem S6x512 .f32) (h3 : a3.IsWhole) (a4 : Memref sig .tc .vmem S6x256 .f32) (h4 : a4.IsWhole) (a5 : Memref sig .tc .vmem S6x512x4 .i32) (h5 : a5.IsWhole) (a6 : Memref sig .tc .vmem S1x128 .f32) (h6 : a6.IsWhole) (a7 : Memref sig .tc .vmem S6x128 .f32) (h7 : a7.IsWhole) (hc : cond0_0 i)
    (x0 x1 : Vec F S6x512x256 .f32) (x2 : Vec F S6x512 .f32) (x3 : Vec F S6x256 .f32) (x4 : Vec F S6x512x4 .i32) :
    out0_A_5 c i a1 h1 a2 h2 a3 h3 a4 h4 a5 h5 a6 h6 a7 h7 hc x0 x1 x2 x3 x4 = updC x0 x4 k0_pay3 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h5.read_unread,
    View.ld_unit_zero (S := S6x512x256) hz3, View.ld_unit_zero (S := S6x512x4) hz3]
  rfl

theorem outA6 (c : Dev nD) (i : grid0.Coords) (a1 : Memref sig .tc .vmem S6x512x256 .f32) (h1 : a1.IsWhole) (a2 : Memref sig .tc .vmem S6x512x256 .f32) (h2 : a2.IsWhole) (a3 : Memref sig .tc .vmem S6x512 .f32) (h3 : a3.IsWhole) (a4 : Memref sig .tc .vmem S6x256 .f32) (h4 : a4.IsWhole) (a5 : Memref sig .tc .vmem S6x512x4 .i32) (h5 : a5.IsWhole) (a6 : Memref sig .tc .vmem S1x128 .f32) (h6 : a6.IsWhole) (a7 : Memref sig .tc .vmem S6x128 .f32) (h7 : a7.IsWhole) (hc : cond0_0 i)
    (x0 x1 : Vec F S6x512x256 .f32) (x2 : Vec F S6x512 .f32) (x3 : Vec F S6x256 .f32) (x4 : Vec F S6x512x4 .i32) :
    out0_A_6 c i a1 h1 a2 h2 a3 h3 a4 h4 a5 h5 a6 h6 a7 h7 hc x0 x1 x2 x3 x4 = updR x1 x2 x3 x4 k0_pay4 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S6x128) hz, View.readCov_unit_zero (S := S6x128) _ hz]
  simp only [View.readAt_eq_ld, h2.read_unread, h3.read_unread, h4.read_unread, h5.read_unread,
    View.ld_unit_zero (S := S6x512x256) hz3, View.ld_unit_zero (S := S6x512x4) hz3, View.ld_unit_zero (S := S6x512) hz,
    View.ld_unit_zero (S := S6x256) hz]
  rfl

/-- After point `n` the two blocks are the running pair. -/
theorem outsAt_eq (c : Dev nD) : ∀ (n : ℕ) (h : n < cfg0.N), outsAt0 m c n h = chain m c n h := by
  intro n
  induction n with
  | zero =>
    intro h
    refine (outsAt0_A m c ⟨0, h⟩ (Nat.zero_mod _)).trans ?_
    rw [outA5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod _)) (iblk m c 0 ⟨0, h⟩) (iblk m c 1 ⟨0, h⟩) (iblk m c 2 ⟨0, h⟩) (iblk m c 3 ⟨0, h⟩) (iblk m c 4 ⟨0, h⟩),
      outA6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod _)) (iblk m c 0 ⟨0, h⟩) (iblk m c 1 ⟨0, h⟩) (iblk m c 2 ⟨0, h⟩) (iblk m c 3 ⟨0, h⟩) (iblk m c 4 ⟨0, h⟩)]
    rfl
  | succ n ih =>
    intro h
    have hN : cfg0.N = 32 := N_0
    have hB : ¬(⟨n + 1, h⟩ : Fin cfg0.N).val % 32 = 0 := by dsimp only; omega
    refine (outsAt0_B m c ⟨n + 1, h⟩ hB).trans ?_
    rw [outB5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2,
      outB6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2]
    show (updC _ _ (outsAt0 m c n _).1, updR _ _ _ _ (outsAt0 m c n _).2)
      = (updC _ _ (chain m c n _).1, updR _ _ _ _ (chain m c n _).2)
    rw [ih]

/-- The last grid point. -/
private abbrev t31 : Fin cfg0.N := ⟨31, by rw [show cfg0.N = 32 from N_0]; decide⟩

/-- At the last point window 5's block starts at the origin, -/
private theorem org5 : (fun a => win0_5.index t31 a * main_v2_0.ty.shape.size a) = fun _ => 0 :=
  funext fun a => by fin_cases a <;> decide +kernel

/-- and has the whole array's extents. -/
private theorem ext5 : ∀ a, win0_5.xsize (grid0.coords t31) a = S1x128.size a := by decide +kernel

/-- The one write-back of window 5, at the last point, writes the running block: the block at the origin with the
    array's own extents, read through zero offsets, is the array. -/
private theorem wb5 (c : Dev nD) (t : Fin cfg0.N) (hf : (cfg0.win 5).flush t = true) :
    (dats m 0 c).flushed 5 t = ((cfg0.win 5).blk t).view.read (Elt F) (last m c).1 := by
  have hN : cfg0.N = 32 := N_0
  have ht : t.val = 31 := by have := (flush0_5 t).mp hf; have := t.isLt; omega
  obtain rfl : t = t31 := Fin.ext ht
  show (cfg0.win 5).cut (grid0.coords t31) ((dats m 0 c).after 5 t31) = _
  rw [after0_5, outsAt_eq]
  exact (Memref.read_access_unit_zero (Elt F) main_v2_0 org5 (fun a => by rw [congrFun org5 a]; simp) (last m c).1).symm

/-- At the last point window 6's block starts at the origin, -/
private theorem org6 : (fun a => win0_6.index t31 a * main_v2_1.ty.shape.size a) = fun _ => 0 :=
  funext fun a => by fin_cases a <;> decide +kernel

/-- and has the whole array's extents. -/
private theorem ext6 : ∀ a, win0_6.xsize (grid0.coords t31) a = S6x128.size a := by decide +kernel

/-- The one write-back of window 6, at the last point, writes the running block: the block at the origin with the
    array's own extents, read through zero offsets, is the array. -/
private theorem wb6 (c : Dev nD) (t : Fin cfg0.N) (hf : (cfg0.win 6).flush t = true) :
    (dats m 0 c).flushed 6 t = ((cfg0.win 6).blk t).view.read (Elt F) (last m c).2 := by
  have hN : cfg0.N = 32 := N_0
  have ht : t.val = 31 := by have := (flush0_6 t).mp hf; have := t.isLt; omega
  obtain rfl : t = t31 := Fin.ext ht
  show (cfg0.win 6).cut (grid0.coords t31) ((dats m 0 c).after 6 t31) = _
  rw [after0_6, outsAt_eq]
  exact (Memref.read_access_unit_zero (Elt F) main_v2_1 org6 (fun a => by rw [congrFun org6 a]; simp) (last m c).2).symm

/-- The classification array after the region. -/
theorem final5 (c : Dev nD) : (dats m 0 c).arrAt 5 cfg0.N = (last m c).1 := by
  exact (dats m 0 c).arrAt_eq_of_cover 5 (last m c).1 (wb5 m c) fun i =>
    ⟨t31, (flush0_5 t31).mpr rfl, by
      show i ∈ ((View.whole main_v2_0).slice (win0_5.rect t31)).set
      rw [View.set_slice_whole, Rect.mem_set_unit]
      intro a
      show win0_5.index t31 a * win0_5.size a ≤ (i a : Nat)
        ∧ (i a : Nat) < win0_5.index t31 a * win0_5.size a + win0_5.xsize (grid0.coords t31) a
      have ho : win0_5.index t31 a * win0_5.size a = 0 := congrFun org5 a
      have hi : (i a : Nat) < win0_5.xsize (grid0.coords t31) a := by rw [ext5 a]; exact (i a).isLt
      omega⟩

/-- The regression array after the region. -/
theorem final6 (c : Dev nD) : (dats m 0 c).arrAt 6 cfg0.N = (last m c).2 := by
  exact (dats m 0 c).arrAt_eq_of_cover 6 (last m c).2 (wb6 m c) fun i =>
    ⟨t31, (flush0_6 t31).mpr rfl, by
      show i ∈ ((View.whole main_v2_1).slice (win0_6.rect t31)).set
      rw [View.set_slice_whole, Rect.mem_set_unit]
      intro a
      show win0_6.index t31 a * win0_6.size a ≤ (i a : Nat)
        ∧ (i a : Nat) < win0_6.index t31 a * win0_6.size a + win0_6.xsize (grid0.coords t31) a
      have ho : win0_6.index t31 a * win0_6.size a = 0 := congrFun org6 a
      have hi : (i a : Nat) < win0_6.xsize (grid0.coords t31) a := by rw [ext6 a]; exact (i a).isLt
      omega⟩

end Cert.KernelIdeal.Val

end
-- ==== Proof.KTail.lean ====
/-
  The kernel program's run read to its two results: after the region the two output arrays hold what the frame run
  computes for them, and the host's lines after the region (a slice, a reshape, two scalings; two slices, scalings, the
  choice by parameter kind, a sum) are pure functions of those arrays; the five arguments end unchanged.
-/
import proofs.«407714_j46377056862517_3_alg».proof.Proof.KDefs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]
variable (m : (ℓ : Loc nD τ sig) → Buf (Elt F) ℓ) (ρ : Dev nD → PrngReg)

/-- At the region's exit the first output array is the pipeline's window 5 after the last point. -/
private theorem exit_arr5 (c : Dev nD) :
    Pipeline.withArrays (cfgs 0).spec c (V0 m c) (fun w => (dats m 0 c).arrAt w (cfgs 0).N) (Proc.devRef .tc main_v2_0)
      = (dats m 0 c).arrAt 5 cfg0.N :=
  Pipeline.withArrays_arr spec0 launch0.win.arr_inj c _ _ 5

/-- At the region's exit the second output array is the pipeline's window 6 after the last point. -/
private theorem exit_arr6 (c : Dev nD) :
    Pipeline.withArrays (cfgs 0).spec c (V0 m c) (fun w => (dats m 0 c).arrAt w (cfgs 0).N) (Proc.devRef .tc main_v2_1)
      = (dats m 0 c).arrAt 6 cfg0.N :=
  Pipeline.withArrays_arr spec0 launch0.win.arr_inj c _ _ 6

open Idealize.ShloMosaic.StableHlo in
/-- The first result after the host's lines: only the six lines from the slice of the first array to the quotient
    write on the way to it, and composed they are the first tail. -/
private theorem tail_v6 (c : Dev nD) :
    Pipeline.afterTail₀ cfgs (dats m) 0 (V0 m) [hostOps1, hostOps1_1, hostOps1_2, hostOps1_3, hostOps1_4] c main_v6
      = tail0 ((dats m 0 c).arrAt 5 cfg0.N) := by
  unfold Pipeline.afterTail₀
  simp only [hostOps1, hostOps1_1, hostOps1_2, hostOps1_3, hostOps1_4, List.flatten_cons, List.flatten_nil,
    List.append_nil, List.cons_append, List.nil_append]
  after_results
  rw [exit_arr5 m c]
  rfl

open Idealize.ShloMosaic.StableHlo in
set_option maxHeartbeats 1600000 in
/-- The second result after the host's lines: the two lane slices scaled, the parity word of the parameter's number,
    the choice and the sum, composed, are the second tail. -/
private theorem tail_v22 (c : Dev nD) :
    Pipeline.afterTail₀ cfgs (dats m) 0 (V0 m) [hostOps1, hostOps1_1, hostOps1_2, hostOps1_3, hostOps1_4] c main_v22
      = tail1 ((dats m 0 c).arrAt 6 cfg0.N) := by
  unfold Pipeline.afterTail₀
  simp only [hostOps1, hostOps1_1, hostOps1_2, hostOps1_3, hostOps1_4, List.flatten_cons, List.flatten_nil,
    List.append_nil, List.cons_append, List.nil_append]
  after_results_simp
  rw [exit_arr6 m c]
  rfl

/-- The run, read: each result at the host tail's term of its output array, the arguments unchanged. -/
theorem run : θ_run defs (onTc (τ := τ) (main (F := F))) ⟨m, fun _ => 0, ρ⟩ fun r => ∀ c : Dev nD,
      r.2.mem ((c.tc : Thread nD τ).loc main_v6) = tail0 ((dats m 0 c).arrAt 5 cfg0.N)
      ∧ r.2.mem ((c.tc : Thread nD τ).loc main_v22) = tail1 ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_v6 m c),
      ((h c).2 main_v22 (Pipeline.mem_restRefs_of main_v22 (by decide) (by decide))).trans (tail_v22 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Val

end
-- ==== Proof.Spec.lean ====
/-
  The loss, stated once over the extended reals.

  Inputs: logits X[p, b, k] and offsets O[p, b, k] (6 parameters, a batch, 256 bins), targets T[p, b], bin
  centres C[p, k], and bin labels L[p, b, j] (4 labels per entry), the last three already laid out parameter-first.
  A label word is read as a bin by `lab`; on the domain 0 ≤ L < 256 that is the label itself.

  * row log-softmax: with mx = max(-∞, max_k f k), logp f k = (f k - mx) - log (∑_k' exp (f k' - mx));
  * nll p b = -(logp (X[p, b, ·]) (L[p, b, 0]));
  * dif p b j = (T[p, b] - C[p, L[p, b, j]]) - O[p, b, L[p, b, j]];
  * clsSum = ∑_p ∑_b nll p b, mseSum p = ∑_b ∑_j dif², rotSum p = ∑_b ∑_j cos (dif · 2).

  The extended reals are a commutative monoid under +, so every regrouping of these sums (by tile of the batch, by label
  slot, by parameter) is the same number; scaling by a non-negative real distributes over +.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 words the two programs spell, as the extended reals they denote. -/
abbrev ninf : EReal := Ideal.ofBits .f32 0xFF800000#32
abbrev zr : EReal := Ideal.ofBits .f32 0x00000000#32
abbrev two : EReal := Ideal.ofBits .f32 0x40000000#32
abbrev one : EReal := Ideal.ofBits .f32 0x3F800000#32
abbrev negOne : EReal := Ideal.ofBits .f32 0xBF800000#32
abbrev c16384 : EReal := Ideal.ofBits .f32 0x46800000#32
abbrev c65536 : EReal := Ideal.ofBits .f32 0x47800000#32

theorem zr_eq : zr = 0 := by
  simp [zr, Ideal.ofBits, Ideal.ieee]

theorem one_eq : one = 1 := by
  simp [one, Ideal.ofBits, Ideal.ieee, -EReal.coe_mul]; norm_num

theorem c16384_eq : c16384 = ((16384 : ℝ) : EReal) := by
  simp [c16384, Ideal.ofBits, Ideal.ieee, -EReal.coe_mul]; norm_num

theorem c65536_eq : c65536 = ((65536 : ℝ) : EReal) := by
  simp [c65536, Ideal.ofBits, Ideal.ieee, -EReal.coe_mul]; norm_num

/-- A label word read as a bin. -/
def lab (w : BitVec 32) : Fin 256 := ⟨w.toNat % 256, Nat.mod_lt _ (by norm_num)⟩

theorem lab_val_of_lt {w : BitVec 32} (h : w.toNat < 256) : (lab w).val = w.toNat := Nat.mod_eq_of_lt h

/-- The shifted row's maximum, taken from -∞ twice as both programs do. -/
def rowMax (f : Fin 256 → EReal) : EReal := max ninf ((Finset.univ : Finset (Fin 256)).fold max ninf f)

/-- Log-softmax of one row at bin `k`. -/
def rowLogp (f : Fin 256 → EReal) (k : Fin 256) : EReal :=
  (f k - rowMax f) - Ideal.log (∑ k' : Fin 256, Ideal.exp (f k' - rowMax f))

section Arrays

variable {N : Nat}

/-- The negative log-likelihood of entry (p, b)'s first label. -/
def nll (X : (⟨3, ![6, N, 256]⟩ : Shape).Idx → EReal) (L : (⟨3, ![6, N, 4]⟩ : Shape).Idx → BitVec 32)
    (p : Fin 6) (b : Fin N) : EReal :=
  -(rowLogp (fun k => X (ix3 p b k)) (lab (L (ix3 p b 0))))

/-- The regression residual of entry (p, b) at its label slot `j`. -/
def dif (O : (⟨3, ![6, N, 256]⟩ : Shape).Idx → EReal) (T : (⟨2, ![6, N]⟩ : Shape).Idx → EReal)
    (C : (⟨2, ![6, 256]⟩ : Shape).Idx → EReal) (L : (⟨3, ![6, N, 4]⟩ : Shape).Idx → BitVec 32)
    (p : Fin 6) (b : Fin N) (j : Fin 4) : EReal :=
  (T (ix2 p b) - C (ix2 p (lab (L (ix3 p b j))))) - O (ix3 p b (lab (L (ix3 p b j))))

def clsSum (X : (⟨3, ![6, N, 256]⟩ : Shape).Idx → EReal) (L : (⟨3, ![6, N, 4]⟩ : Shape).Idx → BitVec 32) : EReal :=
  ∑ p : Fin 6, ∑ b : Fin N, nll X L p b

def mseSum (O : (⟨3, ![6, N, 256]⟩ : Shape).Idx → EReal) (T : (⟨2, ![6, N]⟩ : Shape).Idx → EReal)
    (C : (⟨2, ![6, 256]⟩ : Shape).Idx → EReal) (L : (⟨3, ![6, N, 4]⟩ : Shape).Idx → BitVec 32) (p : Fin 6) : EReal :=
  ∑ b : Fin N, ∑ j : Fin 4, dif O T C L p b j * dif O T C L p b j

def rotSum (O : (⟨3, ![6, N, 256]⟩ : Shape).Idx → EReal) (T : (⟨2, ![6, N]⟩ : Shape).Idx → EReal)
    (C : (⟨2, ![6, 256]⟩ : Shape).Idx → EReal) (L : (⟨3, ![6, N, 4]⟩ : Shape).Idx → BitVec 32) (p : Fin 6) : EReal :=
  ∑ b : Fin N, ∑ j : Fin 4, Ideal.cos (dif O T C L p b j * two)

end Arrays

/-- The labels laid out parameter-first: entry (p, b, j) is the input's (b, p, j). -/
def Lt (a4 : (⟨3, ![16384, 6, 4]⟩ : Shape).Idx → BitVec 32) : (⟨3, ![6, 16384, 4]⟩ : Shape).Idx → BitVec 32 :=
  fun i => a4 (ix3 (i 1) (i 0) (i 2))

theorem Lt_apply (a4 : (⟨3, ![16384, 6, 4]⟩ : Shape).Idx → BitVec 32) (p : Fin 6) (b : Fin 16384) (j : Fin 4) :
    Lt a4 (ix3 p b j) = a4 (ix3 b p j) := rfl

/-- The targets laid out parameter-first: entry (p, b) is the input's (b, p). -/
def Tt (a2 : (⟨2, ![16384, 6]⟩ : Shape).Idx → EReal) : (⟨2, ![6, 16384]⟩ : Shape).Idx → EReal :=
  fun i => a2 (ix2 (i 1) (i 0))

theorem Tt_apply (a2 : (⟨2, ![16384, 6]⟩ : Shape).Idx → EReal) (p : Fin 6) (b : Fin 16384) :
    Tt a2 (ix2 p b) = a2 (ix2 b p) := rfl

/-! ## Sums of extended reals -/

/-- A sum that keeps one bin: the compare-and-sum gather. -/
theorem sum_onehot (f : Fin 256 → EReal) (l : Fin 256) : (∑ k : Fin 256, if k = l then f k else 0) = f l := by
  rw [Finset.sum_ite_eq' Finset.univ l f, if_pos (Finset.mem_univ l)]

/-- Four terms added one after the other from zero are their sum. -/
theorem chain4 (a : Fin 4 → EReal) : (((0 + a 0) + a 1) + a 2) + a 3 = ∑ j : Fin 4, a j := by
  rw [Fin.sum_univ_four, zero_add]

/-- Scaling by a non-negative real distributes over a finite sum. -/
theorem sum_mul_coe {ι : Type} (s : Finset ι) (a : ι → EReal) (r : ℝ) (hr : 0 ≤ r) :
    (∑ i ∈ s, a i) * (r : EReal) = ∑ i ∈ s, a i * (r : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hr) (EReal.coe_ne_top r) _ _

/-- Row `r` of tile `t` of a batch of 32 tiles of 512. -/
def row (t : Fin 32) (r : Fin 512) : Fin 16384 := ⟨512 * t.val + r.val, by have := t.isLt; have := r.isLt; omega⟩

/-- Summing tile by tile is summing the batch. -/
theorem sum_tiles (g : Fin 16384 → EReal) : (∑ t : Fin 32, ∑ r : Fin 512, g (row t r)) = ∑ b : Fin 16384, g b := by
  rw [← Finset.sum_product', Finset.univ_product_univ]
  refine Fintype.sum_equiv ⟨fun x => row x.1 x.2, fun b => (⟨b.val / 512, by have := b.isLt; omega⟩, ⟨b.val % 512, Nat.mod_lt _ (by norm_num)⟩), ?_, ?_⟩ _ _ (fun _ => rfl)
  · rintro ⟨t, r⟩
    have ht := t.isLt; have hr := r.isLt
    refine Prod.ext (Fin.ext ?_) (Fin.ext ?_)
    · show (512 * t.val + r.val) / 512 = t.val; omega
    · show (512 * t.val + r.val) % 512 = r.val; omega
  · intro b
    refine Fin.ext ?_
    show 512 * (b.val / 512) + b.val % 512 = b.val
    omega

end Cert.Spec

end
-- ==== Proof.KTailRead.lean ====
/-
  The host's lines after the region at the exact instance: lane 0 of the first array times one over 16384; and zero
  plus the sum over the six parameters of (minus one times lane 1) over 65536 for the odd ones, lane 0 over 65536 for
  the even ones (the parameter's number modulo two decides, evaluated on the six numbers).
-/
import proofs.«407714_j46377056862517_3_alg».proof.Proof.KUpd
import proofs.«407714_j46377056862517_3_alg».proof.Proof.Spec
import Idealize.ShloMosaic.Lib.Pipeline.Value
import Idealize.ShloMosaic.Lib.ValueLayout
import Idealize.ShloMosaic.Lib.ValueIdxRank1

noncomputable section

open Idealize.ShloMosaic Idealize.ShloMosaic.ValueIdx

namespace Cert.KernelIdeal.Val

open Cert.KernelIdeal Cert.KernelIdeal.Gen

/-- Every coordinate of an index of the one-element block is zero. -/
private theorem unit_coord (x : S1x1.Idx) (b : Fin 2) : (x b).val = 0 := by
  have h := (x b).isLt
  match b with
  | ⟨0, _⟩ => exact Nat.lt_one_iff.mp h
  | ⟨1, _⟩ => exact Nat.lt_one_iff.mp h

/-- The one-row block sliced to its first element and read as a scalar is its entry (0, 0). -/
private theorem lane0_cls (cls : FVec Ideal S1x128 .f32) (j : S_.Idx) :
    shapeCast S_ (extractStridedSlice S1x1 ![0, 0] cls Facts₀.slices_S1x128_S1x1_0_0) Facts₀.shapeCasts_S1x1_S_ j
      = cls (ix2 (0 : Fin 1) (0 : Fin 128)) := by
  unfold shapeCast
  refine extractStridedSlice_apply _ _ _ _ _ fun a => ?_
  match a with
  | ⟨0, _⟩ => exact ((congrArg (0 + ·) (unit_coord _ _)).trans (Nat.zero_add 0)).symm
  | ⟨1, _⟩ => exact ((congrArg (0 + ·) (unit_coord _ _)).trans (Nat.zero_add 0)).symm

/-- Column 0 of the six-row block, read as a vector, at parameter `p` is the block's entry (p, 0). -/
private theorem lane0_reg (reg : FVec Ideal S6x128 .f32) (p : Fin 6) :
    shapeCast S6 (extractStridedSlice S6x1 ![0, 0] reg Facts₀.slices_S6x128_S6x1_0_0) Facts₀.shapeCasts_S6x1_S6 (ix1 p)
      = reg (ix2 p (0 : Fin 128)) := by
  refine (shapeCast_apply _ _ (ix1 p) (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (0 : ℕ) = 0 + 0; rfl

/-- Column 1 of the six-row block, read as a vector, at parameter `p` is the block's entry (p, 1). -/
private theorem lane1_reg (reg : FVec Ideal S6x128 .f32) (p : Fin 6) :
    shapeCast S6 (extractStridedSlice S6x1 ![0, 1] reg Facts₀.slices_S6x128_S6x1_0_1) Facts₀.shapeCasts_S6x1_S6 (ix1 p)
      = reg (ix2 p (1 : Fin 128)) := by
  refine (shapeCast_apply _ _ (ix1 p) (ix2 p (0 : Fin 1)) ?_).trans ?_
  · rw [Shape.rowMajor_val_two, Shape.rowMajor_val_one]
    show p.val * 1 + 0 = p.val
    omega
  · refine extractStridedSlice_apply _ _ _ _ _ fun a => ?_
    match a with
    | ⟨0, _⟩ => show p.val = 0 + p.val; omega
    | ⟨1, _⟩ => show (1 : ℕ) = 1 + 0; rfl

/-- The parity word: one exactly at the odd parameters (the signed remainder of 0 … 5 by 2 is never negative, so the
    floored remainder's correction never applies). -/
private theorem isRot_apply (p : Fin 6) : isRot (ix1 p) = if p.val % 2 = 1 then 1#1 else 0#1 := by
  fin_cases p <;> rfl

/-- The first tail at the exact instance. -/
theorem tail0_apply (cls : FVec Ideal S1x128 .f32) :
    tail0 cls = fun _ => Ideal.div (Spec.one * cls (ix2 (0 : Fin 1) (0 : Fin 128))) Spec.c16384 := by
  funext j
  exact congrArg (fun v => Ideal.div (Spec.one * v) Spec.c16384) (lane0_cls cls j)

/-- The second tail at the exact instance. -/
theorem tail1_apply (reg : FVec Ideal S6x128 .f32) :
    tail1 reg = fun _ => Spec.zr + ∑ p : Fin 6,
      if p.val % 2 = 1 then Ideal.div (Spec.negOne * reg (ix2 p (1 : Fin 128))) Spec.c65536
      else Ideal.div (reg (ix2 p (0 : Fin 128))) Spec.c65536 := by
  funext j
  refine (Ideal.hostReduceAdd_total Facts₀.reducesTo_S6_S_d0 (fun b => b.elim0) _ _ j).trans ?_
  refine congrArg (Spec.zr + ·) ?_
  refine (Equiv.sum_comp (idxEquiv1 (n := 6)).symm _).symm.trans ?_
  refine Finset.sum_congr rfl fun p _ => ?_
  show Scalar.select (isRot (ix1 p))
      (Ideal.div (Spec.negOne * shapeCast S6 (extractStridedSlice S6x1 ![0, 1] reg Facts₀.slices_S6x128_S6x1_0_1)
        Facts₀.shapeCasts_S6x1_S6 (ix1 p)) Spec.c65536)
      (Ideal.div (shapeCast S6 (extractStridedSlice S6x1 ![0, 0] reg Facts₀.slices_S6x128_S6x1_0_0)
        Facts₀.shapeCasts_S6x1_S6 (ix1 p)) Spec.c65536) = _
  rw [isRot_apply, lane1_reg, lane0_reg]
  by_cases hp : p.val % 2 = 1
  · rw [if_pos hp, if_pos hp, select_one]
  · rw [if_neg hp, if_neg hp, select_zero]

end Cert.KernelIdeal.Val

end
-- ==== Proof.KBlocks.lean ====
/-
  The five input tiles at a grid point are restrictions of the argument arrays: tile t holds rows 512·t … 512·t + 511
  of the batch. The logits and offsets tiles read the arguments directly; the targets and labels tiles read the
  parameter-first transposes the host makes before the region, so they read the arguments with batch and parameter
  swapped; the centres tile is the whole table at every point.
-/
import proofs.«407714_j46377056862517_3_alg».proof.Proof.KDefs
import proofs.«407714_j46377056862517_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- A grid point as a tile number. -/
def tile (t : Fin cfg0.N) : Fin 32 := ⟨t.val, lt_of_lt_of_eq t.isLt N_0⟩

/-- Window 0's block index over the grid: (0, t, 0). -/
private theorem idx0 : ∀ t : Fin grid0.N, win0_0.index t (0 : Fin 3) = 0 ∧ win0_0.index t (1 : Fin 3) = t.val
    ∧ win0_0.index t (2 : Fin 3) = 0 := by decide +kernel

/-- Window 1's block index over the grid: (0, t, 0). -/
private theorem idx1 : ∀ t : Fin grid0.N, win0_1.index t (0 : Fin 3) = 0 ∧ win0_1.index t (1 : Fin 3) = t.val
    ∧ win0_1.index t (2 : Fin 3) = 0 := by decide +kernel

/-- Window 2's block index over the grid: (0, t). -/
private theorem idx2 : ∀ t : Fin grid0.N, win0_2.index t (0 : Fin 2) = 0 ∧ win0_2.index t (1 : Fin 2) = t.val := by
  decide +kernel

/-- Window 3's block index over the grid: (0, 0). -/
private theorem idx3 : ∀ t : Fin grid0.N, win0_3.index t (0 : Fin 2) = 0 ∧ win0_3.index t (1 : Fin 2) = 0 := by
  decide +kernel

/-- Window 4's block index over the grid: (0, t, 0). -/
private theorem idx4 : ∀ t : Fin grid0.N, win0_4.index t (0 : Fin 3) = 0 ∧ win0_4.index t (1 : Fin 3) = t.val
    ∧ win0_4.index t (2 : Fin 3) = 0 := by decide +kernel

/-- The targets as the region finds them: the transpose of the argument, parameter first. -/
private theorem V_v1 (c : Dev nD) : (V m c main_v1 : S6x16384.Idx → _)
    = transpose S6x16384 [1, 0] (m ((c.tc : Thread nD τ).loc main_arg2)) transposes_S16384x6_S6x16384_1_0 := by
  dsimp only [Gen.V, Gen.V0]
  simp only [Gen.hostOps0, List.flatten_cons, List.flatten_nil, List.append_nil]
  after_results

/-- The labels as the region finds them: the transpose of the argument, parameter first. -/
private theorem V_v0 (c : Dev nD) : (V m c main_v0 : S6x16384x4.Idx → _)
    = transpose S6x16384x4 [1, 0, 2] (m ((c.tc : Thread nD τ).loc main_arg4)) transposes_S16384x6x4_S6x16384x4_1_0_2 := by
  dsimp only [Gen.V, Gen.V0]
  simp only [Gen.hostOps0, List.flatten_cons, List.flatten_nil, List.append_nil]
  after_results

theorem xb0_apply (c : Dev nD) (t : Fin cfg0.N) (p : Fin 6) (r : Fin 512) (k : Fin 256) :
    xb0 m c t (ix3 p r k) = m ((c.tc : Thread nD τ).loc main_arg0) (ix3 p (Spec.row (tile t) r) k) := by
  have hi := idx0 t
  unfold xb0 iblk
  rw [View.read_apply]
  show V m c main_arg0 _ = m (c.tc.loc main_arg0) _
  refine (congrFun (V_main_arg0 m c) _).trans ?_
  congr 1
  funext a
  apply Fin.ext
  match a with
  | ⟨0, _⟩ => show win0_0.index t 0 * 6 + 1 * p.val = p.val; rw [hi.1]; omega
  | ⟨1, _⟩ => show win0_0.index t 1 * 512 + 1 * r.val = 512 * t.val + r.val; rw [hi.2.1]; omega
  | ⟨2, _⟩ => show win0_0.index t 2 * 256 + 1 * k.val = k.val; rw [hi.2.2]; omega

theorem xb1_apply (c : Dev nD) (t : Fin cfg0.N) (p : Fin 6) (r : Fin 512) (k : Fin 256) :
    xb1 m c t (ix3 p r k) = m ((c.tc : Thread nD τ).loc main_arg1) (ix3 p (Spec.row (tile t) r) k) := by
  have hi := idx1 t
  unfold xb1 iblk
  rw [View.read_apply]
  show V m c main_arg1 _ = m (c.tc.loc main_arg1) _
  refine (congrFun (V_main_arg1 m c) _).trans ?_
  congr 1
  funext a
  apply Fin.ext
  match a with
  | ⟨0, _⟩ => show win0_1.index t 0 * 6 + 1 * p.val = p.val; rw [hi.1]; omega
  | ⟨1, _⟩ => show win0_1.index t 1 * 512 + 1 * r.val = 512 * t.val + r.val; rw [hi.2.1]; omega
  | ⟨2, _⟩ => show win0_1.index t 2 * 256 + 1 * k.val = k.val; rw [hi.2.2]; omega

theorem xb2_apply (c : Dev nD) (t : Fin cfg0.N) (p : Fin 6) (r : Fin 512) :
    xb2 m c t (ix2 p r) = m ((c.tc : Thread nD τ).loc main_arg2) (ix2 (Spec.row (tile t) r) p) := by
  have hi := idx2 t
  unfold xb2 iblk
  rw [View.read_apply]
  show V m c main_v1 _ = m (c.tc.loc main_arg2) _
  refine (congrFun (V_v1 m c) _).trans ?_
  refine transpose_apply _ _ _ _ (ix2 (Spec.row (tile t) r) p) fun b => ?_
  match b with
  | ⟨0, _⟩ => show p.val = win0_2.index t 0 * 6 + 1 * p.val; rw [hi.1]; omega
  | ⟨1, _⟩ => show 512 * t.val + r.val = win0_2.index t 1 * 512 + 1 * r.val; rw [hi.2]; omega

theorem xb3_apply (c : Dev nD) (t : Fin cfg0.N) (p : Fin 6) (k : Fin 256) :
    xb3 m c t (ix2 p k) = m ((c.tc : Thread nD τ).loc main_arg3) (ix2 p k) := by
  have hi := idx3 t
  unfold xb3 iblk
  rw [View.read_apply]
  show V m c main_arg3 _ = m (c.tc.loc main_arg3) _
  refine (congrFun (V_main_arg3 m c) _).trans ?_
  congr 1
  funext a
  apply Fin.ext
  match a with
  | ⟨0, _⟩ => show win0_3.index t 0 * 6 + 1 * p.val = p.val; rw [hi.1]; omega
  | ⟨1, _⟩ => show win0_3.index t 1 * 256 + 1 * k.val = k.val; rw [hi.2]; omega

theorem xb4_apply (c : Dev nD) (t : Fin cfg0.N) (p : Fin 6) (r : Fin 512) (j : Fin 4) :
    xb4 m c t (ix3 p r j) = m ((c.tc : Thread nD τ).loc main_arg4) (ix3 (Spec.row (tile t) r) p j) := by
  have hi := idx4 t
  unfold xb4 iblk
  rw [View.read_apply]
  show V m c main_v0 _ = m (c.tc.loc main_arg4) _
  refine (congrFun (V_v0 m c) _).trans ?_
  refine transpose_apply _ _ _ _ (ix3 (Spec.row (tile t) r) p j) fun b => ?_
  match b with
  | ⟨0, _⟩ => show p.val = win0_4.index t 0 * 6 + 1 * p.val; rw [hi.1]; omega
  | ⟨1, _⟩ => show 512 * t.val + r.val = win0_4.index t 1 * 512 + 1 * r.val; rw [hi.2.1]; omega
  | ⟨2, _⟩ => show j.val = win0_4.index t 2 * 4 + 1 * j.val; rw [hi.2.2]; omega

end Cert.KernelIdeal.Val

end
-- ==== Proof.KPayC.lean ====
/-
  One grid point's classification update at the exact instance, index by index.

  The block gains in every lane the tile's `clsSum`: per row, the maximum over the bins from -∞ joined with -∞, the
  logits shifted by it, the logarithm of the sum of their exponentials, the log-probabilities; the compare-and-sum over
  the 256 bins keeps the bin equal to the first label (a label below 256 equals exactly one lane number), so each row
  contributes zero minus its log-probability at that label; and the sum over the (1, 6, 512, 1) arrangement of those
  row values is the sum over parameters and rows.
-/
import proofs.«407714_j46377056862517_3_alg».proof.Proof.KUpd
import proofs.«407714_j46377056862517_3_alg».proof.Proof.Spec
import Idealize.ShloMosaic.Lib.Pipeline.Value
import Idealize.ShloMosaic.Lib.ValueLayout

noncomputable section

open Idealize.ShloMosaic Idealize.ShloMosaic.TcCoe Idealize.ShloMosaic.ValueIdx

namespace Cert.KernelIdeal.Val

open Cert.KernelIdeal Cert.KernelIdeal.Gen

/-! ## Layout operations read at coordinates -/

section Layout
variable {α : Type}

/-- A [6,512] array viewed [6,512,1] (the keepdims column) reads (p, r) at (p, r, ·). -/
private theorem col_apply (v : S6x512.Idx → α) (h : S6x512.ShapeCasts S6x512x1) (p : Fin 6) (r : Fin 512) (u : Fin 1) :
    shapeCast S6x512x1 v h (ix3 p r u) = v (ix2 p r) := by
  refine shapeCast_apply v h (ix3 p r u) (ix2 p r) ?_
  rw [Shape.rowMajor_val_two, Shape.rowMajor_val_three]
  have hu := u.isLt
  show p.val * 512 + r.val = (p.val * 512 + r.val) * 1 + u.val
  omega

/-- A [6,512,1] column viewed [6,512] reads (p, r, 0) at (p, r). -/
private theorem uncol_apply (v : S6x512x1.Idx → α) (h : S6x512x1.ShapeCasts S6x512) (p : Fin 6) (r : Fin 512) :
    shapeCast S6x512 v h (ix2 p r) = v (ix3 p r (0 : Fin 1)) := by
  refine shapeCast_apply v h (ix2 p r) (ix3 p r (0 : Fin 1)) ?_
  rw [Shape.rowMajor_val_two, Shape.rowMajor_val_three]
  show (p.val * 512 + r.val) * 1 + 0 = p.val * 512 + r.val
  omega

/-- A [6,512,1] column broadcast along the 256 bins reads (p, r, 0) at every (p, r, k). -/
private theorem bcol_apply (v : S6x512x1.Idx → α) (h : S6x512x1.Broadcasts S6x512x256) (p : Fin 6) (r : Fin 512)
    (k : Fin 256) : broadcastTo S6x512x256 v h (ix3 p r k) = v (ix3 p r (0 : Fin 1)) := by
  refine broadcastTo_apply v h (ix3 p r k) (ix3 p r (0 : Fin 1)) fun a => ?_
  match a with
  | ⟨0, _⟩ => rfl
  | ⟨1, _⟩ => rfl
  | ⟨2, _⟩ => rfl

/-- The first of the four label slots, cut out as a [6,512,1] column. -/
private theorem slot0_apply (v : S6x512x4.Idx → α) (h : S6x512x4.Slices ![0, 0, 0] S6x512x1) (p : Fin 6) (r : Fin 512)
    (u : Fin 1) : extractStridedSlice S6x512x1 ![0, 0, 0] v h (ix3 p r u) = v (ix3 p r (0 : Fin 4)) := by
  refine extractStridedSlice_apply _ v h (ix3 p r u) (ix3 p r (0 : Fin 4)) fun a => ?_
  have hu := u.isLt
  match a with
  | ⟨0, _⟩ => show p.val = 0 + p.val; omega
  | ⟨1, _⟩ => show r.val = 0 + r.val; omega
  | ⟨2, _⟩ => show 0 = 0 + u.val; omega

/-- The index over (p, r) with bin k inserted on the reduced last axis is (p, r, k). -/
private theorem lift_eq (h : S6x512x256.Reduces [2] S6x512) (p : Fin 6) (r : Fin 512) (k : Fin 256) :
    h.lift (ix2 p r) k = ix3 p r k := by
  funext c
  match c with
  | ⟨0, _⟩ => rfl
  | ⟨1, _⟩ => rfl
  | ⟨2, _⟩ => rfl

end Layout

/-! ## The two lane reductions at a row -/

/-- A lane sum at row (p, r) is the sum over the 256 bins. -/
private theorem laneSum_apply (src : FVec Ideal S6x512x256 .f32) (h : S6x512x256.Reduces [2] S6x512)
    (hφ : FKind.Formats .f32) (hacc : (0x00000000#32 : BitVec 32) = FKind.add.neutral .f32 hφ) (p : Fin 6) (r : Fin 512) :
    multiReduction .add [2] S6x512 src 0x00000000#32 h hφ hacc (ix2 p r) = ∑ k : Fin 256, src (ix3 p r k) := by
  refine (Ideal.multiReduction_add_single src _ h hφ hacc (ix2 p r)).trans ?_
  exact Finset.sum_congr rfl fun k _ => congrArg src (lift_eq h p r k)

/-- A lane maximum at row (p, r) is the fold of max from -∞ over the 256 bins. -/
private theorem laneMax_apply (src : FVec Ideal S6x512x256 .f32) (h : S6x512x256.Reduces [2] S6x512)
    (hφ : FKind.Formats .f32) (hacc : (0xFF800000#32 : BitVec 32) = FKind.maximumf.neutral .f32 hφ) (p : Fin 6)
    (r : Fin 512) :
    multiReduction .maximumf [2] S6x512 src 0xFF800000#32 h hφ hacc (ix2 p r)
      = (Finset.univ : Finset (Fin 256)).fold max Spec.ninf (fun k => src (ix3 p r k)) := by
  refine (Ideal.multiReduction_maximumf_single src _ h hφ hacc (ix2 p r)).trans ?_
  exact congrArg (fun g : Fin 256 → EReal => (Finset.univ : Finset (Fin 256)).fold max Spec.ninf g)
    (funext fun k => congrArg src (lift_eq h p r k))

/-! ## Words: a lane number against a label -/

/-- A bin number equals a label word below 256 exactly when it is the bin the label names. -/
private theorem word_eq_iff (k : Fin 256) (w : BitVec 32) (hw : w.toNat < 256) :
    BitVec.ofNat 32 k.val = w ↔ k = Spec.lab w := by
  have hk := k.isLt
  constructor
  · intro h
    apply Fin.ext
    rw [Spec.lab_val_of_lt hw, ← h, BitVec.toNat_ofNat]
    omega
  · intro h
    apply BitVec.eq_of_toNat_eq
    rw [BitVec.toNat_ofNat, h, Spec.lab_val_of_lt hw]
    omega

/-- The comparison's bit is set exactly on equal words. -/
private theorem cmpi_eq_one_iff (a b : BitVec 32) : IntOp.cmpi .eq a b = 1#1 ↔ a = b := by
  show BitVec.ofBool (a == b) = 1#1 ↔ a = b
  by_cases h : a = b
  · subst h; simp
  · have hf : (a == b) = false := beq_eq_false_iff_ne.mpr h
    rw [hf]
    exact ⟨fun h' => absurd h' (by decide), fun h' => absurd h' h⟩

/-! ## The payload's intermediate values -/

/-- The row maximum joined with -∞, broadcast along the bins. -/
private def pMax (x0 : Vec Ideal S6x512x256 .f32) : FVec Ideal S6x512x256 .f32 :=
  broadcastTo S6x512x256
    (shapeCast S6x512x1
      (maximumf (broadcast S6x512 (Scalar.ofBits .f32 0xFF800000#32))
        (multiReduction .maximumf [2] S6x512 x0 0xFF800000#32 Facts₀.reduces_S6x512x256_S6x512 (.inl rfl) rfl))
      Facts₀.shapeCasts_S6x512_S6x512x1)
    Facts₀.broadcasts_S6x512x1_S6x512x256

/-- The shifted logits. -/
private def pSh (x0 : Vec Ideal S6x512x256 .f32) : FVec Ideal S6x512x256 .f32 := subf x0 (pMax x0)

/-- The log-probabilities. -/
private def pLogp (x0 : Vec Ideal S6x512x256 .f32) : FVec Ideal S6x512x256 .f32 :=
  subf (pSh x0)
    (broadcastTo S6x512x256
      (log (shapeCast S6x512x1
        (multiReduction .add [2] S6x512 (exp (pSh x0)) 0x00000000#32 Facts₀.reduces_S6x512x256_S6x512 (.inl rfl) rfl)
        Facts₀.shapeCasts_S6x512_S6x512x1))
      Facts₀.broadcasts_S6x512x1_S6x512x256)

/-- The mask: the lane number equals the first label, broadcast along the bins. -/
private def pMask (x4 : Vec Ideal S6x512x4 .i32) : IVec S6x512x256 1 :=
  cmpi .eq (iota .tc S6x512x256 32 [2] Facts₀.iota_S6x512x256_d2_w32)
    (broadcastTo S6x512x256
      (shapeCast S6x512x1
        (shapeCast S6x512
          (extractStridedSlice S6x512x1 ![0, 0, 0] (k0_pay6 (F := Ideal) x4) Facts₀.slices_S6x512x4_o0_0_0_S6x512x1)
          Facts₀.shapeCasts_S6x512x1_S6x512)
        Facts₀.shapeCasts_S6x512_S6x512x1)
      Facts₀.broadcasts_S6x512x1_S6x512x256)

/-- The per-row masked lane sum. -/
private def pRow (x0 : Vec Ideal S6x512x256 .f32) (x4 : Vec Ideal S6x512x4 .i32) : FVec Ideal S6x512 .f32 :=
  multiReduction .add [2] S6x512
    (select (pMask x4) (subf (broadcast S6x512x256 (Scalar.ofBits .f32 0x00000000#32)) (pLogp x0))
      (broadcast S6x512x256 (Scalar.ofBits .f32 0x00000000#32)))
    0x00000000#32 Facts₀.reduces_S6x512x256_S6x512 (.inl rfl) rfl

/-- The payload is the total sum of the per-row values laid out [1,6,512,1]. -/
private theorem pay7_eq (x0 : Vec Ideal S6x512x256 .f32) (x4 : Vec Ideal S6x512x4 .i32) :
    k0_pay7 x0 x4
      = multiReduction .add [1, 2, 3] S1
          (shapeCast S1x6x512x1 (shapeCast S6x512x1 (pRow x0 x4) Facts₀.shapeCasts_S6x512_S6x512x1)
            Facts₀.shapeCasts_S6x512x1_S1x6x512x1)
          0x00000000#32 Facts₀.reduces_S1x6x512x1_S1 (.inl rfl) rfl := rfl

/-! ## The pieces at coordinates -/

/-- The broadcast row maximum at (p, r, k) is the row's `rowMax`. -/
private theorem pMax_apply (x0 : Vec Ideal S6x512x256 .f32) (p : Fin 6) (r : Fin 512) (k : Fin 256) :
    pMax x0 (ix3 p r k) = Spec.rowMax (fun k' => x0 (ix3 p r k')) := by
  unfold pMax
  rw [bcol_apply, col_apply, maximumf_apply]
  exact congrArg (fun m => max Spec.ninf m) (laneMax_apply x0 _ _ _ p r)

/-- The log-probabilities at (p, r, k) are the row's `rowLogp` at k. -/
private theorem pLogp_apply (x0 : Vec Ideal S6x512x256 .f32) (p : Fin 6) (r : Fin 512) (k : Fin 256) :
    pLogp x0 (ix3 p r k) = Spec.rowLogp (fun k' => x0 (ix3 p r k')) k := by
  have hsh : ∀ k' : Fin 256, pSh x0 (ix3 p r k') = x0 (ix3 p r k') - Spec.rowMax (fun k'' => x0 (ix3 p r k'')) := by
    intro k'
    unfold pSh
    rw [subf_apply, pMax_apply]
  unfold pLogp
  rw [subf_apply, bcol_apply, hsh]
  show _ - Ideal.log (shapeCast S6x512x1 _ _ (ix3 p r (0 : Fin 1))) = _
  rw [col_apply]
  have hsum : multiReduction .add [2] S6x512 (exp (pSh x0)) 0x00000000#32 Facts₀.reduces_S6x512x256_S6x512 (.inl rfl) rfl
        (ix2 p r)
      = ∑ k' : Fin 256, Ideal.exp (x0 (ix3 p r k') - Spec.rowMax (fun k'' => x0 (ix3 p r k''))) :=
    (laneSum_apply (exp (pSh x0)) _ _ _ p r).trans
      (Finset.sum_congr rfl fun k' _ => by
        show Ideal.exp (pSh x0 (ix3 p r k')) = _
        rw [hsh])
  exact congrArg (fun s => (x0 (ix3 p r k) - Spec.rowMax (fun k'' => x0 (ix3 p r k''))) - Ideal.log s) hsum

/-- The mask's bit at (p, r, k) is set exactly when k is the bin the first label names. -/
private theorem pMask_apply (x4 : Vec Ideal S6x512x4 .i32) (p : Fin 6) (r : Fin 512) (k : Fin 256)
    (hw : (x4 (ix3 p r (0 : Fin 4)) : BitVec 32).toNat < 256) :
    pMask x4 (ix3 p r k) = 1#1 ↔ k = Spec.lab (x4 (ix3 p r (0 : Fin 4))) := by
  have hl : iota .tc S6x512x256 32 [2] Facts₀.iota_S6x512x256_d2_w32 (ix3 p r k) = BitVec.ofNat 32 k.val :=
    iota_single_apply .tc S6x512x256 32 2 Facts₀.iota_S6x512x256_d2_w32 (ix3 p r k)
  have hb : broadcastTo S6x512x256
      (shapeCast S6x512x1
        (shapeCast S6x512
          (extractStridedSlice S6x512x1 ![0, 0, 0] (k0_pay6 (F := Ideal) x4) Facts₀.slices_S6x512x4_o0_0_0_S6x512x1)
          Facts₀.shapeCasts_S6x512x1_S6x512)
        Facts₀.shapeCasts_S6x512_S6x512x1)
      Facts₀.broadcasts_S6x512x1_S6x512x256 (ix3 p r k) = x4 (ix3 p r (0 : Fin 4)) := by
    rw [bcol_apply, col_apply, uncol_apply, slot0_apply]
    unfold k0_pay6
    rw [shapeCast_self]
  show IntOp.cmpi .eq _ _ = 1#1 ↔ _
  rw [hl, hb, cmpi_eq_one_iff]
  exact word_eq_iff k _ hw

/-- The masked lane sum at row (p, r) is the row's negative log-likelihood. -/
private theorem pRow_apply (x0 : Vec Ideal S6x512x256 .f32) (x4 : Vec Ideal S6x512x4 .i32) (p : Fin 6) (r : Fin 512)
    (hw : (x4 (ix3 p r (0 : Fin 4)) : BitVec 32).toNat < 256) :
    pRow x0 x4 (ix2 p r) = Spec.nll (N := 512) x0 x4 p r := by
  unfold pRow
  refine (laneSum_apply _ _ _ _ p r).trans ?_
  have hterm : ∀ k : Fin 256,
      select (pMask x4) (subf (broadcast S6x512x256 (Scalar.ofBits .f32 0x00000000#32)) (pLogp x0))
          (broadcast S6x512x256 (Scalar.ofBits (F := Ideal) .f32 0x00000000#32)) (ix3 p r k)
        = if k = Spec.lab (x4 (ix3 p r (0 : Fin 4))) then -(Spec.rowLogp (fun k' => x0 (ix3 p r k')) k) else 0 := by
    intro k
    rw [select_apply, subf_apply, pLogp_apply]
    show (if pMask x4 (ix3 p r k) = 1#1 then Spec.zr - _ else Spec.zr) = _
    rw [Spec.zr_eq, zero_sub]
    exact if_congr (pMask_apply x4 p r k hw) rfl rfl
  rw [Finset.sum_congr rfl fun k _ => hterm k]
  exact Spec.sum_onehot (fun k => -(Spec.rowLogp (fun k' => x0 (ix3 p r k')) k)) _

/-! ## The total sum over the (1, 6, 512, 1) arrangement -/

/-- The (1, 6, 512, 1) index set is parameters times rows: the two unit coordinates are 0. -/
private def idxEquiv4 : S1x6x512x1.Idx ≃ Fin 6 × Fin 512 where
  toFun i := (i 1, i 2)
  invFun q := ix4 (0 : Fin 1) q.1 q.2 (0 : Fin 1)
  left_inv i := by
    funext a
    match a with
    | ⟨0, h0⟩ =>
      have hlt : (i ⟨0, h0⟩).val < 1 := (i ⟨0, h0⟩).isLt
      exact Fin.ext (show 0 = (i ⟨0, h0⟩).val by omega)
    | ⟨1, _⟩ => rfl
    | ⟨2, _⟩ => rfl
    | ⟨3, h3⟩ =>
      have hlt : (i ⟨3, h3⟩).val < 1 := (i ⟨3, h3⟩).isLt
      exact Fin.ext (show 0 = (i ⟨3, h3⟩).val by omega)
  right_inv _ := rfl

/-- So a sum over it is the double sum over parameters and rows. -/
private theorem sum_idx4 (f : S1x6x512x1.Idx → EReal) :
    ∑ i, f i = ∑ p : Fin 6, ∑ r : Fin 512, f (ix4 (0 : Fin 1) p r (0 : Fin 1)) := by
  rw [← Equiv.sum_comp idxEquiv4.symm f, Fintype.sum_prod_type]
  rfl

/-- The payload's one element is the tile's `clsSum`. -/
private theorem pay7_apply (x0 : Vec Ideal S6x512x256 .f32) (x4 : Vec Ideal S6x512x4 .i32)
    (hx4 : ∀ i, (x4 i : BitVec 32).toNat < 256) :
    k0_pay7 x0 x4 (ix1 (0 : Fin 1)) = Spec.clsSum (N := 512) x0 x4 := by
  rw [pay7_eq]
  refine (Ideal.multiReduction_add_total _ _ Facts₀.reduces_S1x6x512x1_S1
    (fun b => match b with | ⟨0, _⟩ => rfl) _ _ (ix1 (0 : Fin 1))).trans ?_
  rw [sum_idx4]
  unfold Spec.clsSum
  refine Finset.sum_congr rfl fun p _ => Finset.sum_congr rfl fun r _ => ?_
  refine (shapeCast_abc_1abc_apply _ _ (0 : Fin 1) p r (0 : Fin 1)).trans ?_
  refine (col_apply _ _ p r (0 : Fin 1)).trans ?_
  exact pRow_apply x0 x4 p r (hx4 _)

/-- The extraction of the one element of a [1] vector viewed [1,1,1,1]. -/
private theorem pay8_apply (v : FVec Ideal S1 .f32) : k0_pay8 v = v (ix1 (0 : Fin 1)) :=
  shapeCast_apply v Facts₀.shapeCasts_S1_S1x1x1x1
    (fun a => ⟨(![0, 0, 0, 0] : Fin 4 → Nat) a, Facts₀.inpos_S1x1x1x1_p0_0_0_0 a⟩) (ix1 (0 : Fin 1))
    (by rw [Shape.rowMajor_val_one, Shape.rowMajor_val_four]; rfl)

theorem pay3_apply (y : S1x128.Idx) : (k0_pay3 : FVec Ideal S1x128 .f32) y = Spec.zr := by
  rfl

theorem updC_apply (x0 : Vec Ideal S6x512x256 .f32) (x4 : Vec Ideal S6x512x4 .i32) (xo5 : Vec Ideal S1x128 .f32)
    (hx4 : ∀ i, (x4 i : BitVec 32).toNat < 256) (l : Fin 128) :
    updC x0 x4 xo5 (ix2 (0 : Fin 1) l) = xo5 (ix2 (0 : Fin 1) l) + Spec.clsSum (N := 512) x0 x4 := by
  have h1 : updC x0 x4 xo5 (ix2 (0 : Fin 1) l)
      = shapeCast S1x128 xo5 Facts₀.shapeCasts_S1x128_S1x128 (ix2 (0 : Fin 1) l) + k0_pay8 (k0_pay7 x0 x4) := rfl
  rw [h1, shapeCast_self, pay8_apply, pay7_apply x0 x4 hx4]

end Cert.KernelIdeal.Val

end
-- ==== Proof.KPayR.lean ====
/-
  One grid point's regression update at the exact instance, index by index.

  For each of the four label slots the compare-and-sum over the 256 bins keeps the offset, and the centre, at the
  slot's label (a label below 256 equals exactly one lane number); the residual is target minus centre minus offset;
  its squares, and the cosines of its doubles, are summed over the tile's 512 rows, and the four slots' sums are added
  one after the other from zero: that is the sum over rows and slots. Lane 0 of parameter p gains the squares' sum,
  lane 1 the cosines' sum, every other lane zero plus zero.
-/
import proofs.«407714_j46377056862517_3_alg».proof.Proof.KUpd
import proofs.«407714_j46377056862517_3_alg».proof.Proof.Spec
import Idealize.ShloMosaic.Lib.Pipeline.Value
import Idealize.ShloMosaic.Lib.ValueLayout
import Idealize.ShloMosaic.Lib.StableHlo.Predicate

noncomputable section

open Idealize.ShloMosaic Idealize.ShloMosaic.TcCoe Idealize.ShloMosaic.ValueIdx

namespace Cert.KernelIdeal.Val

open Cert.KernelIdeal Cert.KernelIdeal.Gen

open Idealize.ShloMosaic.StableHlo.Predicate in
/-- A select on a word comparison is the `if` on the words' equality. -/
private theorem select_cmpi_eq {α : Type} (a b : BitVec 32) (x y : α) :
    Scalar.select (IntOp.cmpi .eq a b) x y = if a = b then x else y := by
  unfold Scalar.select
  by_cases h : a = b
  · exact (if_pos (cmpi_eq_iff.mpr h)).trans (if_pos h).symm
  · exact (if_neg (fun h' => h (cmpi_eq_iff.mp h'))).trans (if_neg h).symm

/-- A bin number, as a word, is a label word below 256 exactly when the bin is the label's. -/
private theorem ofNat_eq_iff_lab (k : Fin 256) (w : BitVec 32) (hw : w.toNat < 256) :
    BitVec.ofNat 32 k.val = w ↔ k = Spec.lab w := by
  constructor
  · intro h
    apply Fin.ext
    rw [Spec.lab_val_of_lt hw, ← h, BitVec.toNat_ofNat]
    have := k.isLt
    omega
  · intro h
    apply BitVec.eq_of_toNat_eq
    rw [BitVec.toNat_ofNat, h, Spec.lab_val_of_lt hw]
    have := w.isLt
    omega

/-- The bin number of lane (p, r, k) is k. -/
private theorem lanes_apply (p : Fin 6) (r : Fin 512) (k : Fin 256) : lanes (ix3 p r k) = BitVec.ofNat 32 k.val := by
  simp [lanes, iota]

/-- The index a sum over the bins inserts at (p, r) is (p, r, k). -/
private theorem lift_bins (p : Fin 6) (r : Fin 512) (k : Fin 256) :
    (reduces_S6x512x256_S6x512).lift (ix2 p r) k = ix3 p r k := by
  funext a
  match a with
  | ⟨0, _⟩ => rfl
  | ⟨1, _⟩ => rfl
  | ⟨2, _⟩ => rfl

/-- The index a sum over the rows inserts at (p, c) is (p, r, c). -/
private theorem lift_rows (p : Fin 6) (c : Fin 1) (r : Fin 512) :
    (reduces_S6x512x1_S6x1).lift (ix2 p c) r = ix3 p r c := by
  funext a
  match a with
  | ⟨0, _⟩ => rfl
  | ⟨1, _⟩ => rfl
  | ⟨2, _⟩ => rfl

/-- A sum over the bins, at (p, r), is the sum over k of the source at (p, r, k). -/
private theorem sum_bins (src : FVec Ideal S6x512x256 .f32) (p : Fin 6) (r : Fin 512) :
    multiReduction (F := Ideal) .add [2] S6x512 src 0x00000000#32 reduces_S6x512x256_S6x512 (.inl rfl) rfl (ix2 p r)
      = ∑ k : Fin 256, src (ix3 p r k) := by
  refine (Ideal.multiReduction_add_single src _ reduces_S6x512x256_S6x512 _ _ (ix2 p r)).trans ?_
  show (∑ k : Fin 256, src ((reduces_S6x512x256_S6x512).lift (ix2 p r) k)) = _
  exact Finset.sum_congr rfl fun k _ => congrArg src (lift_bins p r k)

/-- A sum over the rows, at (p, c), is the sum over r of the source at (p, r, c). -/
private theorem sum_rows (src : FVec Ideal S6x512x1 .f32) (p : Fin 6) (c : Fin 1) :
    multiReduction (F := Ideal) .add [1] S6x1 src 0x00000000#32 reduces_S6x512x1_S6x1 (.inl rfl) rfl (ix2 p c)
      = ∑ r : Fin 512, src (ix3 p r c) := by
  refine (Ideal.multiReduction_add_single src _ reduces_S6x512x1_S6x1 _ _ (ix2 p c)).trans ?_
  show (∑ r : Fin 512, src ((reduces_S6x512x1_S6x1).lift (ix2 p c) r)) = _
  exact Finset.sum_congr rfl fun r _ => congrArg src (lift_rows p c r)

/-- Compare-and-sum over the bins: where every lane of row (p, r) of `L` holds the label word `w`, below 256, the sum
    of the lanes of `A` kept by the mask `lanes == L` is `A` at the label's bin. -/
private theorem gather_apply (A : FVec Ideal S6x512x256 .f32) (L : IVec S6x512x256 32) (p : Fin 6) (r : Fin 512)
    (w : BitVec 32) (hL : ∀ k : Fin 256, L (ix3 p r k) = w) (hw : w.toNat < 256) :
    multiReduction (F := Ideal) .add [2] S6x512
        (select (cmpi .eq lanes L) A (broadcast S6x512x256 (Scalar.ofBits (F := Ideal) .f32 0x00000000#32)))
        0x00000000#32 reduces_S6x512x256_S6x512 (.inl rfl) rfl (ix2 p r)
      = A (ix3 p r (Spec.lab w)) := by
  refine (sum_bins _ p r).trans ?_
  refine Eq.trans ?_ (Spec.sum_onehot (fun k => A (ix3 p r k)) (Spec.lab w))
  refine Finset.sum_congr rfl fun k _ => ?_
  show Scalar.select (IntOp.cmpi .eq (lanes (ix3 p r k)) (L (ix3 p r k))) (A (ix3 p r k)) Spec.zr = _
  rw [lanes_apply, hL k, select_cmpi_eq, Spec.zr_eq]
  by_cases h : k = Spec.lab w
  · rw [if_pos ((ofNat_eq_iff_lab k w hw).mpr h), if_pos h]
  · rw [if_neg (fun h' => h ((ofNat_eq_iff_lab k w hw).mp h')), if_neg h]

section Layout
variable {α : Type}

/-- A [6,512,1] column broadcast along the bins reads the column's entry at every bin. -/
private theorem bcast_col (v : S6x512x1.Idx → α) (p : Fin 6) (r : Fin 512) (k : Fin 256) :
    broadcastTo S6x512x256 v broadcasts_S6x512x1_S6x512x256 (ix3 p r k) = v (ix3 p r (0 : Fin 1)) := by
  refine broadcastTo_apply v _ (ix3 p r k) (ix3 p r (0 : Fin 1)) fun a => ?_
  match a with
  | ⟨0, _⟩ => rfl
  | ⟨1, _⟩ => rfl
  | ⟨2, _⟩ => rfl

/-- A [6,512] array viewed as a [6,512,1] column. -/
private theorem cast_col (v : S6x512.Idx → α) (p : Fin 6) (r : Fin 512) (c : Fin 1) :
    shapeCast S6x512x1 v shapeCasts_S6x512_S6x512x1 (ix3 p r c) = v (ix2 p r) :=
  shapeCast_apply v _ _ _ (by
    have hc := c.isLt
    rw [Shape.rowMajor_val_two, Shape.rowMajor_val_three]
    show p.val * 512 + r.val = (p.val * 512 + r.val) * 1 + c.val
    omega)

/-- A [6,512,1] column viewed as a [6,512] array. -/
private theorem cast_row (v : S6x512x1.Idx → α) (p : Fin 6) (r : Fin 512) :
    shapeCast S6x512 v shapeCasts_S6x512x1_S6x512 (ix2 p r) = v (ix3 p r (0 : Fin 1)) :=
  shapeCast_apply v _ _ _ (by
    rw [Shape.rowMajor_val_two, Shape.rowMajor_val_three]
    show (p.val * 512 + r.val) * 1 + 0 = p.val * 512 + r.val
    omega)

/-- The slice of the labels tile at slot j, as a [6,512,1] column. -/
private theorem slice_col (off : Fin 3 → Nat) (hs : S6x512x4.Slices off S6x512x1) (j : Fin 4)
    (h0 : off 0 = 0) (h1 : off 1 = 0) (h2 : off 2 = j.val) (v : S6x512x4.Idx → α) (p : Fin 6) (r : Fin 512) (c : Fin 1) :
    extractStridedSlice S6x512x1 off v hs (ix3 p r c) = v (ix3 p r j) := by
  refine extractStridedSlice_apply off v hs (ix3 p r c) (ix3 p r j) fun a => ?_
  have hc := c.isLt
  match a with
  | ⟨0, _⟩ => show p.val = off 0 + p.val; omega
  | ⟨1, _⟩ => show r.val = off 1 + r.val; omega
  | ⟨2, _⟩ => show j.val = off 2 + c.val; omega

/-- The labels of slot j spread along the bins: every lane of row (p, r) holds the label word of (p, r, j). -/
private theorem label_lanes (off : Fin 3 → Nat) (hs : S6x512x4.Slices off S6x512x1) (j : Fin 4)
    (h0 : off 0 = 0) (h1 : off 1 = 0) (h2 : off 2 = j.val) (v9 : IVec S6x512x4 32) (p : Fin 6) (r : Fin 512) (k : Fin 256) :
    broadcastTo S6x512x256
        (shapeCast S6x512x1 (shapeCast S6x512 (extractStridedSlice S6x512x1 off v9 hs) shapeCasts_S6x512x1_S6x512)
          shapeCasts_S6x512_S6x512x1) broadcasts_S6x512x1_S6x512x256 (ix3 p r k)
      = v9 (ix3 p r j) := by
  rw [bcast_col, cast_col, cast_row, slice_col off hs j h0 h1 h2]

/-- A [6,256] array viewed as [6,1,256]. -/
private theorem cast_mid (v : S6x256.Idx → α) (p : Fin 6) (c : Fin 1) (k : Fin 256) :
    shapeCast S6x1x256 v shapeCasts_S6x256_S6x1x256 (ix3 p c k) = v (ix2 p k) :=
  shapeCast_apply v _ _ _ (by
    have hc := c.isLt
    rw [Shape.rowMajor_val_two, Shape.rowMajor_val_three]
    show p.val * 256 + k.val = (p.val * 1 + c.val) * 256 + k.val
    omega)

/-- A [6,1,256] array broadcast along the rows. -/
private theorem bcast_mid (v : S6x1x256.Idx → α) (p : Fin 6) (r : Fin 512) (k : Fin 256) :
    broadcastTo S6x512x256 v broadcasts_S6x1x256_S6x512x256 (ix3 p r k) = v (ix3 p (0 : Fin 1) k) := by
  refine broadcastTo_apply v _ (ix3 p r k) (ix3 p (0 : Fin 1) k) fun a => ?_
  match a with
  | ⟨0, _⟩ => rfl
  | ⟨1, _⟩ => rfl
  | ⟨2, _⟩ => rfl

/-- A [6,1] column broadcast along the 128 lanes. -/
private theorem bcast_lane (v : S6x1.Idx → α) (p : Fin 6) (l : Fin 128) :
    broadcastTo S6x128 v broadcasts_S6x1_S6x128 (ix2 p l) = v (ix2 p (0 : Fin 1)) := by
  refine broadcastTo_apply v _ (ix2 p l) (ix2 p (0 : Fin 1)) fun a => ?_
  match a with
  | ⟨0, _⟩ => rfl
  | ⟨1, _⟩ => rfl

end Layout

/-- The centres spread along the rows: lane (p, r, k) holds the centre of (p, k). -/
private theorem pay9_apply (x3 : Vec Ideal S6x256 .f32) (p : Fin 6) (r : Fin 512) (k : Fin 256) :
    k0_pay9 x3 (ix3 p r k) = x3 (ix2 p k) := by
  unfold k0_pay9
  rw [bcast_mid, shapeCast_self, cast_mid]

/-- The targets as a column: entry (p, r, 0) is the target of (p, r). -/
private theorem pay10_apply (x2 : Vec Ideal S6x512 .f32) (p : Fin 6) (r : Fin 512) (c : Fin 1) :
    k0_pay10 (k0_pay5 x2) (ix3 p r c) = x2 (ix2 p r) := by
  unfold k0_pay10 k0_pay5
  rw [cast_col, shapeCast_self]

/-- The labels tile is read as it is. -/
private theorem pay6_eq (x4 : Vec Ideal S6x512x4 .i32) : k0_pay6 x4 = x4 := by
  unfold k0_pay6
  exact shapeCast_self _ _

/-- The label words of one slot spread along the bins. -/
private def labcol (off : Fin 3 → Nat) (hs : S6x512x4.Slices off S6x512x1) (v9 : IVec S6x512x4 32) : IVec S6x512x256 32 :=
  broadcastTo S6x512x256
    (shapeCast S6x512x1 (shapeCast S6x512 (extractStridedSlice S6x512x1 off v9 hs) shapeCasts_S6x512x1_S6x512)
      shapeCasts_S6x512_S6x512x1) broadcasts_S6x512x1_S6x512x256

/-- The residual column of one label slot: the target minus the gathered centre, minus the gathered offset. -/
private def resid (off : Fin 3 → Nat) (hs : S6x512x4.Slices off S6x512x1) (v4 : Vec Ideal S6x512x256 .f32)
    (v9 : IVec S6x512x4 32) (v10 : IVec S6x512x256 32) (v40 : FVec Ideal S6x512x256 .f32)
    (v43 : FVec Ideal S6x512x1 .f32) : FVec Ideal S6x512x1 .f32 :=
  subf
    (subf v43
      (shapeCast S6x512x1
        (multiReduction (F := Ideal) .add [2] S6x512
          (select (cmpi .eq v10 (labcol off hs v9)) v40 (broadcast S6x512x256 (Scalar.ofBits (F := Ideal) .f32 0x00000000#32)))
          0x00000000#32 reduces_S6x512x256_S6x512 (.inl rfl) rfl)
        shapeCasts_S6x512_S6x512x1))
    (shapeCast S6x512x1
      (multiReduction (F := Ideal) .add [2] S6x512
        (select (cmpi .eq v10 (labcol off hs v9)) v4 (broadcast S6x512x256 (Scalar.ofBits (F := Ideal) .f32 0x00000000#32)))
        0x00000000#32 reduces_S6x512x256_S6x512 (.inl rfl) rfl)
      shapeCasts_S6x512_S6x512x1)

private theorem pay11_eq (v4 : Vec Ideal S6x512x256 .f32) (v6 : FVec Ideal S6x512 .f32) (v7 : Vec Ideal S6x256 .f32)
    (v9 : IVec S6x512x4 32) (v10 : IVec S6x512x256 32) :
    k0_pay11 v4 v6 v7 v9 v10 = resid ![0, 0, 0] slices_S6x512x4_o0_0_0_S6x512x1 v4 v9 v10 (k0_pay9 v7) (k0_pay10 v6) := rfl

private theorem pay14_eq (v4 : Vec Ideal S6x512x256 .f32) (v6 : FVec Ideal S6x512 .f32) (v7 : Vec Ideal S6x256 .f32)
    (v9 : IVec S6x512x4 32) (v10 : IVec S6x512x256 32) :
    k0_pay14 v4 v6 v7 v9 v10 = resid ![0, 0, 1] slices_S6x512x4_o0_0_1_S6x512x1 v4 v9 v10 (k0_pay9 v7) (k0_pay10 v6) := rfl

private theorem pay16_eq (v4 : Vec Ideal S6x512x256 .f32) (v9 : IVec S6x512x4 32) (v10 : IVec S6x512x256 32)
    (v40 : FVec Ideal S6x512x256 .f32) (v43 : FVec Ideal S6x512x1 .f32) :
    k0_pay16 v4 v9 v10 v40 v43 = resid ![0, 0, 2] slices_S6x512x4_o0_0_2_S6x512x1 v4 v9 v10 v40 v43 := rfl

private theorem pay19_eq (v4 : Vec Ideal S6x512x256 .f32) (v9 : IVec S6x512x4 32) (v10 : IVec S6x512x256 32)
    (v40 : FVec Ideal S6x512x256 .f32) (v43 : FVec Ideal S6x512x1 .f32) :
    k0_pay19 v4 v9 v10 v40 v43 = resid ![0, 0, 3] slices_S6x512x4_o0_0_3_S6x512x1 v4 v9 v10 v40 v43 := rfl

/-- The residual column of slot j at (p, r) is the loss's residual there: both compare-and-sums gather at the label's
    bin, the label being below 256. -/
private theorem resid_apply (off : Fin 3 → Nat) (hs : S6x512x4.Slices off S6x512x1) (j : Fin 4)
    (h0 : off 0 = 0) (h1 : off 1 = 0) (h2 : off 2 = j.val)
    (x1 : Vec Ideal S6x512x256 .f32) (x2 : Vec Ideal S6x512 .f32) (x3 : Vec Ideal S6x256 .f32)
    (x4 : Vec Ideal S6x512x4 .i32) (hx4 : ∀ i, (x4 i : BitVec 32).toNat < 256) (p : Fin 6) (r : Fin 512) (c : Fin 1) :
    resid off hs x1 x4 lanes (k0_pay9 x3) (k0_pay10 (k0_pay5 x2)) (ix3 p r c)
      = Spec.dif (N := 512) x1 x2 x3 x4 p r j := by
  have hL : ∀ k : Fin 256, labcol off hs x4 (ix3 p r k) = x4 (ix3 p r j) :=
    fun k => label_lanes off hs j h0 h1 h2 x4 p r k
  have hw := hx4 (ix3 p r j)
  have gC := gather_apply (k0_pay9 x3) (labcol off hs x4) p r _ hL hw
  have gO := gather_apply x1 (labcol off hs x4) p r _ hL hw
  unfold resid
  rw [subf_apply, subf_apply, pay10_apply, cast_col, cast_col, gC, gO, pay9_apply]
  rfl

section Point

variable (x1 : Vec Ideal S6x512x256 .f32) (x2 : Vec Ideal S6x512 .f32) (x3 : Vec Ideal S6x256 .f32)
  (x4 : Vec Ideal S6x512x4 .i32) (hx4 : ∀ i, (x4 i : BitVec 32).toNat < 256)

include hx4

private theorem pay11_apply (p : Fin 6) (r : Fin 512) (c : Fin 1) :
    k0_pay11 x1 (k0_pay5 x2) x3 (k0_pay6 x4) lanes (ix3 p r c) = Spec.dif (N := 512) x1 x2 x3 x4 p r 0 := by
  rw [pay11_eq, pay6_eq]
  exact resid_apply _ _ 0 rfl rfl rfl x1 x2 x3 x4 hx4 p r c

private theorem pay14_apply (p : Fin 6) (r : Fin 512) (c : Fin 1) :
    k0_pay14 x1 (k0_pay5 x2) x3 (k0_pay6 x4) lanes (ix3 p r c) = Spec.dif (N := 512) x1 x2 x3 x4 p r 1 := by
  rw [pay14_eq, pay6_eq]
  exact resid_apply _ _ 1 rfl rfl rfl x1 x2 x3 x4 hx4 p r c

private theorem pay16_apply (p : Fin 6) (r : Fin 512) (c : Fin 1) :
    k0_pay16 x1 (k0_pay6 x4) lanes (k0_pay9 x3) (k0_pay10 (k0_pay5 x2)) (ix3 p r c)
      = Spec.dif (N := 512) x1 x2 x3 x4 p r 2 := by
  rw [pay16_eq, pay6_eq]
  exact resid_apply _ _ 2 rfl rfl rfl x1 x2 x3 x4 hx4 p r c

private theorem pay19_apply (p : Fin 6) (r : Fin 512) (c : Fin 1) :
    k0_pay19 x1 (k0_pay6 x4) lanes (k0_pay9 x3) (k0_pay10 (k0_pay5 x2)) (ix3 p r c)
      = Spec.dif (N := 512) x1 x2 x3 x4 p r 3 := by
  rw [pay19_eq, pay6_eq]
  exact resid_apply _ _ 3 rfl rfl rfl x1 x2 x3 x4 hx4 p r c

omit hx4

/-- The rows' sum of a column's squares, the column known entry by entry. -/
private theorem sq_rows (D : FVec Ideal S6x512x1 .f32) (p : Fin 6) (c : Fin 1) (d : Fin 512 → EReal)
    (hD : ∀ r, D (ix3 p r c) = d r) :
    multiReduction (F := Ideal) .add [1] S6x1 (mulf D D) 0x00000000#32 reduces_S6x512x1_S6x1 (.inl rfl) rfl (ix2 p c)
      = ∑ r : Fin 512, d r * d r := by
  refine (sum_rows _ p c).trans (Finset.sum_congr rfl fun r _ => ?_)
  rw [mulf_apply, hD r]

/-- The rows' sum of the cosines of a column's doubles, the column known entry by entry. -/
private theorem cos_rows (D : FVec Ideal S6x512x1 .f32) (p : Fin 6) (c : Fin 1) (d : Fin 512 → EReal)
    (hD : ∀ r, D (ix3 p r c) = d r) :
    multiReduction (F := Ideal) .add [1] S6x1
        (cos (mulf D (broadcast S6x512x1 (Scalar.ofBits (F := Ideal) .f32 0x40000000#32))))
        0x00000000#32 reduces_S6x512x1_S6x1 (.inl rfl) rfl (ix2 p c)
      = ∑ r : Fin 512, Ideal.cos (d r * Spec.two) := by
  refine (sum_rows _ p c).trans (Finset.sum_congr rfl fun r _ => ?_)
  show Ideal.cos (D (ix3 p r c) * Spec.two) = _
  rw [hD r]

include hx4

/-- The squares' accumulator after slot 0. -/
private theorem pay12_apply (p : Fin 6) (c : Fin 1) :
    k0_pay12 x1 (k0_pay5 x2) x3 (k0_pay6 x4) lanes (ix2 p c)
      = Spec.zr + ∑ r : Fin 512, Spec.dif (N := 512) x1 x2 x3 x4 p r 0 * Spec.dif (N := 512) x1 x2 x3 x4 p r 0 := by
  unfold k0_pay12
  rw [addf_apply, sq_rows _ p c _ (fun r => pay11_apply x1 x2 x3 x4 hx4 p r c)]
  rfl

/-- The cosines' accumulator after slot 0. -/
private theorem pay13_apply (p : Fin 6) (c : Fin 1) :
    k0_pay13 x1 (k0_pay5 x2) x3 (k0_pay6 x4) lanes (ix2 p c)
      = Spec.zr + ∑ r : Fin 512, Ideal.cos (Spec.dif (N := 512) x1 x2 x3 x4 p r 0 * Spec.two) := by
  unfold k0_pay13
  rw [addf_apply, cos_rows _ p c _ (fun r => pay11_apply x1 x2 x3 x4 hx4 p r c)]
  rfl

/-- The squares' accumulator after slots 0, 1, 2. -/
private theorem pay17_apply (p : Fin 6) (c : Fin 1) :
    k0_pay17 x1 (k0_pay6 x4) lanes (k0_pay9 x3) (k0_pay10 (k0_pay5 x2))
        (k0_pay12 x1 (k0_pay5 x2) x3 (k0_pay6 x4) lanes) (k0_pay15 x1 (k0_pay5 x2) x3 (k0_pay6 x4) lanes) (ix2 p c)
      = ((Spec.zr + ∑ r : Fin 512, Spec.dif (N := 512) x1 x2 x3 x4 p r 0 * Spec.dif (N := 512) x1 x2 x3 x4 p r 0)
          + ∑ r : Fin 512, Spec.dif (N := 512) x1 x2 x3 x4 p r 1 * Spec.dif (N := 512) x1 x2 x3 x4 p r 1)
        + ∑ r : Fin 512, Spec.dif (N := 512) x1 x2 x3 x4 p r 2 * Spec.dif (N := 512) x1 x2 x3 x4 p r 2 := by
  unfold k0_pay17 k0_pay15
  rw [addf_apply, addf_apply, pay12_apply x1 x2 x3 x4 hx4,
    sq_rows _ p c _ (fun r => pay14_apply x1 x2 x3 x4 hx4 p r c),
    sq_rows _ p c _ (fun r => pay16_apply x1 x2 x3 x4 hx4 p r c)]

/-- The cosines' accumulator after slots 0, 1, 2. -/
private theorem pay18_apply (p : Fin 6) (c : Fin 1) :
    k0_pay18 x1 (k0_pay6 x4) lanes (k0_pay9 x3) (k0_pay10 (k0_pay5 x2))
        (k0_pay13 x1 (k0_pay5 x2) x3 (k0_pay6 x4) lanes) (k0_pay14 x1 (k0_pay5 x2) x3 (k0_pay6 x4) lanes) (ix2 p c)
      = ((Spec.zr + ∑ r : Fin 512, Ideal.cos (Spec.dif (N := 512) x1 x2 x3 x4 p r 0 * Spec.two))
          + ∑ r : Fin 512, Ideal.cos (Spec.dif (N := 512) x1 x2 x3 x4 p r 1 * Spec.two))
        + ∑ r : Fin 512, Ideal.cos (Spec.dif (N := 512) x1 x2 x3 x4 p r 2 * Spec.two) := by
  unfold k0_pay18
  rw [addf_apply, addf_apply, pay13_apply x1 x2 x3 x4 hx4,
    cos_rows _ p c _ (fun r => pay14_apply x1 x2 x3 x4 hx4 p r c),
    cos_rows _ p c _ (fun r => pay16_apply x1 x2 x3 x4 hx4 p r c)]

end Point

/-- Two small numbers are the same word exactly when they are equal. -/
private theorem ofNat_eq_ofNat_iff (a b : Nat) (ha : a < 4294967296) (hb : b < 4294967296) :
    BitVec.ofNat 32 a = BitVec.ofNat 32 b ↔ a = b := by
  constructor
  · intro h
    have h' := congrArg BitVec.toNat h
    simp only [BitVec.toNat_ofNat] at h'
    omega
  · intro h
    rw [h]

/-- The lane number of (p, l) in a [6,128] block is l. -/
private theorem lane_apply (p : Fin 6) (l : Fin 128) :
    iota .tc S6x128 32 [1] iota_S6x128_d1_w32 (ix2 p l) = BitVec.ofNat 32 l.val := by
  simp [iota]

/-- A select on "lane l is lane n", n small, is the `if` on l's number. -/
private theorem select_lane {α : Type} (p : Fin 6) (l : Fin 128) (n : Nat) (hn : n < 4294967296) (x y : α) :
    Scalar.select (IntOp.cmpi .eq (iota .tc S6x128 32 [1] iota_S6x128_d1_w32 (ix2 p l)) (BitVec.ofNat 32 n)) x y
      = if l.val = n then x else y := by
  have hl := l.isLt
  rw [lane_apply, select_cmpi_eq]
  by_cases h : l.val = n
  · rw [if_pos ((ofNat_eq_ofNat_iff _ _ (by omega) hn).mpr h), if_pos h]
  · rw [if_neg (fun h' => h ((ofNat_eq_ofNat_iff _ _ (by omega) hn).mp h')), if_neg h]

/-- The last payload at (p, l): the block before plus, in lane 0, the squares' accumulator with the last slot's rows
    added and, in lane 1, the cosines' accumulator with the last slot's rows added. -/
private theorem pay2_apply (v107 v112 : FVec Ideal S6x1 .f32) (v127 v128 : FVec Ideal S6x512x1 .f32)
    (xo6 : Vec Ideal S6x128 .f32) (p : Fin 6) (l : Fin 128) :
    k0_pay2 v107 v112 v127 v128 xo6 (ix2 p l)
      = xo6 (ix2 p l)
        + ((if l.val = 0 then v107 (ix2 p (0 : Fin 1)) + ∑ r : Fin 512, v128 (ix3 p r (0 : Fin 1)) else Spec.zr)
          + (if l.val = 1 then
              v112 (ix2 p (0 : Fin 1)) + ∑ r : Fin 512, Ideal.cos (v127 (ix3 p r (0 : Fin 1)) * Spec.two)
            else Spec.zr)) := by
  unfold k0_pay2
  rw [addf_apply, shapeCast_self, addf_apply, select_apply, select_apply, bcast_lane, bcast_lane, shapeCast_self,
    shapeCast_self, addf_apply, addf_apply, sum_rows, sum_rows]
  show xo6 (ix2 p l)
      + (Scalar.select (IntOp.cmpi .eq (iota .tc S6x128 32 [1] iota_S6x128_d1_w32 (ix2 p l)) (BitVec.ofNat 32 0))
            (v107 (ix2 p (0 : Fin 1)) + ∑ r : Fin 512, v128 (ix3 p r (0 : Fin 1))) Spec.zr
        + Scalar.select (IntOp.cmpi .eq (iota .tc S6x128 32 [1] iota_S6x128_d1_w32 (ix2 p l)) (BitVec.ofNat 32 1))
            (v112 (ix2 p (0 : Fin 1)) + ∑ r : Fin 512, Ideal.cos (v127 (ix3 p r (0 : Fin 1)) * Spec.two)) Spec.zr)
      = _
  rw [select_lane p l 0 (by norm_num), select_lane p l 1 (by norm_num)]

/-- Four row sums added one after the other from zero are the sum over rows and slots. -/
private theorem chain_rows (f : Fin 512 → Fin 4 → EReal) :
    (((Spec.zr + ∑ r : Fin 512, f r 0) + ∑ r : Fin 512, f r 1) + ∑ r : Fin 512, f r 2) + ∑ r : Fin 512, f r 3
      = ∑ r : Fin 512, ∑ j : Fin 4, f r j := by
  rw [Spec.zr_eq, Spec.chain4 (fun j => ∑ r : Fin 512, f r j), Finset.sum_comm]

theorem pay4_apply (y : S6x128.Idx) : (k0_pay4 : FVec Ideal S6x128 .f32) y = Spec.zr := rfl

theorem updR_apply (x1 : Vec Ideal S6x512x256 .f32) (x2 : Vec Ideal S6x512 .f32) (x3 : Vec Ideal S6x256 .f32)
    (x4 : Vec Ideal S6x512x4 .i32) (xo6 : Vec Ideal S6x128 .f32)
    (hx4 : ∀ i, (x4 i : BitVec 32).toNat < 256) (p : Fin 6) (l : Fin 128) :
    updR x1 x2 x3 x4 xo6 (ix2 p l) = xo6 (ix2 p l)
      + ((if l.val = 0 then Spec.mseSum (N := 512) x1 x2 x3 x4 p else Spec.zr)
        + (if l.val = 1 then Spec.rotSum (N := 512) x1 x2 x3 x4 p else Spec.zr)) := by
  have h20 : ∀ r : Fin 512, k0_pay20 x1 (k0_pay6 x4) lanes (k0_pay9 x3) (k0_pay10 (k0_pay5 x2)) (ix3 p r (0 : Fin 1))
      = Spec.dif (N := 512) x1 x2 x3 x4 p r 3 * Spec.dif (N := 512) x1 x2 x3 x4 p r 3 := fun r => by
    unfold k0_pay20
    rw [mulf_apply, pay19_apply x1 x2 x3 x4 hx4]
  have hsq : (((Spec.zr
        + ∑ r : Fin 512, Spec.dif (N := 512) x1 x2 x3 x4 p r 0 * Spec.dif (N := 512) x1 x2 x3 x4 p r 0)
        + ∑ r : Fin 512, Spec.dif (N := 512) x1 x2 x3 x4 p r 1 * Spec.dif (N := 512) x1 x2 x3 x4 p r 1)
        + ∑ r : Fin 512, Spec.dif (N := 512) x1 x2 x3 x4 p r 2 * Spec.dif (N := 512) x1 x2 x3 x4 p r 2)
        + ∑ r : Fin 512, Spec.dif (N := 512) x1 x2 x3 x4 p r 3 * Spec.dif (N := 512) x1 x2 x3 x4 p r 3
      = Spec.mseSum (N := 512) x1 x2 x3 x4 p :=
    chain_rows fun r j => Spec.dif (N := 512) x1 x2 x3 x4 p r j * Spec.dif (N := 512) x1 x2 x3 x4 p r j
  have hcos : (((Spec.zr
        + ∑ r : Fin 512, Ideal.cos (Spec.dif (N := 512) x1 x2 x3 x4 p r 0 * Spec.two))
        + ∑ r : Fin 512, Ideal.cos (Spec.dif (N := 512) x1 x2 x3 x4 p r 1 * Spec.two))
        + ∑ r : Fin 512, Ideal.cos (Spec.dif (N := 512) x1 x2 x3 x4 p r 2 * Spec.two))
        + ∑ r : Fin 512, Ideal.cos (Spec.dif (N := 512) x1 x2 x3 x4 p r 3 * Spec.two)
      = Spec.rotSum (N := 512) x1 x2 x3 x4 p :=
    chain_rows fun r j => Ideal.cos (Spec.dif (N := 512) x1 x2 x3 x4 p r j * Spec.two)
  unfold updR
  rw [pay2_apply, pay17_apply x1 x2 x3 x4 hx4, pay18_apply x1 x2 x3 x4 hx4,
    Finset.sum_congr rfl (fun r _ => h20 r),
    Finset.sum_congr rfl (fun r _ =>
      congrArg (fun t => Ideal.cos (t * Spec.two)) (pay19_apply x1 x2 x3 x4 hx4 p r (0 : Fin 1))),
    hsq, hcos]

end Cert.KernelIdeal.Val

end
-- ==== Proof.KValue.lean ====
/-
  The kernel's two output blocks after the last grid point, at the exact instance, in the specification's terms.

  A tile is rows 512·t … 512·t + 511 of the batch, so a tile's negative log-likelihoods and residuals are the batch's
  at those rows. Each point adds its tile's sums to what the point before left, starting from zero, so after point n
  every lane of the first block holds the sum over tiles 0 … n of the tile's `clsSum`, and lane 0 / lane 1 of row p of
  the second the sums of the tiles' `mseSum p` / `rotSum p`. Summing over the 32 tiles and a tile's 512 rows is summing
  over the batch; the parameter and tile sums commute.
-/
import proofs.«407714_j46377056862517_3_alg».proof.Proof.KDefs
import proofs.«407714_j46377056862517_3_alg».proof.Proof.KBlocks
import proofs.«407714_j46377056862517_3_alg».proof.Proof.KPayC
import proofs.«407714_j46377056862517_3_alg».proof.Proof.KPayR
import proofs.«407714_j46377056862517_3_alg».proof.Proof.Spec

noncomputable section

open Idealize.ShloMosaic Idealize.ShloMosaic.TcCoe Idealize.SL.Sem Idealize.ShloMosaic.ValueIdx

namespace Cert.KernelIdeal.Val

open Cert.KernelIdeal Cert.KernelIdeal.Gen

variable (m : (ℓ : Loc nD τ sig) → Buf (Elt Ideal) ℓ)

/-- The five arguments as arrays of extended reals and label words. -/
abbrev argX (c : Dev nD) : S6x16384x256.Idx → EReal := m ((c.tc : Thread nD τ).loc main_arg0)
abbrev argO (c : Dev nD) : S6x16384x256.Idx → EReal := m ((c.tc : Thread nD τ).loc main_arg1)
abbrev argT (c : Dev nD) : S16384x6.Idx → EReal := m ((c.tc : Thread nD τ).loc main_arg2)
abbrev argC (c : Dev nD) : S6x256.Idx → EReal := m ((c.tc : Thread nD τ).loc main_arg3)
abbrev argI (c : Dev nD) : S16384x6x4.Idx → BitVec 32 := m ((c.tc : Thread nD τ).loc main_arg4)

/-- The tiles as arrays of extended reals and label words. -/
abbrev tX (c : Dev nD) (t : Fin cfg0.N) : (⟨3, ![6, 512, 256]⟩ : Shape).Idx → EReal := xb0 m c t
abbrev tO (c : Dev nD) (t : Fin cfg0.N) : (⟨3, ![6, 512, 256]⟩ : Shape).Idx → EReal := xb1 m c t
abbrev tT (c : Dev nD) (t : Fin cfg0.N) : (⟨2, ![6, 512]⟩ : Shape).Idx → EReal := xb2 m c t
abbrev tC (c : Dev nD) (t : Fin cfg0.N) : (⟨2, ![6, 256]⟩ : Shape).Idx → EReal := xb3 m c t
abbrev tL (c : Dev nD) (t : Fin cfg0.N) : (⟨3, ![6, 512, 4]⟩ : Shape).Idx → BitVec 32 := xb4 m c t

/-- A tile's labels are bins when the argument's are. -/
theorem tL_lt (c : Dev nD) (hI : ∀ i, (argI m c i).toNat < 256) (t : Fin cfg0.N) (i : (⟨3, ![6, 512, 4]⟩ : Shape).Idx) :
    (tL m c t i).toNat < 256 := by
  obtain ⟨p, r, j, rfl⟩ : ∃ (p : Fin 6) (r : Fin 512) (j : Fin 4), i = ix3 p r j := ⟨i 0, i 1, i 2, eq_ix3 i⟩
  have e : tL m c t (ix3 p r j) = argI m c (ix3 (Spec.row (tile t) r) p j) := xb4_apply m c t p r j
  rw [e]
  exact hI _

/-- A tile's negative log-likelihood is the batch's at the tile's row. -/
theorem nll_tile (c : Dev nD) (t : Fin cfg0.N) (p : Fin 6) (r : Fin 512) :
    Spec.nll (N := 512) (tX m c t) (tL m c t) p r
      = Spec.nll (N := 16384) (argX m c) (Spec.Lt (argI m c)) p (Spec.row (tile t) r) := by
  unfold Spec.nll
  have e0 : tL m c t (ix3 p r (0 : Fin 4)) = Spec.Lt (argI m c) (ix3 p (Spec.row (tile t) r) (0 : Fin 4)) := by
    rw [Spec.Lt_apply]; exact xb4_apply m c t p r 0
  have e1 : (fun k : Fin 256 => tX m c t (ix3 p r k)) = fun k => argX m c (ix3 p (Spec.row (tile t) r) k) :=
    funext fun k => xb0_apply m c t p r k
  rw [e0, e1]

/-- A tile's residual is the batch's at the tile's row. -/
theorem dif_tile (c : Dev nD) (t : Fin cfg0.N) (p : Fin 6) (r : Fin 512) (j : Fin 4) :
    Spec.dif (N := 512) (tO m c t) (tT m c t) (tC m c t) (tL m c t) p r j
      = Spec.dif (N := 16384) (argO m c) (Spec.Tt (argT m c)) (argC m c) (Spec.Lt (argI m c)) p (Spec.row (tile t) r) j := by
  unfold Spec.dif
  have e0 : tL m c t (ix3 p r j) = Spec.Lt (argI m c) (ix3 p (Spec.row (tile t) r) j) := by
    rw [Spec.Lt_apply]; exact xb4_apply m c t p r j
  have e1 : tT m c t (ix2 p r) = Spec.Tt (argT m c) (ix2 p (Spec.row (tile t) r)) := by
    rw [Spec.Tt_apply]; exact xb2_apply m c t p r
  rw [e0, e1]
  have e2 : tC m c t (ix2 p (Spec.lab (Spec.Lt (argI m c) (ix3 p (Spec.row (tile t) r) j))))
      = argC m c (ix2 p (Spec.lab (Spec.Lt (argI m c) (ix3 p (Spec.row (tile t) r) j)))) := xb3_apply m c t p _
  have e3 : tO m c t (ix3 p r (Spec.lab (Spec.Lt (argI m c) (ix3 p (Spec.row (tile t) r) j))))
      = argO m c (ix3 p (Spec.row (tile t) r) (Spec.lab (Spec.Lt (argI m c) (ix3 p (Spec.row (tile t) r) j)))) :=
    xb1_apply m c t p r _
  rw [e2, e3]

/-- The tiles' three sums, as functions of the tile's number (zero past the grid). -/
def sC (c : Dev nD) (t : ℕ) : EReal :=
  if h : t < cfg0.N then Spec.clsSum (N := 512) (tX m c ⟨t, h⟩) (tL m c ⟨t, h⟩) else 0
def sM (c : Dev nD) (p : Fin 6) (t : ℕ) : EReal :=
  if h : t < cfg0.N then Spec.mseSum (N := 512) (tO m c ⟨t, h⟩) (tT m c ⟨t, h⟩) (tC m c ⟨t, h⟩) (tL m c ⟨t, h⟩) p else 0
def sR (c : Dev nD) (p : Fin 6) (t : ℕ) : EReal :=
  if h : t < cfg0.N then Spec.rotSum (N := 512) (tO m c ⟨t, h⟩) (tT m c ⟨t, h⟩) (tC m c ⟨t, h⟩) (tL m c ⟨t, h⟩) p else 0

/-- After point `n` the blocks hold the sums over tiles 0 … n, from zero. -/
theorem chain_sums (c : Dev nD) (hI : ∀ i, (argI m c i).toNat < 256) : ∀ (n : ℕ) (h : n < cfg0.N),
    (∀ l : Fin 128, (chain m c n h).1 (ix2 (0 : Fin 1) l) = Spec.zr + ∑ t ∈ Finset.range (n + 1), sC m c t)
    ∧ (∀ (p : Fin 6) (l : Fin 128), (chain m c n h).2 (ix2 p l) = Spec.zr + ∑ t ∈ Finset.range (n + 1),
        ((if l.val = 0 then sM m c p t else Spec.zr) + (if l.val = 1 then sR m c p t else Spec.zr)))
  | 0, h => by
    refine ⟨fun l => ?_, fun p l => ?_⟩
    · show updC (xb0 m c ⟨0, h⟩) (xb4 m c ⟨0, h⟩) (k0_pay3 (F := Ideal)) (ix2 (0 : Fin 1) l) = _
      rw [updC_apply _ _ _ (tL_lt m c hI ⟨0, h⟩), pay3_apply, Finset.sum_range_one, sC, dif_pos h]
    · show updR (xb1 m c ⟨0, h⟩) (xb2 m c ⟨0, h⟩) (xb3 m c ⟨0, h⟩) (xb4 m c ⟨0, h⟩) (k0_pay4 (F := Ideal)) (ix2 p l) = _
      rw [updR_apply _ _ _ _ _ (tL_lt m c hI ⟨0, h⟩), pay4_apply, Finset.sum_range_one, sM, sR, dif_pos h, dif_pos h]
  | n + 1, h => by
    obtain ⟨ih1, ih2⟩ := chain_sums c hI n (Nat.lt_of_succ_lt h)
    refine ⟨fun l => ?_, fun p l => ?_⟩
    · show updC (xb0 m c ⟨n + 1, h⟩) (xb4 m c ⟨n + 1, h⟩) (chain m c n (Nat.lt_of_succ_lt h)).1 (ix2 (0 : Fin 1) l) = _
      rw [updC_apply _ _ _ (tL_lt m c hI ⟨n + 1, h⟩), ih1 l, Finset.sum_range_succ _ (n + 1), add_assoc]
      congr 2
      rw [sC, dif_pos h]
    · show updR (xb1 m c ⟨n + 1, h⟩) (xb2 m c ⟨n + 1, h⟩) (xb3 m c ⟨n + 1, h⟩) (xb4 m c ⟨n + 1, h⟩)
        (chain m c n (Nat.lt_of_succ_lt h)).2 (ix2 p l) = _
      rw [updR_apply _ _ _ _ _ (tL_lt m c hI ⟨n + 1, h⟩), ih2 p l, Finset.sum_range_succ _ (n + 1), add_assoc]
      congr 2
      rw [sM, sR, dif_pos h, dif_pos h]

/-- The sum over the 32 tiles of a tile's value at its number is the sum over the grid's points. -/
theorem sum_range_tiles (f : ℕ → EReal) : (∑ t ∈ Finset.range (31 + 1), f t) = ∑ t : Fin 32, f t.val :=
  (Fin.sum_univ_eq_sum_range f 32).symm

theorem lt_N (t : Fin 32) : t.val < cfg0.N := lt_of_lt_of_eq t.isLt N_0.symm

theorem tile_mk (t : Fin 32) : tile ⟨t.val, lt_N t⟩ = t := Fin.ext rfl

/-- After the last point every lane of the first block holds the batch's `clsSum`. -/
theorem last_cls (c : Dev nD) (hI : ∀ i, (argI m c i).toNat < 256) (l : Fin 128) :
    (last m c).1 (ix2 (0 : Fin 1) l) = Spec.clsSum (N := 16384) (argX m c) (Spec.Lt (argI m c)) := by
  rw [(chain_sums m c hI 31 _).1 l, Spec.zr_eq, zero_add, sum_range_tiles]
  have e : ∀ t : Fin 32, sC m c t.val
      = ∑ p : Fin 6, ∑ r : Fin 512, Spec.nll (N := 16384) (argX m c) (Spec.Lt (argI m c)) p (Spec.row t r) := by
    intro t
    rw [sC, dif_pos (lt_N t)]
    unfold Spec.clsSum
    refine Finset.sum_congr rfl fun p _ => Finset.sum_congr rfl fun r _ => ?_
    rw [nll_tile, tile_mk]
  simp only [e]
  rw [Finset.sum_comm]
  unfold Spec.clsSum
  refine Finset.sum_congr rfl fun p _ => ?_
  exact Spec.sum_tiles fun b => Spec.nll (N := 16384) (argX m c) (Spec.Lt (argI m c)) p b

/-- After the last point lane 0 of row p of the second block holds the batch's `mseSum p`. -/
theorem last_mse (c : Dev nD) (hI : ∀ i, (argI m c i).toNat < 256) (p : Fin 6) :
    (last m c).2 (ix2 p (0 : Fin 128))
      = Spec.mseSum (N := 16384) (argO m c) (Spec.Tt (argT m c)) (argC m c) (Spec.Lt (argI m c)) p := by
  rw [(chain_sums m c hI 31 _).2 p 0, Spec.zr_eq, zero_add, sum_range_tiles]
  have e : ∀ t : Fin 32, ((if (0 : Fin 128).val = 0 then sM m c p t.val else (0 : EReal))
        + (if (0 : Fin 128).val = 1 then sR m c p t.val else (0 : EReal)))
      = ∑ r : Fin 512, ∑ j : Fin 4,
          Spec.dif (N := 16384) (argO m c) (Spec.Tt (argT m c)) (argC m c) (Spec.Lt (argI m c)) p (Spec.row t r) j
          * Spec.dif (N := 16384) (argO m c) (Spec.Tt (argT m c)) (argC m c) (Spec.Lt (argI m c)) p (Spec.row t r) j := by
    intro t
    rw [if_pos (show (0 : Fin 128).val = 0 from rfl), if_neg (show ¬(0 : Fin 128).val = 1 by decide), add_zero, sM,
      dif_pos (lt_N t)]
    unfold Spec.mseSum
    refine Finset.sum_congr rfl fun r _ => Finset.sum_congr rfl fun j _ => ?_
    rw [dif_tile, tile_mk]
  simp only [e]
  unfold Spec.mseSum
  exact Spec.sum_tiles fun b => ∑ j : Fin 4,
    Spec.dif (N := 16384) (argO m c) (Spec.Tt (argT m c)) (argC m c) (Spec.Lt (argI m c)) p b j
    * Spec.dif (N := 16384) (argO m c) (Spec.Tt (argT m c)) (argC m c) (Spec.Lt (argI m c)) p b j

/-- After the last point lane 1 of row p of the second block holds the batch's `rotSum p`. -/
theorem last_rot (c : Dev nD) (hI : ∀ i, (argI m c i).toNat < 256) (p : Fin 6) :
    (last m c).2 (ix2 p (1 : Fin 128))
      = Spec.rotSum (N := 16384) (argO m c) (Spec.Tt (argT m c)) (argC m c) (Spec.Lt (argI m c)) p := by
  rw [(chain_sums m c hI 31 _).2 p 1, Spec.zr_eq, zero_add, sum_range_tiles]
  have e : ∀ t : Fin 32, ((if (1 : Fin 128).val = 0 then sM m c p t.val else (0 : EReal))
        + (if (1 : Fin 128).val = 1 then sR m c p t.val else (0 : EReal)))
      = ∑ r : Fin 512, ∑ j : Fin 4, Ideal.cos
          (Spec.dif (N := 16384) (argO m c) (Spec.Tt (argT m c)) (argC m c) (Spec.Lt (argI m c)) p (Spec.row t r) j * Spec.two) := by
    intro t
    rw [if_neg (show ¬(1 : Fin 128).val = 0 by decide), if_pos (show (1 : Fin 128).val = 1 from rfl), zero_add, sR,
      dif_pos (lt_N t)]
    unfold Spec.rotSum
    refine Finset.sum_congr rfl fun r _ => Finset.sum_congr rfl fun j _ => ?_
    rw [dif_tile, tile_mk]
  simp only [e]
  unfold Spec.rotSum
  exact Spec.sum_tiles fun b => ∑ j : Fin 4, Ideal.cos
    (Spec.dif (N := 16384) (argO m c) (Spec.Tt (argT m c)) (argC m c) (Spec.Lt (argI m c)) p b j * Spec.two)

end Cert.KernelIdeal.Val

end
-- ==== Proof.RefTerm.lean ====
/-
  The reference program's results as pure terms of its five arguments, stage by stage: the row log-softmax of the
  logits; the first label's log-probability fetched along the bin axis (a negative label shifted by the axis' extent,
  a label still outside the axis answered by the quiet-NaN fill); its negation summed over the batch, divided by the
  batch size, summed over the parameters; the bin centres and the offsets fetched at all four labels; the residual
  target − centre − offset; its square and the cosine of its double, each summed over batch and label slot and divided
  by their count; and the per-parameter choice between the two (odd parameters take the negated cosine term), summed.
  Every definition is the printed operation applied to the stages before it, at any float instance.
-/
import proofs.«407714_j46377056862517_3_alg».proof.ReferenceIdeal

noncomputable section

namespace Cert.ReferenceIdeal.Term

open Idealize.ShloMosaic Cert.ReferenceIdeal
open Cert.ReferenceIdeal.Facts₀ Cert.ReferenceIdeal.Facts

variable {F : FTy → Type} [FloatOps F] [Cert.ReferenceIdeal.Facts]

/-! ## The row log-softmax of the logits -/

/-- Each row's maximum over the bins, from -∞, joined once more with -∞. -/
def rowMax (a0 : FVec F S6x16384x256 .f32) : FVec F S6x16384 .f32 :=
  maximumf (broadcastInDim S6x16384 ![] bcast_S_S6x16384 (constant S_ .f32 0xFF800000#32))
    (Host.reduce FloatOps.maximumf a0 (constant S_ .f32 0xFF800000#32) reducesTo_S6x16384x256_S6x16384_d2 h_S_)

/-- The logits shifted by their row's maximum. -/
def shifted (a0 : FVec F S6x16384x256 .f32) : FVec F S6x16384x256 .f32 :=
  subf a0 (broadcastInDim S6x16384x256 ![0, 1, 2] bcast_S6x16384x1_S6x16384x256_0_1_2
    (broadcastInDim S6x16384x1 ![0, 1] bcast_S6x16384_S6x16384x1_0_1 (rowMax a0)))

/-- The logarithm of each row's sum of exponentials of the shifted logits, kept as a column. -/
def logSumExp (a0 : FVec F S6x16384x256 .f32) : FVec F S6x16384x1 .f32 :=
  Host.log (broadcastInDim S6x16384x1 ![0, 1] bcast_S6x16384_S6x16384x1_0_1
    (Host.reduceAdd (Host.exp (shifted a0)) (constant S_ .f32 0x00000000#32) reducesTo_S6x16384x256_S6x16384_d2 h_S_))

/-- The log-probabilities. -/
def logp (a0 : FVec F S6x16384x256 .f32) : FVec F S6x16384x256 .f32 :=
  subf (shifted a0) (broadcastInDim S6x16384x256 ![0, 1, 2] bcast_S6x16384x1_S6x16384x256_0_1_2 (logSumExp a0))

/-! ## The classification term -/

/-- The first label of every entry, parameter-first, as a column. -/
def lab0 (a4 : IVec S16384x6x4 32) : IVec S6x16384x1 32 :=
  broadcastInDim S6x16384x1 ![0, 1] bcast_S6x16384_S6x16384x1_0_1
    (transpose S6x16384 [1, 0] (shapeCast S16384x6 (extractStridedSlice S16384x6x1 ![0, 0, 0] a4 slices_S16384x6x4_S16384x6x1_0_0_0)
      shapeCasts_S16384x6x1_S16384x6) transposes_S16384x6_S6x16384_1_0)

/-- A label column with negative labels shifted by the axis' extent, as start indices of the fetch. -/
def wrap1 (i : IVec S6x16384x1 32) : IVec S6x16384x1x1 32 :=
  shapeCast S6x16384x1x1
    (select (cmpi .slt i (broadcastInDim S6x16384x1 ![] bcast_S_S6x16384x1 (constantI S_ 32 0#32)))
      (addi i (broadcastInDim S6x16384x1 ![] bcast_S_S6x16384x1 (constantI S_ 32 256#32))) i)
    shapeCasts_S6x16384x1_S6x16384x1x1

/-- Whether a start index lies on the axis. -/
def inAxis1 (w : IVec S6x16384x1x1 32) : IVec S6x16384x1 1 :=
  Host.reduce IntOp.andi
    (andi (cmpi .sge w (broadcastInDim S6x16384x1x1 ![] bcast_S_S6x16384x1x1 (constantI S_ 32 0#32)))
      (cmpi .sle w (broadcastInDim S6x16384x1x1 ![0, 1, 2, 3] bcast_S1x1x1x1_S6x16384x1x1_0_1_2_3
        (broadcastInDim S1x1x1x1 ![3] bcast_S1_S1x1x1x1_3 (constantI S1 32 255#32)))))
    (constantI S_ 1 1#1) reducesTo_S6x16384x1x1_S6x16384x1_d3 h_S_

/-- One value per row fetched along the bin axis at a label column. -/
def takeCol (x : FVec F S6x16384x256 .f32) (i : IVec S6x16384x1 32) : FVec F S6x16384x1 .f32 :=
  select (inAxis1 (wrap1 i))
    (Host.gather gather_S6x16384x256_S6x16384x1x1_S6x16384x1_n_2_01_01_2_3_111 x (wrap1 i))
    (broadcastInDim S6x16384x1 ![] bcast_S_S6x16384x1 (constant S_ .f32 0x7FC00000#32))

/-- The negated log-probability of each entry's first label. -/
def nllv (a0 : FVec F S6x16384x256 .f32) (a4 : IVec S16384x6x4 32) : FVec F S6x16384 .f32 :=
  Host.negf (shapeCast S6x16384 (takeCol (logp a0) (lab0 a4)) shapeCasts_S6x16384x1_S6x16384)

/-- The first result: the batch mean of the negated log-probabilities, summed over the parameters, times one. -/
def out0 (a0 : FVec F S6x16384x256 .f32) (a4 : IVec S16384x6x4 32) : FVec F S_ .f32 :=
  mulf (constant S_ .f32 0x3F800000#32)
    (Host.reduceAdd
      (Host.divf (Host.reduceAdd (nllv a0 a4) (constant S_ .f32 0x00000000#32) reducesTo_S6x16384_S6_d1 h_S_)
        (broadcastInDim S6 ![] bcast_S_S6 (constant S_ .f32 0x46800000#32)))
      (constant S_ .f32 0x00000000#32) reducesTo_S6_S_d0 h_S_)

/-! ## The regression term -/

/-- All four labels of every entry, parameter-first. -/
def labs (a4 : IVec S16384x6x4 32) : IVec S6x16384x4 32 :=
  transpose S6x16384x4 [1, 0, 2] a4 transposes_S16384x6x4_S6x16384x4_1_0_2

/-- The labels with negative ones shifted by the axis' extent. -/
def wrapped (i : IVec S6x16384x4 32) : IVec S6x16384x4 32 :=
  select (cmpi .slt i (broadcastInDim S6x16384x4 ![] bcast_S_S6x16384x4 (constantI S_ 32 0#32)))
    (addi i (broadcastInDim S6x16384x4 ![] bcast_S_S6x16384x4 (constantI S_ 32 256#32))) i

/-- The bin centre of each label. -/
def centres (a3 : FVec F S6x256 .f32) (a4 : IVec S16384x6x4 32) : FVec F S6x16384x4 .f32 :=
  Host.gather gather_S6x256_S6x16384x4x1_S6x16384x4_n_1_0_0_1_3_11 a3
    (broadcastInDim S6x16384x4x1 ![0, 1, 2] bcast_S6x16384x4_S6x16384x4x1_0_1_2 (wrapped (labs a4)))

/-- The wrapped labels as start indices of the fetch along the bin axis. -/
def wrap4 (i : IVec S6x16384x4 32) : IVec S6x16384x4x1 32 :=
  shapeCast S6x16384x4x1 (wrapped i) shapeCasts_S6x16384x4_S6x16384x4x1

/-- Whether a start index lies on the axis. -/
def inAxis4 (w : IVec S6x16384x4x1 32) : IVec S6x16384x4 1 :=
  Host.reduce IntOp.andi
    (andi (cmpi .sge w (broadcastInDim S6x16384x4x1 ![] bcast_S_S6x16384x4x1 (constantI S_ 32 0#32)))
      (cmpi .sle w (broadcastInDim S6x16384x4x1 ![0, 1, 2, 3] bcast_S1x1x1x1_S6x16384x4x1_0_1_2_3
        (broadcastInDim S1x1x1x1 ![3] bcast_S1_S1x1x1x1_3 (constantI S1 32 255#32)))))
    (constantI S_ 1 1#1) reducesTo_S6x16384x4x1_S6x16384x4_d3 h_S_

/-- Four values per row fetched along the bin axis at the labels. -/
def takeFour (x : FVec F S6x16384x256 .f32) (i : IVec S6x16384x4 32) : FVec F S6x16384x4 .f32 :=
  select (inAxis4 (wrap4 i))
    (Host.gather gather_S6x16384x256_S6x16384x4x1_S6x16384x4_n_2_01_01_2_3_111 x (wrap4 i))
    (broadcastInDim S6x16384x4 ![] bcast_S_S6x16384x4 (constant S_ .f32 0x7FC00000#32))

/-- The targets, parameter-first, repeated along the label slots. -/
def targets (a2 : FVec F S16384x6 .f32) : FVec F S6x16384x4 .f32 :=
  broadcastInDim S6x16384x4 ![0, 1, 2] bcast_S6x16384x1_S6x16384x4_0_1_2
    (broadcastInDim S6x16384x1 ![0, 1] bcast_S6x16384_S6x16384x1_0_1
      (transpose S6x16384 [1, 0] a2 transposes_S16384x6_S6x16384_1_0))

/-- The residual: target − centre − offset. -/
def resid (a1 : FVec F S6x16384x256 .f32) (a2 : FVec F S16384x6 .f32) (a3 : FVec F S6x256 .f32) (a4 : IVec S16384x6x4 32) :
    FVec F S6x16384x4 .f32 :=
  subf (subf (targets a2) (centres a3 a4)) (takeFour a1 (labs a4))

/-- Which parameters are orientations: the parameter's number modulo two is one (jnp's floored remainder). -/
def isRot : IVec S6 1 :=
  let two : IVec S_ 32 := id (constantI S_ 32 2#32)
  let dv : IVec S_ 32 := select (cmpi .eq two (constantI S_ 32 0#32)) (constantI S_ 32 1#32) two
  let rm : IVec S6 32 := Host.remsi (iotaInDim S6 32 0) (broadcastInDim S6 ![] bcast_S_S6 dv)
  cmpi .eq
    (select
      (andi (cmpi .ne (cmpi .slt rm (broadcastInDim S6 ![] bcast_S_S6 (constantI S_ 32 0#32)))
          (broadcastInDim S6 ![] bcast_S_S6 (cmpi .slt dv (constantI S_ 32 0#32))))
        (cmpi .ne rm (broadcastInDim S6 ![] bcast_S_S6 (constantI S_ 32 0#32))))
      (addi rm (broadcastInDim S6 ![] bcast_S_S6 dv)) rm)
    (broadcastInDim S6 ![] bcast_S_S6 (constantI S_ 32 1#32))

/-- The orientation term: minus the mean cosine of the doubled residual. -/
def rotTerm (d : FVec F S6x16384x4 .f32) : FVec F S6 .f32 :=
  mulf (broadcastInDim S6 ![] bcast_S_S6 (constant S_ .f32 0xBF800000#32))
    (Host.divf
      (Host.reduceAdd (Host.cos (mulf d (broadcastInDim S6x16384x4 ![] bcast_S_S6x16384x4 (constant S_ .f32 0x40000000#32))))
        (constant S_ .f32 0x00000000#32) reducesTo_S6x16384x4_S6_d1_2 h_S_)
      (broadcastInDim S6 ![] bcast_S_S6 (constant S_ .f32 0x47800000#32)))

/-- The squared-error term: the mean squared residual. -/
def mseTerm (d : FVec F S6x16384x4 .f32) : FVec F S6 .f32 :=
  Host.divf (Host.reduceAdd (mulf d d) (constant S_ .f32 0x00000000#32) reducesTo_S6x16384x4_S6_d1_2 h_S_)
    (broadcastInDim S6 ![] bcast_S_S6 (constant S_ .f32 0x47800000#32))

/-- The second result: each parameter's term, chosen by kind, summed over the parameters. -/
def out1 (a1 : FVec F S6x16384x256 .f32) (a2 : FVec F S16384x6 .f32) (a3 : FVec F S6x256 .f32) (a4 : IVec S16384x6x4 32) :
    FVec F S_ .f32 :=
  Host.reduceAdd (select isRot (rotTerm (resid a1 a2 a3 a4)) (mseTerm (resid a1 a2 a3 a4)))
    (constant S_ .f32 0x00000000#32) reducesTo_S6_S_d0 h_S_

end Cert.ReferenceIdeal.Term

end
-- ==== Proof.RefRun.lean ====
/-
  The reference program's run: @main with its five callees' lines written out at their calls is one straight
  line of host operations, so every weakly fair execution terminates with each buffer at the operations' fold over the
  launch contents; read at the two results that fold is the composed term of the arguments, and the arguments are
  never written.

  The line has 136 operations, read here as nine consecutive stretches, one per stage of the loss: the row log-softmax; the first label as a
  column; the fetch of its log-probability; the batch mean and the sum over parameters (the first result); the four
  labels and their bin centres; the fetch of the four offsets; the residual; the parameters' kinds; the two means, the
  choice between them and the sum over parameters (the second result). For each stretch and ANY contents before it,
  the buffer the stretch ends in holds that stage's term of the buffers it starts from, and a buffer the stretch does
  not write keeps its contents. The fold over the whole line is the stretches' folds composed, which gives the two
  results as the stages composed and leaves the five arguments as they were.
-/
import proofs.«407714_j46377056862517_3_alg».proof.Proof.RefTerm
import proofs.«407714_j46377056862517_3_alg».proof.Proof.Gen.ReferenceIdeal
import Idealize.ShloMosaic.Lib.StableHlo.Run
import Idealize.ShloMosaic.Lib.Pipeline.Regions
import Idealize.ShloMosaic.Lib.Tactic

-- one theorem at a time
set_option Elab.async false

noncomputable section

open Idealize.ShloMosaic Idealize.ShloMosaic.TcCoe Idealize.SL.Sem

namespace Cert.ReferenceIdeal.RefRun

open Cert.ReferenceIdeal Cert.ReferenceIdeal.Gen Idealize.ShloMosaic.StableHlo

variable {F : FTy → Type} [FloatOps F]

/-! ## The straight line -/

/-- @main's 136 operations in order, each callee's lines at its call over that call's buffers: the log-softmax's
    fifteen; the slice, reshape, transpose and broadcast of the first label; the first fetch's twenty-two; the eleven
    that end in the first result; the ten from the labels' transpose to the bin centres; the second fetch's
    twenty-two; the five to the residual; the index list, the constant two, the floored remainder's twenty-one (its
    inner choice among them) and the comparison with one; the twenty that form the two means, the choice, and the
    last sum. -/
abbrev ops : List (HloOp τ sig (Elt F)) :=
  [
    StableHlo.TRef.nullary main_call0.cst (constant S_ .f32 0xFF800000#32),
    StableHlo.TRef.binary (.of main_arg0 : StableHlo.TRef sig ⟨S6x16384x256, .f32⟩) main_call0.cst main_call0.v0 (fun x v => Host.reduce FloatOps.maximumf x v reducesTo_S6x16384x256_S6x16384_d2 h_S_),
    StableHlo.TRef.nullary main_call0.cst_0 (constant S_ .f32 0xFF800000#32),
    StableHlo.TRef.unary main_call0.cst_0 main_call0.v1 (broadcastInDim S6x16384 ![] bcast_S_S6x16384),
    StableHlo.TRef.binary main_call0.v1 main_call0.v0 main_call0.v2 maximumf,
    StableHlo.TRef.unary main_call0.v2 main_call0.v3 (broadcastInDim S6x16384x1 ![0, 1] bcast_S6x16384_S6x16384x1_0_1),
    StableHlo.TRef.unary main_call0.v3 main_call0.v4 (broadcastInDim S6x16384x256 ![0, 1, 2] bcast_S6x16384x1_S6x16384x256_0_1_2),
    StableHlo.TRef.binary (.of main_arg0 : StableHlo.TRef sig ⟨S6x16384x256, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S6x16384x256_S6x16384_d2 h_S_),
    StableHlo.TRef.unary main_call0.v7 main_call0.v8 (broadcastInDim S6x16384x1 ![0, 1] bcast_S6x16384_S6x16384x1_0_1),
    StableHlo.TRef.unary main_call0.v8 main_call0.v9 Host.log,
    StableHlo.TRef.unary main_call0.v9 main_call0.v10 (broadcastInDim S6x16384x256 ![0, 1, 2] bcast_S6x16384x1_S6x16384x256_0_1_2),
    StableHlo.TRef.binary main_call0.v5 main_call0.v10 main_call0.v11 subf,
    StableHlo.unary main_arg4 main_v1 ((extractStridedSlice S16384x6x1 ![0, 0, 0] · slices_S16384x6x4_S16384x6x1_0_0_0) : (⟨S16384x6x4, .i32⟩ : BufTy).Contents (Elt F) → (⟨S16384x6x1, .i32⟩ : BufTy).Contents (Elt F)),
    StableHlo.reshape main_v1 main_v2 rfl shapeCasts_S16384x6x1_S16384x6,
    StableHlo.unary main_v2 main_v3 ((transpose S6x16384 [1, 0] · transposes_S16384x6_S6x16384_1_0) : (⟨S16384x6, .i32⟩ : BufTy).Contents (Elt F) → (⟨S6x16384, .i32⟩ : BufTy).Contents (Elt F)),
    StableHlo.unary main_v3 main_v4 (broadcastInDim S6x16384x1 ![0, 1] bcast_S6x16384_S6x16384x1_0_1 : (⟨S6x16384, .i32⟩ : BufTy).Contents (Elt F) → (⟨S6x16384x1, .i32⟩ : BufTy).Contents (Elt F)),
    StableHlo.TRef.nullary main_call1.c (constantI S_ 32 0#32),
    StableHlo.TRef.unary main_call1.c main_call1.v0 (broadcastInDim S6x16384x1 ![] bcast_S_S6x16384x1),
    StableHlo.TRef.binary (.of main_v4 : StableHlo.TRef sig ⟨S6x16384x1, .i32⟩) main_call1.v0 main_call1.v1 (cmpi .slt),
    StableHlo.TRef.nullary main_call1.c_0 (constantI S_ 32 256#32),
    StableHlo.TRef.unary main_call1.c_0 main_call1.v2 (broadcastInDim S6x16384x1 ![] bcast_S_S6x16384x1),
    StableHlo.TRef.binary (.of main_v4 : StableHlo.TRef sig ⟨S6x16384x1, .i32⟩) main_call1.v2 main_call1.v3 addi,
    StableHlo.TRef.ternary main_call1.v1 main_call1.v3 (.of main_v4 : StableHlo.TRef sig ⟨S6x16384x1, .i32⟩) main_call1.v4 select,
    StableHlo.TRef.reshape main_call1.v4 main_call1.v5 rfl shapeCasts_S6x16384x1_S6x16384x1x1,
    StableHlo.TRef.nullary main_call1.c_1 (constantI S1 32 255#32),
    StableHlo.TRef.nullary main_call1.c_2 (constantI S_ 32 0#32),
    StableHlo.TRef.unary main_call1.c_2 main_call1.v6 (broadcastInDim S6x16384x1x1 ![] bcast_S_S6x16384x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S6x16384x1x1 ![0, 1, 2, 3] bcast_S1x1x1x1_S6x16384x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S6x16384x1x1_S6x16384x1_d3 h_S_),
    StableHlo.TRef.binary (.of main_v0 : StableHlo.TRef sig ⟨S6x16384x256, .f32⟩) main_call1.v5 main_call1.v13 (fun x i => Host.gather gather_S6x16384x256_S6x16384x1x1_S6x16384x1_n_2_01_01_2_3_111 x i),
    StableHlo.TRef.nullary main_call1.cst (constant S_ .f32 0x7FC00000#32),
    StableHlo.TRef.unary main_call1.cst main_call1.v14 (broadcastInDim S6x16384x1 ![] bcast_S_S6x16384x1),
    StableHlo.TRef.ternary main_call1.v12 main_call1.v13 main_call1.v14 main_call1.v15 select,
    StableHlo.reshape main_v5 main_v6 rfl shapeCasts_S6x16384x1_S6x16384,
    StableHlo.unary main_v6 main_v7 (Host.negf : (⟨S6x16384, .f32⟩ : BufTy).Contents (Elt F) → (⟨S6x16384, .f32⟩ : BufTy).Contents (Elt F)),
    StableHlo.nullary main_cst (constant S_ .f32 0x00000000#32),
    StableHlo.binary main_v7 main_cst main_v8 ((fun x v => Host.reduceAdd x v reducesTo_S6x16384_S6_d1 h_S_) : (⟨S6x16384, .f32⟩ : BufTy).Contents (Elt F) → (⟨S_, .f32⟩ : BufTy).Contents (Elt F) → (⟨S6, .f32⟩ : BufTy).Contents (Elt F)),
    StableHlo.nullary main_cst_0 (constant S_ .f32 0x46800000#32),
    StableHlo.unary main_cst_0 main_v9 (broadcastInDim S6 ![] bcast_S_S6 : (⟨S_, .f32⟩ : BufTy).Contents (Elt F) → (⟨S6, .f32⟩ : BufTy).Contents (Elt F)),
    StableHlo.binary main_v8 main_v9 main_v10 (Host.divf : (⟨S6, .f32⟩ : BufTy).Contents (Elt F) → (⟨S6, .f32⟩ : BufTy).Contents (Elt F) → (⟨S6, .f32⟩ : BufTy).Contents (Elt F)),
    StableHlo.nullary main_cst_1 (constant S_ .f32 0x00000000#32),
    StableHlo.binary main_v10 main_cst_1 main_v11 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_cst_2 main_v11 main_v12 (mulf : (⟨S_, .f32⟩ : BufTy).Contents (Elt F) → (⟨S_, .f32⟩ : BufTy).Contents (Elt F) → (⟨S_, .f32⟩ : BufTy).Contents (Elt F)),
    StableHlo.unary main_arg4 main_v13 ((transpose S6x16384x4 [1, 0, 2] · transposes_S16384x6x4_S6x16384x4_1_0_2) : (⟨S16384x6x4, .i32⟩ : BufTy).Contents (Elt F) → (⟨S6x16384x4, .i32⟩ : BufTy).Contents (Elt F)),
    StableHlo.nullary main_c (constantI S_ 32 0#32),
    StableHlo.unary main_c main_v14 (broadcastInDim S6x16384x4 ![] bcast_S_S6x16384x4 : (⟨S_, .i32⟩ : BufTy).Contents (Elt F) → (⟨S6x16384x4, .i32⟩ : BufTy).Contents (Elt F)),
    StableHlo.binary main_v13 main_v14 main_v15 (cmpi .slt : (⟨S6x16384x4, .i32⟩ : BufTy).Contents (Elt F) → (⟨S6x16384x4, .i32⟩ : BufTy).Contents (Elt F) → (⟨S6x16384x4, .i1⟩ : BufTy).Contents (Elt F)),
    StableHlo.nullary main_c_3 (constantI S_ 32 256#32),
    StableHlo.unary main_c_3 main_v16 (broadcastInDim S6x16384x4 ![] bcast_S_S6x16384x4 : (⟨S_, .i32⟩ : BufTy).Contents (Elt F) → (⟨S6x16384x4, .i32⟩ : BufTy).Contents (Elt F)),
    StableHlo.binary main_v13 main_v16 main_v17 (addi : (⟨S6x16384x4, .i32⟩ : BufTy).Contents (Elt F) → (⟨S6x16384x4, .i32⟩ : BufTy).Contents (Elt F) → (⟨S6x16384x4, .i32⟩ : BufTy).Contents (Elt F)),
    StableHlo.ternary main_v15 main_v17 main_v13 main_v18 (select : (⟨S6x16384x4, .i1⟩ : BufTy).Contents (Elt F) → (⟨S6x16384x4, .i32⟩ : BufTy).Contents (Elt F) → (⟨S6x16384x4, .i32⟩ : BufTy).Contents (Elt F) → (⟨S6x16384x4, .i32⟩ : BufTy).Contents (Elt F)),
    StableHlo.unary main_v18 main_v19 (broadcastInDim S6x16384x4x1 ![0, 1, 2] bcast_S6x16384x4_S6x16384x4x1_0_1_2 : (⟨S6x16384x4, .i32⟩ : BufTy).Contents (Elt F) → (⟨S6x16384x4x1, .i32⟩ : BufTy).Contents (Elt F)),
    StableHlo.binary main_arg3 main_v19 main_v20 ((fun x i => Host.gather gather_S6x256_S6x16384x4x1_S6x16384x4_n_1_0_0_1_3_11 x i) : (⟨S6x256, .f32⟩ : BufTy).Contents (Elt F) → (⟨S6x16384x4x1, .i32⟩ : BufTy).Contents (Elt F) → (⟨S6x16384x4, .f32⟩ : BufTy).Contents (Elt F)),
    StableHlo.TRef.nullary main_call2.c (constantI S_ 32 0#32),
    StableHlo.TRef.unary main_call2.c main_call2.v0 (broadcastInDim S6x16384x4 ![] bcast_S_S6x16384x4),
    StableHlo.TRef.binary (.of main_v13 : StableHlo.TRef sig ⟨S6x16384x4, .i32⟩) main_call2.v0 main_call2.v1 (cmpi .slt),
    StableHlo.TRef.nullary main_call2.c_0 (constantI S_ 32 256#32),
    StableHlo.TRef.unary main_call2.c_0 main_call2.v2 (broadcastInDim S6x16384x4 ![] bcast_S_S6x16384x4),
    StableHlo.TRef.binary (.of main_v13 : StableHlo.TRef sig ⟨S6x16384x4, .i32⟩) main_call2.v2 main_call2.v3 addi,
    StableHlo.TRef.ternary main_call2.v1 main_call2.v3 (.of main_v13 : StableHlo.TRef sig ⟨S6x16384x4, .i32⟩) main_call2.v4 select,
    StableHlo.TRef.reshape main_call2.v4 main_call2.v5 rfl shapeCasts_S6x16384x4_S6x16384x4x1,
    StableHlo.TRef.nullary main_call2.c_1 (constantI S1 32 255#32),
    StableHlo.TRef.nullary main_call2.c_2 (constantI S_ 32 0#32),
    StableHlo.TRef.unary main_call2.c_2 main_call2.v6 (broadcastInDim S6x16384x4x1 ![] bcast_S_S6x16384x4x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S6x16384x4x1 ![0, 1, 2, 3] bcast_S1x1x1x1_S6x16384x4x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S6x16384x4x1_S6x16384x4_d3 h_S_),
    StableHlo.TRef.binary (.of main_arg1 : StableHlo.TRef sig ⟨S6x16384x256, .f32⟩) main_call2.v5 main_call2.v13 (fun x i => Host.gather gather_S6x16384x256_S6x16384x4x1_S6x16384x4_n_2_01_01_2_3_111 x i),
    StableHlo.TRef.nullary main_call2.cst (constant S_ .f32 0x7FC00000#32),
    StableHlo.TRef.unary main_call2.cst main_call2.v14 (broadcastInDim S6x16384x4 ![] bcast_S_S6x16384x4),
    StableHlo.TRef.ternary main_call2.v12 main_call2.v13 main_call2.v14 main_call2.v15 select,
    StableHlo.unary main_arg2 main_v22 ((transpose S6x16384 [1, 0] · transposes_S16384x6_S6x16384_1_0) : (⟨S16384x6, .f32⟩ : BufTy).Contents (Elt F) → (⟨S6x16384, .f32⟩ : BufTy).Contents (Elt F)),
    StableHlo.unary main_v22 main_v23 (broadcastInDim S6x16384x1 ![0, 1] bcast_S6x16384_S6x16384x1_0_1 : (⟨S6x16384, .f32⟩ : BufTy).Contents (Elt F) → (⟨S6x16384x1, .f32⟩ : BufTy).Contents (Elt F)),
    StableHlo.unary main_v23 main_v24 (broadcastInDim S6x16384x4 ![0, 1, 2] bcast_S6x16384x1_S6x16384x4_0_1_2 : (⟨S6x16384x1, .f32⟩ : BufTy).Contents (Elt F) → (⟨S6x16384x4, .f32⟩ : BufTy).Contents (Elt F)),
    StableHlo.binary main_v24 main_v20 main_v25 (subf : (⟨S6x16384x4, .f32⟩ : BufTy).Contents (Elt F) → (⟨S6x16384x4, .f32⟩ : BufTy).Contents (Elt F) → (⟨S6x16384x4, .f32⟩ : BufTy).Contents (Elt F)),
    StableHlo.binary main_v25 main_v21 main_v26 (subf : (⟨S6x16384x4, .f32⟩ : BufTy).Contents (Elt F) → (⟨S6x16384x4, .f32⟩ : BufTy).Contents (Elt F) → (⟨S6x16384x4, .f32⟩ : BufTy).Contents (Elt F)),
    StableHlo.nullary main_v27 (iotaInDim S6 32 0),
    StableHlo.nullary main_c_4 (constantI S_ 32 2#32),
    StableHlo.TRef.unary (.of main_c_4 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S6 ![] bcast_S_S6),
    StableHlo.TRef.binary (.of main_v27 : StableHlo.TRef sig ⟨S6, .i32⟩) main_call3.v3 main_call3.v4 Host.remsi,
    StableHlo.TRef.nullary main_call3.c_1 (constantI S_ 32 0#32),
    StableHlo.TRef.unary main_call3.c_1 main_call3.v5 (broadcastInDim S6 ![] bcast_S_S6),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S6 ![] bcast_S_S6),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S6 ![] bcast_S_S6),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S6 ![] bcast_S_S6),
    StableHlo.TRef.binary main_call3.v4 main_call3.v13 main_call3.v14 addi,
    StableHlo.TRef.ternary main_call3.v12 main_call3.v14 main_call3.v4 main_call3.v15 select,
    StableHlo.nullary main_c_5 (constantI S_ 32 1#32),
    StableHlo.unary main_c_5 main_v29 (broadcastInDim S6 ![] bcast_S_S6 : (⟨S_, .i32⟩ : BufTy).Contents (Elt F) → (⟨S6, .i32⟩ : BufTy).Contents (Elt F)),
    StableHlo.binary main_v28 main_v29 main_v30 (cmpi .eq : (⟨S6, .i32⟩ : BufTy).Contents (Elt F) → (⟨S6, .i32⟩ : BufTy).Contents (Elt F) → (⟨S6, .i1⟩ : BufTy).Contents (Elt F)),
    StableHlo.nullary main_cst_6 (constant S_ .f32 0x40000000#32),
    StableHlo.unary main_cst_6 main_v31 (broadcastInDim S6x16384x4 ![] bcast_S_S6x16384x4 : (⟨S_, .f32⟩ : BufTy).Contents (Elt F) → (⟨S6x16384x4, .f32⟩ : BufTy).Contents (Elt F)),
    StableHlo.binary main_v26 main_v31 main_v32 (mulf : (⟨S6x16384x4, .f32⟩ : BufTy).Contents (Elt F) → (⟨S6x16384x4, .f32⟩ : BufTy).Contents (Elt F) → (⟨S6x16384x4, .f32⟩ : BufTy).Contents (Elt F)),
    StableHlo.unary main_v32 main_v33 (Host.cos : (⟨S6x16384x4, .f32⟩ : BufTy).Contents (Elt F) → (⟨S6x16384x4, .f32⟩ : BufTy).Contents (Elt F)),
    StableHlo.nullary main_cst_7 (constant S_ .f32 0x00000000#32),
    StableHlo.binary main_v33 main_cst_7 main_v34 ((fun x v => Host.reduceAdd x v reducesTo_S6x16384x4_S6_d1_2 h_S_) : (⟨S6x16384x4, .f32⟩ : BufTy).Contents (Elt F) → (⟨S_, .f32⟩ : BufTy).Contents (Elt F) → (⟨S6, .f32⟩ : BufTy).Contents (Elt F)),
    StableHlo.nullary main_cst_8 (constant S_ .f32 0x47800000#32),
    StableHlo.unary main_cst_8 main_v35 (broadcastInDim S6 ![] bcast_S_S6 : (⟨S_, .f32⟩ : BufTy).Contents (Elt F) → (⟨S6, .f32⟩ : BufTy).Contents (Elt F)),
    StableHlo.binary main_v34 main_v35 main_v36 (Host.divf : (⟨S6, .f32⟩ : BufTy).Contents (Elt F) → (⟨S6, .f32⟩ : BufTy).Contents (Elt F) → (⟨S6, .f32⟩ : BufTy).Contents (Elt F)),
    StableHlo.nullary main_cst_9 (constant S_ .f32 0xBF800000#32),
    StableHlo.unary main_cst_9 main_v37 (broadcastInDim S6 ![] bcast_S_S6 : (⟨S_, .f32⟩ : BufTy).Contents (Elt F) → (⟨S6, .f32⟩ : BufTy).Contents (Elt F)),
    StableHlo.binary main_v37 main_v36 main_v38 (mulf : (⟨S6, .f32⟩ : BufTy).Contents (Elt F) → (⟨S6, .f32⟩ : BufTy).Contents (Elt F) → (⟨S6, .f32⟩ : BufTy).Contents (Elt F)),
    StableHlo.binary main_v26 main_v26 main_v39 (mulf : (⟨S6x16384x4, .f32⟩ : BufTy).Contents (Elt F) → (⟨S6x16384x4, .f32⟩ : BufTy).Contents (Elt F) → (⟨S6x16384x4, .f32⟩ : BufTy).Contents (Elt F)),
    StableHlo.nullary main_cst_10 (constant S_ .f32 0x00000000#32),
    StableHlo.binary main_v39 main_cst_10 main_v40 ((fun x v => Host.reduceAdd x v reducesTo_S6x16384x4_S6_d1_2 h_S_) : (⟨S6x16384x4, .f32⟩ : BufTy).Contents (Elt F) → (⟨S_, .f32⟩ : BufTy).Contents (Elt F) → (⟨S6, .f32⟩ : BufTy).Contents (Elt F)),
    StableHlo.nullary main_cst_11 (constant S_ .f32 0x47800000#32),
    StableHlo.unary main_cst_11 main_v41 (broadcastInDim S6 ![] bcast_S_S6 : (⟨S_, .f32⟩ : BufTy).Contents (Elt F) → (⟨S6, .f32⟩ : BufTy).Contents (Elt F)),
    StableHlo.binary main_v40 main_v41 main_v42 (Host.divf : (⟨S6, .f32⟩ : BufTy).Contents (Elt F) → (⟨S6, .f32⟩ : BufTy).Contents (Elt F) → (⟨S6, .f32⟩ : BufTy).Contents (Elt F)),
    StableHlo.TRef.ternary (.of main_v30 : StableHlo.TRef sig ⟨S6, .i1⟩) (.of main_v38 : StableHlo.TRef sig ⟨S6, .f32⟩) (.of main_v42 : StableHlo.TRef sig ⟨S6, .f32⟩) main_call4.v0 select,
    StableHlo.nullary main_cst_12 (constant S_ .f32 0x00000000#32),
    StableHlo.binary main_v43 main_cst_12 main_v44 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) ]

/-- @main is that straight line: both sides unfold to one chain of steps, which the kernel checks by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., reshape_bufs_sub .., unary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    unary_bufs_sub .., nullary_bufs_sub .., binary_bufs_sub .., nullary_bufs_sub .., unary_bufs_sub .., binary_bufs_sub ..,
    nullary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., unary_bufs_sub .., unary_bufs_sub .., binary_bufs_sub .., binary_bufs_sub .., nullary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., unary_bufs_sub .., nullary_bufs_sub ..,
    binary_bufs_sub .., nullary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., ternary_bufs_sub .., nullary_bufs_sub .., binary_bufs_sub ..⟩

/-! ## The line in nine stretches -/

/-- The row log-softmax of the first argument. -/
abbrev segA : List (HloOp τ sig (Elt F)) :=
  [
    StableHlo.TRef.nullary main_call0.cst (constant S_ .f32 0xFF800000#32),
    StableHlo.TRef.binary (.of main_arg0 : StableHlo.TRef sig ⟨S6x16384x256, .f32⟩) main_call0.cst main_call0.v0 (fun x v => Host.reduce FloatOps.maximumf x v reducesTo_S6x16384x256_S6x16384_d2 h_S_),
    StableHlo.TRef.nullary main_call0.cst_0 (constant S_ .f32 0xFF800000#32),
    StableHlo.TRef.unary main_call0.cst_0 main_call0.v1 (broadcastInDim S6x16384 ![] bcast_S_S6x16384),
    StableHlo.TRef.binary main_call0.v1 main_call0.v0 main_call0.v2 maximumf,
    StableHlo.TRef.unary main_call0.v2 main_call0.v3 (broadcastInDim S6x16384x1 ![0, 1] bcast_S6x16384_S6x16384x1_0_1),
    StableHlo.TRef.unary main_call0.v3 main_call0.v4 (broadcastInDim S6x16384x256 ![0, 1, 2] bcast_S6x16384x1_S6x16384x256_0_1_2),
    StableHlo.TRef.binary (.of main_arg0 : StableHlo.TRef sig ⟨S6x16384x256, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S6x16384x256_S6x16384_d2 h_S_),
    StableHlo.TRef.unary main_call0.v7 main_call0.v8 (broadcastInDim S6x16384x1 ![0, 1] bcast_S6x16384_S6x16384x1_0_1),
    StableHlo.TRef.unary main_call0.v8 main_call0.v9 Host.log,
    StableHlo.TRef.unary main_call0.v9 main_call0.v10 (broadcastInDim S6x16384x256 ![0, 1, 2] bcast_S6x16384x1_S6x16384x256_0_1_2),
    StableHlo.TRef.binary main_call0.v5 main_call0.v10 main_call0.v11 subf ]

/-- The first label of every entry, parameter-first, as a column. -/
abbrev segB : List (HloOp τ sig (Elt F)) :=
  [
    StableHlo.unary main_arg4 main_v1 ((extractStridedSlice S16384x6x1 ![0, 0, 0] · slices_S16384x6x4_S16384x6x1_0_0_0) : (⟨S16384x6x4, .i32⟩ : BufTy).Contents (Elt F) → (⟨S16384x6x1, .i32⟩ : BufTy).Contents (Elt F)),
    StableHlo.reshape main_v1 main_v2 rfl shapeCasts_S16384x6x1_S16384x6,
    StableHlo.unary main_v2 main_v3 ((transpose S6x16384 [1, 0] · transposes_S16384x6_S6x16384_1_0) : (⟨S16384x6, .i32⟩ : BufTy).Contents (Elt F) → (⟨S6x16384, .i32⟩ : BufTy).Contents (Elt F)),
    StableHlo.unary main_v3 main_v4 (broadcastInDim S6x16384x1 ![0, 1] bcast_S6x16384_S6x16384x1_0_1 : (⟨S6x16384, .i32⟩ : BufTy).Contents (Elt F) → (⟨S6x16384x1, .i32⟩ : BufTy).Contents (Elt F)) ]

/-- The fetch of each row's log-probability at its first label. -/
abbrev segC : List (HloOp τ sig (Elt F)) :=
  [
    StableHlo.TRef.nullary main_call1.c (constantI S_ 32 0#32),
    StableHlo.TRef.unary main_call1.c main_call1.v0 (broadcastInDim S6x16384x1 ![] bcast_S_S6x16384x1),
    StableHlo.TRef.binary (.of main_v4 : StableHlo.TRef sig ⟨S6x16384x1, .i32⟩) main_call1.v0 main_call1.v1 (cmpi .slt),
    StableHlo.TRef.nullary main_call1.c_0 (constantI S_ 32 256#32),
    StableHlo.TRef.unary main_call1.c_0 main_call1.v2 (broadcastInDim S6x16384x1 ![] bcast_S_S6x16384x1),
    StableHlo.TRef.binary (.of main_v4 : StableHlo.TRef sig ⟨S6x16384x1, .i32⟩) main_call1.v2 main_call1.v3 addi,
    StableHlo.TRef.ternary main_call1.v1 main_call1.v3 (.of main_v4 : StableHlo.TRef sig ⟨S6x16384x1, .i32⟩) main_call1.v4 select,
    StableHlo.TRef.reshape main_call1.v4 main_call1.v5 rfl shapeCasts_S6x16384x1_S6x16384x1x1,
    StableHlo.TRef.nullary main_call1.c_1 (constantI S1 32 255#32),
    StableHlo.TRef.nullary main_call1.c_2 (constantI S_ 32 0#32),
    StableHlo.TRef.unary main_call1.c_2 main_call1.v6 (broadcastInDim S6x16384x1x1 ![] bcast_S_S6x16384x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S6x16384x1x1 ![0, 1, 2, 3] bcast_S1x1x1x1_S6x16384x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S6x16384x1x1_S6x16384x1_d3 h_S_),
    StableHlo.TRef.binary (.of main_v0 : StableHlo.TRef sig ⟨S6x16384x256, .f32⟩) main_call1.v5 main_call1.v13 (fun x i => Host.gather gather_S6x16384x256_S6x16384x1x1_S6x16384x1_n_2_01_01_2_3_111 x i),
    StableHlo.TRef.nullary main_call1.cst (constant S_ .f32 0x7FC00000#32),
    StableHlo.TRef.unary main_call1.cst main_call1.v14 (broadcastInDim S6x16384x1 ![] bcast_S_S6x16384x1),
    StableHlo.TRef.ternary main_call1.v12 main_call1.v13 main_call1.v14 main_call1.v15 select ]

/-- The negation, the batch mean, the sum over the parameters and the product with one: the first result. -/
abbrev segD : List (HloOp τ sig (Elt F)) :=
  [
    StableHlo.reshape main_v5 main_v6 rfl shapeCasts_S6x16384x1_S6x16384,
    StableHlo.unary main_v6 main_v7 (Host.negf : (⟨S6x16384, .f32⟩ : BufTy).Contents (Elt F) → (⟨S6x16384, .f32⟩ : BufTy).Contents (Elt F)),
    StableHlo.nullary main_cst (constant S_ .f32 0x00000000#32),
    StableHlo.binary main_v7 main_cst main_v8 ((fun x v => Host.reduceAdd x v reducesTo_S6x16384_S6_d1 h_S_) : (⟨S6x16384, .f32⟩ : BufTy).Contents (Elt F) → (⟨S_, .f32⟩ : BufTy).Contents (Elt F) → (⟨S6, .f32⟩ : BufTy).Contents (Elt F)),
    StableHlo.nullary main_cst_0 (constant S_ .f32 0x46800000#32),
    StableHlo.unary main_cst_0 main_v9 (broadcastInDim S6 ![] bcast_S_S6 : (⟨S_, .f32⟩ : BufTy).Contents (Elt F) → (⟨S6, .f32⟩ : BufTy).Contents (Elt F)),
    StableHlo.binary main_v8 main_v9 main_v10 (Host.divf : (⟨S6, .f32⟩ : BufTy).Contents (Elt F) → (⟨S6, .f32⟩ : BufTy).Contents (Elt F) → (⟨S6, .f32⟩ : BufTy).Contents (Elt F)),
    StableHlo.nullary main_cst_1 (constant S_ .f32 0x00000000#32),
    StableHlo.binary main_v10 main_cst_1 main_v11 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_cst_2 main_v11 main_v12 (mulf : (⟨S_, .f32⟩ : BufTy).Contents (Elt F) → (⟨S_, .f32⟩ : BufTy).Contents (Elt F) → (⟨S_, .f32⟩ : BufTy).Contents (Elt F)) ]

/-- The four labels parameter-first, wrapped, and the bin centres fetched at them. -/
abbrev segE : List (HloOp τ sig (Elt F)) :=
  [
    StableHlo.unary main_arg4 main_v13 ((transpose S6x16384x4 [1, 0, 2] · transposes_S16384x6x4_S6x16384x4_1_0_2) : (⟨S16384x6x4, .i32⟩ : BufTy).Contents (Elt F) → (⟨S6x16384x4, .i32⟩ : BufTy).Contents (Elt F)),
    StableHlo.nullary main_c (constantI S_ 32 0#32),
    StableHlo.unary main_c main_v14 (broadcastInDim S6x16384x4 ![] bcast_S_S6x16384x4 : (⟨S_, .i32⟩ : BufTy).Contents (Elt F) → (⟨S6x16384x4, .i32⟩ : BufTy).Contents (Elt F)),
    StableHlo.binary main_v13 main_v14 main_v15 (cmpi .slt : (⟨S6x16384x4, .i32⟩ : BufTy).Contents (Elt F) → (⟨S6x16384x4, .i32⟩ : BufTy).Contents (Elt F) → (⟨S6x16384x4, .i1⟩ : BufTy).Contents (Elt F)),
    StableHlo.nullary main_c_3 (constantI S_ 32 256#32),
    StableHlo.unary main_c_3 main_v16 (broadcastInDim S6x16384x4 ![] bcast_S_S6x16384x4 : (⟨S_, .i32⟩ : BufTy).Contents (Elt F) → (⟨S6x16384x4, .i32⟩ : BufTy).Contents (Elt F)),
    StableHlo.binary main_v13 main_v16 main_v17 (addi : (⟨S6x16384x4, .i32⟩ : BufTy).Contents (Elt F) → (⟨S6x16384x4, .i32⟩ : BufTy).Contents (Elt F) → (⟨S6x16384x4, .i32⟩ : BufTy).Contents (Elt F)),
    StableHlo.ternary main_v15 main_v17 main_v13 main_v18 (select : (⟨S6x16384x4, .i1⟩ : BufTy).Contents (Elt F) → (⟨S6x16384x4, .i32⟩ : BufTy).Contents (Elt F) → (⟨S6x16384x4, .i32⟩ : BufTy).Contents (Elt F) → (⟨S6x16384x4, .i32⟩ : BufTy).Contents (Elt F)),
    StableHlo.unary main_v18 main_v19 (broadcastInDim S6x16384x4x1 ![0, 1, 2] bcast_S6x16384x4_S6x16384x4x1_0_1_2 : (⟨S6x16384x4, .i32⟩ : BufTy).Contents (Elt F) → (⟨S6x16384x4x1, .i32⟩ : BufTy).Contents (Elt F)),
    StableHlo.binary main_arg3 main_v19 main_v20 ((fun x i => Host.gather gather_S6x256_S6x16384x4x1_S6x16384x4_n_1_0_0_1_3_11 x i) : (⟨S6x256, .f32⟩ : BufTy).Contents (Elt F) → (⟨S6x16384x4x1, .i32⟩ : BufTy).Contents (Elt F) → (⟨S6x16384x4, .f32⟩ : BufTy).Contents (Elt F)) ]

/-- The fetch of the four offsets of every entry along the bin axis. -/
abbrev segF : List (HloOp τ sig (Elt F)) :=
  [
    StableHlo.TRef.nullary main_call2.c (constantI S_ 32 0#32),
    StableHlo.TRef.unary main_call2.c main_call2.v0 (broadcastInDim S6x16384x4 ![] bcast_S_S6x16384x4),
    StableHlo.TRef.binary (.of main_v13 : StableHlo.TRef sig ⟨S6x16384x4, .i32⟩) main_call2.v0 main_call2.v1 (cmpi .slt),
    StableHlo.TRef.nullary main_call2.c_0 (constantI S_ 32 256#32),
    StableHlo.TRef.unary main_call2.c_0 main_call2.v2 (broadcastInDim S6x16384x4 ![] bcast_S_S6x16384x4),
    StableHlo.TRef.binary (.of main_v13 : StableHlo.TRef sig ⟨S6x16384x4, .i32⟩) main_call2.v2 main_call2.v3 addi,
    StableHlo.TRef.ternary main_call2.v1 main_call2.v3 (.of main_v13 : StableHlo.TRef sig ⟨S6x16384x4, .i32⟩) main_call2.v4 select,
    StableHlo.TRef.reshape main_call2.v4 main_call2.v5 rfl shapeCasts_S6x16384x4_S6x16384x4x1,
    StableHlo.TRef.nullary main_call2.c_1 (constantI S1 32 255#32),
    StableHlo.TRef.nullary main_call2.c_2 (constantI S_ 32 0#32),
    StableHlo.TRef.unary main_call2.c_2 main_call2.v6 (broadcastInDim S6x16384x4x1 ![] bcast_S_S6x16384x4x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S6x16384x4x1 ![0, 1, 2, 3] bcast_S1x1x1x1_S6x16384x4x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S6x16384x4x1_S6x16384x4_d3 h_S_),
    StableHlo.TRef.binary (.of main_arg1 : StableHlo.TRef sig ⟨S6x16384x256, .f32⟩) main_call2.v5 main_call2.v13 (fun x i => Host.gather gather_S6x16384x256_S6x16384x4x1_S6x16384x4_n_2_01_01_2_3_111 x i),
    StableHlo.TRef.nullary main_call2.cst (constant S_ .f32 0x7FC00000#32),
    StableHlo.TRef.unary main_call2.cst main_call2.v14 (broadcastInDim S6x16384x4 ![] bcast_S_S6x16384x4),
    StableHlo.TRef.ternary main_call2.v12 main_call2.v13 main_call2.v14 main_call2.v15 select ]

/-- The targets parameter-first along the label slots, and the residual. -/
abbrev segG : List (HloOp τ sig (Elt F)) :=
  [
    StableHlo.unary main_arg2 main_v22 ((transpose S6x16384 [1, 0] · transposes_S16384x6_S6x16384_1_0) : (⟨S16384x6, .f32⟩ : BufTy).Contents (Elt F) → (⟨S6x16384, .f32⟩ : BufTy).Contents (Elt F)),
    StableHlo.unary main_v22 main_v23 (broadcastInDim S6x16384x1 ![0, 1] bcast_S6x16384_S6x16384x1_0_1 : (⟨S6x16384, .f32⟩ : BufTy).Contents (Elt F) → (⟨S6x16384x1, .f32⟩ : BufTy).Contents (Elt F)),
    StableHlo.unary main_v23 main_v24 (broadcastInDim S6x16384x4 ![0, 1, 2] bcast_S6x16384x1_S6x16384x4_0_1_2 : (⟨S6x16384x1, .f32⟩ : BufTy).Contents (Elt F) → (⟨S6x16384x4, .f32⟩ : BufTy).Contents (Elt F)),
    StableHlo.binary main_v24 main_v20 main_v25 (subf : (⟨S6x16384x4, .f32⟩ : BufTy).Contents (Elt F) → (⟨S6x16384x4, .f32⟩ : BufTy).Contents (Elt F) → (⟨S6x16384x4, .f32⟩ : BufTy).Contents (Elt F)),
    StableHlo.binary main_v25 main_v21 main_v26 (subf : (⟨S6x16384x4, .f32⟩ : BufTy).Contents (Elt F) → (⟨S6x16384x4, .f32⟩ : BufTy).Contents (Elt F) → (⟨S6x16384x4, .f32⟩ : BufTy).Contents (Elt F)) ]

/-- Which parameters are orientations: the index list, two, its floored remainder, and the comparison with one. -/
abbrev segH : List (HloOp τ sig (Elt F)) :=
  [
    StableHlo.nullary main_v27 (iotaInDim S6 32 0),
    StableHlo.nullary main_c_4 (constantI S_ 32 2#32),
    StableHlo.TRef.unary (.of main_c_4 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S6 ![] bcast_S_S6),
    StableHlo.TRef.binary (.of main_v27 : StableHlo.TRef sig ⟨S6, .i32⟩) main_call3.v3 main_call3.v4 Host.remsi,
    StableHlo.TRef.nullary main_call3.c_1 (constantI S_ 32 0#32),
    StableHlo.TRef.unary main_call3.c_1 main_call3.v5 (broadcastInDim S6 ![] bcast_S_S6),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S6 ![] bcast_S_S6),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S6 ![] bcast_S_S6),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S6 ![] bcast_S_S6),
    StableHlo.TRef.binary main_call3.v4 main_call3.v13 main_call3.v14 addi,
    StableHlo.TRef.ternary main_call3.v12 main_call3.v14 main_call3.v4 main_call3.v15 select,
    StableHlo.nullary main_c_5 (constantI S_ 32 1#32),
    StableHlo.unary main_c_5 main_v29 (broadcastInDim S6 ![] bcast_S_S6 : (⟨S_, .i32⟩ : BufTy).Contents (Elt F) → (⟨S6, .i32⟩ : BufTy).Contents (Elt F)),
    StableHlo.binary main_v28 main_v29 main_v30 (cmpi .eq : (⟨S6, .i32⟩ : BufTy).Contents (Elt F) → (⟨S6, .i32⟩ : BufTy).Contents (Elt F) → (⟨S6, .i1⟩ : BufTy).Contents (Elt F)) ]

/-- The cosine mean negated, the squared mean, the choice between them by kind, and the sum over the parameters: the second result. -/
abbrev segI : List (HloOp τ sig (Elt F)) :=
  [
    StableHlo.nullary main_cst_6 (constant S_ .f32 0x40000000#32),
    StableHlo.unary main_cst_6 main_v31 (broadcastInDim S6x16384x4 ![] bcast_S_S6x16384x4 : (⟨S_, .f32⟩ : BufTy).Contents (Elt F) → (⟨S6x16384x4, .f32⟩ : BufTy).Contents (Elt F)),
    StableHlo.binary main_v26 main_v31 main_v32 (mulf : (⟨S6x16384x4, .f32⟩ : BufTy).Contents (Elt F) → (⟨S6x16384x4, .f32⟩ : BufTy).Contents (Elt F) → (⟨S6x16384x4, .f32⟩ : BufTy).Contents (Elt F)),
    StableHlo.unary main_v32 main_v33 (Host.cos : (⟨S6x16384x4, .f32⟩ : BufTy).Contents (Elt F) → (⟨S6x16384x4, .f32⟩ : BufTy).Contents (Elt F)),
    StableHlo.nullary main_cst_7 (constant S_ .f32 0x00000000#32),
    StableHlo.binary main_v33 main_cst_7 main_v34 ((fun x v => Host.reduceAdd x v reducesTo_S6x16384x4_S6_d1_2 h_S_) : (⟨S6x16384x4, .f32⟩ : BufTy).Contents (Elt F) → (⟨S_, .f32⟩ : BufTy).Contents (Elt F) → (⟨S6, .f32⟩ : BufTy).Contents (Elt F)),
    StableHlo.nullary main_cst_8 (constant S_ .f32 0x47800000#32),
    StableHlo.unary main_cst_8 main_v35 (broadcastInDim S6 ![] bcast_S_S6 : (⟨S_, .f32⟩ : BufTy).Contents (Elt F) → (⟨S6, .f32⟩ : BufTy).Contents (Elt F)),
    StableHlo.binary main_v34 main_v35 main_v36 (Host.divf : (⟨S6, .f32⟩ : BufTy).Contents (Elt F) → (⟨S6, .f32⟩ : BufTy).Contents (Elt F) → (⟨S6, .f32⟩ : BufTy).Contents (Elt F)),
    StableHlo.nullary main_cst_9 (constant S_ .f32 0xBF800000#32),
    StableHlo.unary main_cst_9 main_v37 (broadcastInDim S6 ![] bcast_S_S6 : (⟨S_, .f32⟩ : BufTy).Contents (Elt F) → (⟨S6, .f32⟩ : BufTy).Contents (Elt F)),
    StableHlo.binary main_v37 main_v36 main_v38 (mulf : (⟨S6, .f32⟩ : BufTy).Contents (Elt F) → (⟨S6, .f32⟩ : BufTy).Contents (Elt F) → (⟨S6, .f32⟩ : BufTy).Contents (Elt F)),
    StableHlo.binary main_v26 main_v26 main_v39 (mulf : (⟨S6x16384x4, .f32⟩ : BufTy).Contents (Elt F) → (⟨S6x16384x4, .f32⟩ : BufTy).Contents (Elt F) → (⟨S6x16384x4, .f32⟩ : BufTy).Contents (Elt F)),
    StableHlo.nullary main_cst_10 (constant S_ .f32 0x00000000#32),
    StableHlo.binary main_v39 main_cst_10 main_v40 ((fun x v => Host.reduceAdd x v reducesTo_S6x16384x4_S6_d1_2 h_S_) : (⟨S6x16384x4, .f32⟩ : BufTy).Contents (Elt F) → (⟨S_, .f32⟩ : BufTy).Contents (Elt F) → (⟨S6, .f32⟩ : BufTy).Contents (Elt F)),
    StableHlo.nullary main_cst_11 (constant S_ .f32 0x47800000#32),
    StableHlo.unary main_cst_11 main_v41 (broadcastInDim S6 ![] bcast_S_S6 : (⟨S_, .f32⟩ : BufTy).Contents (Elt F) → (⟨S6, .f32⟩ : BufTy).Contents (Elt F)),
    StableHlo.binary main_v40 main_v41 main_v42 (Host.divf : (⟨S6, .f32⟩ : BufTy).Contents (Elt F) → (⟨S6, .f32⟩ : BufTy).Contents (Elt F) → (⟨S6, .f32⟩ : BufTy).Contents (Elt F)),
    StableHlo.TRef.ternary (.of main_v30 : StableHlo.TRef sig ⟨S6, .i1⟩) (.of main_v38 : StableHlo.TRef sig ⟨S6, .f32⟩) (.of main_v42 : StableHlo.TRef sig ⟨S6, .f32⟩) main_call4.v0 select,
    StableHlo.nullary main_cst_12 (constant S_ .f32 0x00000000#32),
    StableHlo.binary main_v43 main_cst_12 main_v44 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) ]

/-- The line is its stretches in order. -/
theorem ops_split : (ops : List (HloOp τ sig (Elt F)))
    = segA ++ (segB ++ (segC ++ (segD ++ (segE ++ (segF ++ (segG ++ (segH ++ segI))))))) := by
  chain_rfl

/-- The fold over two lines run one after the other is the second's over the first's. -/
private theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## What a stretch leaves alone

Each stretch's written references as a list; an operation writes its one result; so a reference not in the list keeps
its contents through the stretch. -/

private theorem sub_W {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

abbrev WA : List (Ref sig .tc) :=
  [main_call0.cst.ref, main_call0.v0.ref, main_call0.cst_0.ref, main_call0.v1.ref, main_call0.v2.ref, main_call0.v3.ref, main_call0.v4.ref, main_call0.v5.ref,
    main_call0.v6.ref, main_call0.cst_1.ref, main_call0.v7.ref, main_call0.v8.ref, main_call0.v9.ref, main_call0.v10.ref, main_call0.v11.ref]
theorem writesA : (segA : List (HloOp τ sig (Elt F))).Forall fun op =>
    op.writes ⊆ (WA.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide)⟩
theorem frameA (W : Valuation τ sig (Elt F)) {r : Ref sig .tc} (hr : r ∉ WA) :
    after segA W (Proc.devRef .tc r) = W (Proc.devRef .tc r) :=
  after_of_writes_sub segA W writesA hr

abbrev WB : List (Ref sig .tc) :=
  [main_v1, main_v2, main_v3, main_v4]
theorem writesB : (segB : List (HloOp τ sig (Elt F))).Forall fun op =>
    op.writes ⊆ (WB.map (Proc.devRef (τ := τ) .tc)).toFinset :=
  ⟨sub_W (by decide), sub_W (by decide), sub_W (by decide), sub_W (by decide)⟩
theorem frameB (W : Valuation τ sig (Elt F)) {r : Ref sig .tc} (hr : r ∉ WB) :
    after segB W (Proc.devRef .tc r) = W (Proc.devRef .tc r) :=
  after_of_writes_sub segB W writesB hr

abbrev WC : List (Ref sig .tc) :=
  [main_call1.c.ref, main_call1.v0.ref, main_call1.v1.ref, main_call1.c_0.ref, main_call1.v2.ref, main_call1.v3.ref, main_call1.v4.ref, main_call1.v5.ref,
    main_call1.c_1.ref, main_call1.c_2.ref, main_call1.v6.ref, main_call1.v7.ref, main_call1.v8.ref, main_call1.v9.ref, main_call1.v10.ref, main_call1.v11.ref,
    main_call1.c_3.ref, main_call1.v12.ref, main_call1.v13.ref, main_call1.cst.ref, main_call1.v14.ref, main_call1.v15.ref]
theorem writesC : (segC : List (HloOp τ sig (Elt F))).Forall fun op =>
    op.writes ⊆ (WC.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide)⟩
theorem frameC (W : Valuation τ sig (Elt F)) {r : Ref sig .tc} (hr : r ∉ WC) :
    after segC W (Proc.devRef .tc r) = W (Proc.devRef .tc r) :=
  after_of_writes_sub segC W writesC hr

abbrev WD : List (Ref sig .tc) :=
  [main_v6, main_v7, main_cst, main_v8, main_cst_0, main_v9, main_v10, main_cst_1,
    main_v11, main_cst_2, main_v12]
theorem writesD : (segD : List (HloOp τ sig (Elt F))).Forall fun op =>
    op.writes ⊆ (WD.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide)⟩
theorem frameD (W : Valuation τ sig (Elt F)) {r : Ref sig .tc} (hr : r ∉ WD) :
    after segD W (Proc.devRef .tc r) = W (Proc.devRef .tc r) :=
  after_of_writes_sub segD W writesD hr

abbrev WE : List (Ref sig .tc) :=
  [main_v13, main_c, main_v14, main_v15, main_c_3, main_v16, main_v17, main_v18,
    main_v19, main_v20]
theorem writesE : (segE : List (HloOp τ sig (Elt F))).Forall fun op =>
    op.writes ⊆ (WE.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide)⟩
theorem frameE (W : Valuation τ sig (Elt F)) {r : Ref sig .tc} (hr : r ∉ WE) :
    after segE W (Proc.devRef .tc r) = W (Proc.devRef .tc r) :=
  after_of_writes_sub segE W writesE hr

abbrev WF : List (Ref sig .tc) :=
  [main_call2.c.ref, main_call2.v0.ref, main_call2.v1.ref, main_call2.c_0.ref, main_call2.v2.ref, main_call2.v3.ref, main_call2.v4.ref, main_call2.v5.ref,
    main_call2.c_1.ref, main_call2.c_2.ref, main_call2.v6.ref, main_call2.v7.ref, main_call2.v8.ref, main_call2.v9.ref, main_call2.v10.ref, main_call2.v11.ref,
    main_call2.c_3.ref, main_call2.v12.ref, main_call2.v13.ref, main_call2.cst.ref, main_call2.v14.ref, main_call2.v15.ref]
theorem writesF : (segF : List (HloOp τ sig (Elt F))).Forall fun op =>
    op.writes ⊆ (WF.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide)⟩
theorem frameF (W : Valuation τ sig (Elt F)) {r : Ref sig .tc} (hr : r ∉ WF) :
    after segF W (Proc.devRef .tc r) = W (Proc.devRef .tc r) :=
  after_of_writes_sub segF W writesF hr

abbrev WG : List (Ref sig .tc) :=
  [main_v22, main_v23, main_v24, main_v25, main_v26]
theorem writesG : (segG : List (HloOp τ sig (Elt F))).Forall fun op =>
    op.writes ⊆ (WG.map (Proc.devRef (τ := τ) .tc)).toFinset :=
  ⟨sub_W (by decide), sub_W (by decide), sub_W (by decide), sub_W (by decide), sub_W (by decide)⟩
theorem frameG (W : Valuation τ sig (Elt F)) {r : Ref sig .tc} (hr : r ∉ WG) :
    after segG W (Proc.devRef .tc r) = W (Proc.devRef .tc r) :=
  after_of_writes_sub segG W writesG hr

abbrev WH : List (Ref sig .tc) :=
  [main_v27, main_c_4, main_call3.v0.ref, main_call3.c.ref, main_call3.v1.ref, main_call3.c_0.ref, main_call3.call0.v0.ref, main_call3.v3.ref,
    main_call3.v4.ref, main_call3.c_1.ref, main_call3.v5.ref, main_call3.v6.ref, main_call3.c_2.ref, main_call3.v7.ref, main_call3.v8.ref, main_call3.c_3.ref,
    main_call3.v9.ref, main_call3.v10.ref, main_call3.v11.ref, main_call3.v12.ref, main_call3.v13.ref, main_call3.v14.ref, main_call3.v15.ref, main_c_5,
    main_v29, main_v30]
theorem writesH : (segH : List (HloOp τ sig (Elt F))).Forall fun op =>
    op.writes ⊆ (WH.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide)⟩
theorem frameH (W : Valuation τ sig (Elt F)) {r : Ref sig .tc} (hr : r ∉ WH) :
    after segH W (Proc.devRef .tc r) = W (Proc.devRef .tc r) :=
  after_of_writes_sub segH W writesH hr

abbrev WI : List (Ref sig .tc) :=
  [main_cst_6, main_v31, main_v32, main_v33, main_cst_7, main_v34, main_cst_8, main_v35,
    main_v36, main_cst_9, main_v37, main_v38, main_v39, main_cst_10, main_v40, main_cst_11,
    main_v41, main_v42, main_call4.v0.ref, main_cst_12, main_v44]
theorem writesI : (segI : List (HloOp τ sig (Elt F))).Forall fun op =>
    op.writes ⊆ (WI.map (Proc.devRef (τ := τ) .tc)).toFinset :=
  ⟨sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide), sub_W (by decide), sub_W (by decide), sub_W (by decide),
    sub_W (by decide), sub_W (by decide), sub_W (by decide)⟩
theorem frameI (W : Valuation τ sig (Elt F)) {r : Ref sig .tc} (hr : r ∉ WI) :
    after segI W (Proc.devRef .tc r) = W (Proc.devRef .tc r) :=
  after_of_writes_sub segI W writesI hr

/-! ## What a stretch computes

Each by one pass rewriting every operation's result at its own buffer to its function's value and at any other buffer
to what was there, a callee's value carried to its buffer's own type and back being the value; what is left is the
stage's definition unfolded. The reductions and the fetches stay folded. -/

/-- Contents carried to a buffer's own type and back are the contents. -/
private theorem ofBuf_toBuf {Val : EltTy → Type} {T : BufTy} (x : TRef sig T) (v : T.Contents Val) :
    x.ofBuf (x.toBuf v) = v := by
  show cast _ (cast _ v) = v
  rw [cast_cast, cast_eq]

/-- The first result from the fetched column: negated, summed over the batch, divided by the batch size, summed over
    the parameters, times one. -/
private def meanNll (t : FVec F S6x16384x1 .f32) : FVec F S_ .f32 :=
  mulf (constant S_ .f32 0x3F800000#32)
    (Host.reduceAdd
      (Host.divf (Host.reduceAdd (Host.negf (shapeCast S6x16384 t shapeCasts_S6x16384x1_S6x16384))
          (constant S_ .f32 0x00000000#32) reducesTo_S6x16384_S6_d1 h_S_)
        (broadcastInDim S6 ![] bcast_S_S6 (constant S_ .f32 0x46800000#32)))
      (constant S_ .f32 0x00000000#32) reducesTo_S6_S_d0 h_S_)

/-- The second result from the parameters' kinds and the residual. -/
private def chosenSum (k : IVec S6 1) (d : FVec F S6x16384x4 .f32) : FVec F S_ .f32 :=
  Host.reduceAdd (select k (Term.rotTerm d) (Term.mseTerm d)) (constant S_ .f32 0x00000000#32) reducesTo_S6_S_d0 h_S_

attribute [local irreducible] Host.reduce Host.reduceAdd Host.gather in
set_option maxRecDepth 16384 in
set_option maxHeartbeats 2000000 in
theorem outA (W : Valuation τ sig (Elt F)) :
    after segA W (main_v0 : DevRef τ sig) = Term.logp (W (main_arg0 : DevRef τ sig)) := by
  after_results_simp
  simp only [ofBuf_toBuf]
  rfl

attribute [local irreducible] Host.reduce Host.reduceAdd Host.gather in
set_option maxRecDepth 16384 in
set_option maxHeartbeats 2000000 in
theorem outB (W : Valuation τ sig (Elt F)) :
    after segB W (main_v4 : DevRef τ sig) = Term.lab0 (W (main_arg4 : DevRef τ sig)) := by
  after_results_simp
  rfl

attribute [local irreducible] Host.reduce Host.reduceAdd Host.gather in
set_option maxRecDepth 16384 in
set_option maxHeartbeats 2000000 in
theorem outC (W : Valuation τ sig (Elt F)) :
    after segC W (main_v5 : DevRef τ sig) = Term.takeCol (W (main_v0 : DevRef τ sig)) (W (main_v4 : DevRef τ sig)) := by
  after_results_simp
  simp only [ofBuf_toBuf]
  rfl

attribute [local irreducible] Host.reduce Host.reduceAdd Host.gather in
set_option maxRecDepth 16384 in
set_option maxHeartbeats 2000000 in
theorem outD (W : Valuation τ sig (Elt F)) :
    after segD W (main_v12 : DevRef τ sig) = meanNll (W (main_v5 : DevRef τ sig)) := by
  after_results_simp
  rfl

attribute [local irreducible] Host.reduce Host.reduceAdd Host.gather in
set_option maxRecDepth 16384 in
set_option maxHeartbeats 2000000 in
theorem outE13 (W : Valuation τ sig (Elt F)) :
    after segE W (main_v13 : DevRef τ sig) = Term.labs (W (main_arg4 : DevRef τ sig)) := by
  after_results_simp
  rfl

attribute [local irreducible] Host.reduce Host.reduceAdd Host.gather in
set_option maxRecDepth 16384 in
set_option maxHeartbeats 2000000 in
theorem outE20 (W : Valuation τ sig (Elt F)) :
    after segE W (main_v20 : DevRef τ sig) = Term.centres (W (main_arg3 : DevRef τ sig)) (W (main_arg4 : DevRef τ sig)) := by
  after_results_simp
  rfl

attribute [local irreducible] Host.reduce Host.reduceAdd Host.gather in
set_option maxRecDepth 16384 in
set_option maxHeartbeats 2000000 in
theorem outF (W : Valuation τ sig (Elt F)) :
    after segF W (main_v21 : DevRef τ sig) = Term.takeFour (W (main_arg1 : DevRef τ sig)) (W (main_v13 : DevRef τ sig)) := by
  after_results_simp
  simp only [ofBuf_toBuf]
  rfl

attribute [local irreducible] Host.reduce Host.reduceAdd Host.gather in
set_option maxRecDepth 16384 in
set_option maxHeartbeats 2000000 in
theorem outG (W : Valuation τ sig (Elt F)) :
    after segG W (main_v26 : DevRef τ sig) = subf (subf (Term.targets (W (main_arg2 : DevRef τ sig))) (W (main_v20 : DevRef τ sig))) (W (main_v21 : DevRef τ sig)) := by
  after_results_simp
  rfl

attribute [local irreducible] Host.reduce Host.reduceAdd Host.gather in
set_option maxRecDepth 16384 in
set_option maxHeartbeats 2000000 in
theorem outH (W : Valuation τ sig (Elt F)) :
    after segH W (main_v30 : DevRef τ sig) = Term.isRot := by
  after_results_simp
  simp only [ofBuf_toBuf]
  rfl

attribute [local irreducible] Host.reduce Host.reduceAdd Host.gather in
set_option maxRecDepth 16384 in
set_option maxHeartbeats 2000000 in
theorem outI (W : Valuation τ sig (Elt F)) :
    after segI W (main_v44 : DevRef τ sig) = chosenSum (W (main_v30 : DevRef τ sig)) (W (main_v26 : DevRef τ sig)) := by
  after_results_simp
  rfl

/-! ## The results and the arguments after the whole line -/

theorem out0_eq (V : Valuation τ sig (Elt F)) :
    after ops V (main_v12 : DevRef τ sig)
      = Term.out0 (V (main_arg0 : DevRef τ sig)) (V (main_arg4 : DevRef τ sig)) := by
  rw [ops_split]
  simp only [after_append]
  rw [frameI (r := main_v12) _ (by decide), frameH (r := main_v12) _ (by decide), frameG (r := main_v12) _ (by decide), frameF (r := main_v12) _ (by decide), frameE (r := main_v12) _ (by decide),
    outD, outC, outB, frameB (r := main_v0) _ (by decide), outA, frameA (r := main_arg4) _ (by decide)]
  rfl

theorem out1_eq (V : Valuation τ sig (Elt F)) :
    after ops V (main_v44 : DevRef τ sig)
      = Term.out1 (V (main_arg1 : DevRef τ sig)) (V (main_arg2 : DevRef τ sig)) (V (main_arg3 : DevRef τ sig))
          (V (main_arg4 : DevRef τ sig)) := by
  rw [ops_split]
  simp only [after_append]
  rw [outI, outH, frameH (r := main_v26) _ (by decide), outG, outF, frameF (r := main_v20) _ (by decide), frameF (r := main_arg2) _ (by decide),
    outE20, outE13, frameE (r := main_arg1) _ (by decide), frameE (r := main_arg2) _ (by decide),
    frameD (r := main_arg1) _ (by decide), frameD (r := main_arg2) _ (by decide), frameD (r := main_arg3) _ (by decide), frameD (r := main_arg4) _ (by decide),
    frameC (r := main_arg1) _ (by decide), frameC (r := main_arg2) _ (by decide), frameC (r := main_arg3) _ (by decide), frameC (r := main_arg4) _ (by decide),
    frameB (r := main_arg1) _ (by decide), frameB (r := main_arg2) _ (by decide), frameB (r := main_arg3) _ (by decide), frameB (r := main_arg4) _ (by decide),
    frameA (r := main_arg1) _ (by decide), frameA (r := main_arg2) _ (by decide), frameA (r := main_arg3) _ (by decide), frameA (r := main_arg4) _ (by decide)]
  rfl

theorem arg0_eq (V : Valuation τ sig (Elt F)) :
    after ops V (main_arg0 : DevRef τ sig) = V (main_arg0 : DevRef τ sig) := by
  rw [ops_split]
  simp only [after_append]
  rw [frameI (r := main_arg0) _ (by decide), frameH (r := main_arg0) _ (by decide), frameG (r := main_arg0) _ (by decide), frameF (r := main_arg0) _ (by decide), frameE (r := main_arg0) _ (by decide), frameD (r := main_arg0) _ (by decide), frameC (r := main_arg0) _ (by decide), frameB (r := main_arg0) _ (by decide), frameA (r := main_arg0) _ (by decide)]

theorem arg1_eq (V : Valuation τ sig (Elt F)) :
    after ops V (main_arg1 : DevRef τ sig) = V (main_arg1 : DevRef τ sig) := by
  rw [ops_split]
  simp only [after_append]
  rw [frameI (r := main_arg1) _ (by decide), frameH (r := main_arg1) _ (by decide), frameG (r := main_arg1) _ (by decide), frameF (r := main_arg1) _ (by decide), frameE (r := main_arg1) _ (by decide), frameD (r := main_arg1) _ (by decide), frameC (r := main_arg1) _ (by decide), frameB (r := main_arg1) _ (by decide), frameA (r := main_arg1) _ (by decide)]

theorem arg2_eq (V : Valuation τ sig (Elt F)) :
    after ops V (main_arg2 : DevRef τ sig) = V (main_arg2 : DevRef τ sig) := by
  rw [ops_split]
  simp only [after_append]
  rw [frameI (r := main_arg2) _ (by decide), frameH (r := main_arg2) _ (by decide), frameG (r := main_arg2) _ (by decide), frameF (r := main_arg2) _ (by decide), frameE (r := main_arg2) _ (by decide), frameD (r := main_arg2) _ (by decide), frameC (r := main_arg2) _ (by decide), frameB (r := main_arg2) _ (by decide), frameA (r := main_arg2) _ (by decide)]

theorem arg3_eq (V : Valuation τ sig (Elt F)) :
    after ops V (main_arg3 : DevRef τ sig) = V (main_arg3 : DevRef τ sig) := by
  rw [ops_split]
  simp only [after_append]
  rw [frameI (r := main_arg3) _ (by decide), frameH (r := main_arg3) _ (by decide), frameG (r := main_arg3) _ (by decide), frameF (r := main_arg3) _ (by decide), frameE (r := main_arg3) _ (by decide), frameD (r := main_arg3) _ (by decide), frameC (r := main_arg3) _ (by decide), frameB (r := main_arg3) _ (by decide), frameA (r := main_arg3) _ (by decide)]

theorem arg4_eq (V : Valuation τ sig (Elt F)) :
    after ops V (main_arg4 : DevRef τ sig) = V (main_arg4 : DevRef τ sig) := by
  rw [ops_split]
  simp only [after_append]
  rw [frameI (r := main_arg4) _ (by decide), frameH (r := main_arg4) _ (by decide), frameG (r := main_arg4) _ (by decide), frameF (r := main_arg4) _ (by decide), frameE (r := main_arg4) _ (by decide), frameD (r := main_arg4) _ (by decide), frameC (r := main_arg4) _ (by decide), frameB (r := main_arg4) _ (by decide), frameA (r := main_arg4) _ (by decide)]

/-- On every device, for any float values, from any memory with zero counters: every weakly fair execution of @main
    terminates with the two results at the composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = Term.out0 (m ((c.tc : Thread nD τ).loc main_arg0)) (m ((c.tc : Thread nD τ).loc main_arg4))
      ∧ r.2.mem ((c.tc : Thread nD τ).loc main_v44)
        = Term.out1 (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v12).trans (out0_eq _), (h c main_v44).trans (out1_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefReadC.lean ====
/-
  The reference's first result at the exact instance, read index by index, when every label is a bin.

  A label below 256 is not negative, so the shift of negative labels leaves it, the range test passes, and the fetch
  along the bin axis reads the log-probabilities at the label; the first label of entry (p, b) is the input's
  (b, p, 0). So the result is one times (zero plus the sum over the parameters of (zero plus the batch sum of `nll`)
  over 16384).
-/
import proofs.«407714_j46377056862517_3_alg».proof.Proof.RefTerm
import proofs.«407714_j46377056862517_3_alg».proof.Proof.Gen.ReferenceIdeal
import proofs.«407714_j46377056862517_3_alg».proof.Proof.Spec
import Idealize.ShloMosaic.Lib.Pipeline.Value
import Idealize.ShloMosaic.Lib.ValueLayout
import Idealize.ShloMosaic.Lib.StableHlo.Predicate
import Idealize.ShloMosaic.Lib.IdealHost
import Idealize.ShloMosaic.Lib.ReduceAll

noncomputable section

open Idealize.ShloMosaic Idealize.ShloMosaic.ValueIdx

namespace Cert.ReferenceIdeal.RefRead

open Cert.ReferenceIdeal Cert.ReferenceIdeal.Gen

/-! ## The host's pointwise operations at an index, at the exact instance -/

private theorem hostLog_apply {s : Shape} (x : FVec Ideal s .f32) (i : s.Idx) : Host.log x i = Ideal.log (x i) := rfl
private theorem hostExp_apply {s : Shape} (x : FVec Ideal s .f32) (i : s.Idx) : Host.exp x i = Ideal.exp (x i) := rfl
private theorem hostNegf_apply {s : Shape} (x : FVec Ideal s .f32) (i : s.Idx) : Host.negf x i = -(x i) := rfl

/-! ## The row log-softmax at an index -/

/-- The bin axis is the one the row reductions drop. -/
private theorem redBins : S6x16384x256.Reduces [2] S6x16384 := by decide

/-- Entry (p, b) of the reduced array with bin `k` put back is (p, b, k). -/
private theorem lift_bins (p : Fin 6) (b : Fin 16384) (k : Fin (S6x16384x256.size 2)) :
    redBins.lift (ix2 p b) k = ix3 p b (⟨k.val, k.isLt⟩ : Fin 256) := by
  funext c; apply Fin.ext
  fin_cases c <;> rfl

/-- A column kept on a unit axis and repeated along the bins reads the column's entry. -/
private theorem keepdims_apply {α : Type} (v : S6x16384.Idx → α) (p : Fin 6) (b : Fin 16384) (k : Fin 256) :
    broadcastInDim S6x16384x256 ![0, 1, 2] bcast_S6x16384x1_S6x16384x256_0_1_2
      (broadcastInDim S6x16384x1 ![0, 1] bcast_S6x16384_S6x16384x1_0_1 v) (ix3 p b k) = v (ix2 p b) := by
  refine (broadcastInDim_apply _ _ _ (ix3 p b k) (ix3 p b (0 : Fin 1)) (fun a => ?_)).trans ?_
  · match a with
    | ⟨0, _⟩ => rfl
    | ⟨1, _⟩ => rfl
    | ⟨2, _⟩ => rfl
  · refine broadcastInDim_apply _ _ _ (ix3 p b (0 : Fin 1)) (ix2 p b) (fun a => ?_)
    match a with
    | ⟨0, _⟩ => rfl
    | ⟨1, _⟩ => rfl

/-- Each row's maximum is the specification's. -/
private theorem rowMax_apply (a0 : FVec Ideal S6x16384x256 .f32) (p : Fin 6) (b : Fin 16384) :
    Term.rowMax a0 (ix2 p b) = Spec.rowMax (fun k => a0 (ix3 p b k)) := by
  unfold Term.rowMax Spec.rowMax
  rw [maximumf_apply, broadcastInDim_scalar_apply, constant_apply]
  refine congrArg (max Spec.ninf) ?_
  refine (Host.reduce_eq_fold_single FloatOps.maximumf a0 _ _ redBins _ (ix2 p b)).trans ?_
  have hf : (a0 ∘ redBins.lift (ix2 p b)) = fun k : Fin 256 => a0 (ix3 p b k) :=
    funext fun k => congrArg a0 (lift_bins p b k)
  rw [hf]
  rfl

/-- The shifted logits: each entry less its row's maximum. -/
private theorem shifted_apply (a0 : FVec Ideal S6x16384x256 .f32) (p : Fin 6) (b : Fin 16384) (k : Fin 256) :
    Term.shifted a0 (ix3 p b k) = a0 (ix3 p b k) - Spec.rowMax (fun k' => a0 (ix3 p b k')) := by
  unfold Term.shifted
  rw [subf_apply, keepdims_apply, rowMax_apply]

/-- The column of logarithms of each row's sum of exponentials. -/
private theorem logSumExp_apply (a0 : FVec Ideal S6x16384x256 .f32) (p : Fin 6) (b : Fin 16384) :
    Term.logSumExp a0 (ix3 p b (0 : Fin 1))
      = Ideal.log (∑ k : Fin 256, Ideal.exp (a0 (ix3 p b k) - Spec.rowMax (fun k' => a0 (ix3 p b k')))) := by
  unfold Term.logSumExp
  rw [hostLog_apply]
  refine congrArg Ideal.log ?_
  refine (broadcastInDim_apply _ _ _ (ix3 p b (0 : Fin 1)) (ix2 p b) (fun a => ?_)).trans ?_
  · match a with
    | ⟨0, _⟩ => rfl
    | ⟨1, _⟩ => rfl
  · rw [hostReduceAdd_apply]
    refine (Ideal.hostReduceAdd_single _ redBins _ _ (ix2 p b)).trans ?_
    rw [constant_apply, show Ideal.ofBits .f32 0x00000000#32 = (0 : EReal) from Spec.zr_eq, zero_add]
    refine Finset.sum_congr rfl (fun k _ => ?_)
    rw [lift_bins p b k]
    rw [hostExp_apply, shifted_apply]
    rfl

/-- The log-probabilities are the specification's row log-softmax. -/
private theorem logp_apply (a0 : FVec Ideal S6x16384x256 .f32) (p : Fin 6) (b : Fin 16384) (k : Fin 256) :
    Term.logp a0 (ix3 p b k) = Spec.rowLogp (fun k' => a0 (ix3 p b k')) k := by
  unfold Term.logp Spec.rowLogp
  rw [subf_apply, shifted_apply]
  refine congrArg (fun z => a0 (ix3 p b k) - Spec.rowMax (fun k' => a0 (ix3 p b k')) - z) ?_
  refine (broadcastInDim_apply _ _ _ (ix3 p b k) (ix3 p b (0 : Fin 1)) (fun a => ?_)).trans (logSumExp_apply a0 p b)
  match a with
  | ⟨0, _⟩ => rfl
  | ⟨1, _⟩ => rfl
  | ⟨2, _⟩ => rfl

/-! ## The first label, parameter-first -/

/-- The first label of entry (p, b) is the input's (b, p, 0). -/
private theorem lab0_apply (a4 : IVec S16384x6x4 32) (p : Fin 6) (b : Fin 16384) :
    Term.lab0 a4 (ix3 p b (0 : Fin 1)) = a4 (ix3 b p (0 : Fin 4)) := by
  unfold Term.lab0
  refine (broadcastInDim_apply _ _ _ (ix3 p b (0 : Fin 1)) (ix2 p b) (fun a => ?_)).trans ?_
  · match a with
    | ⟨0, _⟩ => rfl
    | ⟨1, _⟩ => rfl
  refine (transpose_ix2_apply _ _ p b).trans ?_
  refine (shapeCast_apply _ _ (ix2 b p) (ix3 b p (0 : Fin 1)) ?_).trans ?_
  · rw [Shape.rowMajor_val_three, Shape.rowMajor_val_two]
    show (b.val * 6 + p.val) * 1 + 0 = b.val * 6 + p.val
    omega
  refine extractStridedSlice_apply _ _ _ (ix3 b p (0 : Fin 1)) (ix3 b p (0 : Fin 4)) (fun a => ?_)
  match a with
  | ⟨0, _⟩ => exact (Nat.zero_add _).symm
  | ⟨1, _⟩ => exact (Nat.zero_add _).symm
  | ⟨2, _⟩ => rfl

/-! ## The fetch along the bin axis at a label that is a bin -/

open Idealize.ShloMosaic.StableHlo.Predicate in
/-- A label below 256 is not negative, so the shift of negative labels leaves it. -/
private theorem wrap1_apply (i : IVec S6x16384x1 32) (p : Fin 6) (b : Fin 16384)
    (hw : (i (ix3 p b (0 : Fin 1))).toNat < 256) :
    Term.wrap1 i (ix4 p b (0 : Fin 1) (0 : Fin 1)) = i (ix3 p b (0 : Fin 1)) := by
  unfold Term.wrap1
  refine (shapeCast_apply _ _ (ix4 p b (0 : Fin 1) (0 : Fin 1)) (ix3 p b (0 : Fin 1)) ?_).trans ?_
  · rw [Shape.rowMajor_val_three, Shape.rowMajor_val_four]
    show (p.val * 16384 + b.val) * 1 + 0 = ((p.val * 16384 + b.val) * 1 + 0) * 1 + 0
    omega
  rw [select_apply]
  have hc : cmpi .slt i (broadcastInDim S6x16384x1 ![] bcast_S_S6x16384x1 (constantI S_ 32 0#32)) (ix3 p b (0 : Fin 1)) = 0#1 := by
    refine eq_zero_of_ne_one (fun h => ?_)
    have h' : IntOp.cmpi .slt (i (ix3 p b (0 : Fin 1))) 0#32 = 1#1 := h
    rw [slt_iff_toNat (by omega) (by decide)] at h'
    exact absurd h' (Nat.not_lt_zero _)
  rw [hc, select_zero]

/-- A fold of "and" from 1 over words that are all 1 is 1. -/
private theorem fold_andi_ones {ι : Type} [DecidableEq ι] (s : Finset ι) (f : ι → BitVec 1) (hf : ∀ k, f k = 1#1) :
    s.fold IntOp.andi 1#1 f = 1#1 := by
  induction s using Finset.induction_on with
  | empty => rfl
  | insert a s ha ih => rw [Finset.fold_insert ha, ih, hf a]; rfl

open Idealize.ShloMosaic.StableHlo.Predicate in
/-- Start indices that are all bins pass the range test. -/
private theorem inAxis1_apply (w : IVec S6x16384x1x1 32) (hw : ∀ i, (w i).toNat < 256) (j : S6x16384x1.Idx) :
    Term.inAxis1 w j = 1#1 := by
  unfold Term.inAxis1
  refine (Host.reduce_eq_fold IntOp.andi _ _ _ _ j).trans ?_
  refine fold_andi_ones _ _ (fun i => ?_)
  have hi := hw i
  refine IntOp.andi_eq_one.2 ⟨?_, ?_⟩
  · show IntOp.cmpi .sge (w i) 0#32 = 1#1
    exact (sge_iff_toNat (by omega) (by decide)).2 (Nat.zero_le _)
  · show IntOp.cmpi .sle (w i) 255#32 = 1#1
    refine (sle_iff_toNat (by omega) (by decide)).2 ?_
    show (w i).toNat ≤ 255
    omega

private abbrev gd := gather_S6x16384x256_S6x16384x1x1_S6x16384x1_n_2_01_01_2_3_111

/-- On a batching axis the fetch reads the result's own coordinate. -/
private theorem gd_batch0 (j : S6x16384x1.Idx) : gd.batchCoord j (0 : Fin 3) = (j 0).val := by
  have hb : (0 : Fin 3) ∈ gd.operandBatchingDims := by decide
  unfold GatherDims.batchCoord
  rw [dif_pos hb]
  unfold GatherDims.siCoord
  simp only [Fin.val_cast]
  exact congrArg (fun a : Fin 3 => (j a).val) (by decide +revert)

private theorem gd_batch1 (j : S6x16384x1.Idx) : gd.batchCoord j (1 : Fin 3) = (j 1).val := by
  have hb : (1 : Fin 3) ∈ gd.operandBatchingDims := by decide
  unfold GatherDims.batchCoord
  rw [dif_pos hb]
  unfold GatherDims.siCoord
  simp only [Fin.val_cast]
  exact congrArg (fun a : Fin 3 => (j a).val) (by decide +revert)

/-- The fetch reads, at (p, b, 0), the operand at (p, b, the start index read signed and clamped onto the bin axis). -/
private theorem gather_apply {α : Type} (x : S6x16384x256.Idx → α) (idx : IVec S6x16384x1x1 32) (p : Fin 6) (b : Fin 16384) :
    Host.gather gd x idx (ix3 p b (0 : Fin 1))
      = x (ix3 p b (⟨min (idx (ix4 p b (0 : Fin 1) (0 : Fin 1))).toInt.toNat 255, by omega⟩ : Fin 256)) := by
  unfold Host.gather
  refine congrArg x (funext fun a => Fin.ext ?_)
  show gd.start (ix3 p b (0 : Fin 1)) idx a + gd.batchCoord (ix3 p b (0 : Fin 1)) a + gd.offCoord (ix3 p b (0 : Fin 1)) a = _
  match a with
  | ⟨0, _⟩ =>
    have hb : (0 : Fin 3) ∈ gd.operandBatchingDims := by decide
    rw [show (⟨0, by decide⟩ : Fin 3) = (0 : Fin 3) from rfl]
    rw [GatherDims.start_batching _ _ _ _ hb, GatherDims.offCoord_eq_zero _ _ _ (fun h => ((GatherDims.mem_sKept _ _).mp h).2 hb),
      gd_batch0, Nat.zero_add, Nat.add_zero]
  | ⟨1, _⟩ =>
    have hb : (1 : Fin 3) ∈ gd.operandBatchingDims := by decide
    rw [show (⟨1, by decide⟩ : Fin 3) = (1 : Fin 3) from rfl]
    rw [GatherDims.start_batching _ _ _ _ hb, GatherDims.offCoord_eq_zero _ _ _ (fun h => ((GatherDims.mem_sKept _ _).mp h).2 hb),
      gd_batch1, Nat.zero_add, Nat.add_zero]
  | ⟨2, _⟩ =>
    have hnb : (2 : Fin 3) ∉ gd.operandBatchingDims := by decide
    have hc : (2 : Fin 3) ∈ gd.collapsedSliceDims := by decide
    have hm : (2 : Fin 3) ∈ gd.startIndexMap := by decide
    rw [show (⟨2, by decide⟩ : Fin 3) = (2 : Fin 3) from rfl]
    rw [GatherDims.batchCoord_eq_zero _ _ _ hnb, GatherDims.offCoord_eq_zero _ _ _ (fun h => ((GatherDims.mem_sKept _ _).mp h).1 hc),
      Nat.add_zero]
    unfold GatherDims.start
    rw [dif_pos hm]
    have hsi : gd.siIdx (ix3 p b (0 : Fin 1)) ⟨List.idxOf (2 : Fin 3) gd.startIndexMap, List.idxOf_lt_length_iff.2 hm⟩
        = ix4 p b (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- Every index of the start-index column is (p, b, 0, 0). -/
private theorem idx4_eq (i : S6x16384x1x1.Idx) : ∃ (p : Fin 6) (b : Fin 16384), i = ix4 p b (0 : Fin 1) (0 : Fin 1) := by
  refine ⟨i 0, i 1, funext fun a => ?_⟩
  match a with
  | ⟨0, _⟩ => rfl
  | ⟨1, _⟩ => rfl
  | ⟨2, _⟩ =>
    have h : (i 2).val < 1 := (i 2).isLt
    exact Fin.ext (by show (i 2).val = 0; omega)
  | ⟨3, _⟩ =>
    have h : (i 3).val < 1 := (i 3).isLt
    exact Fin.ext (by show (i 3).val = 0; omega)

/-- Every index of a label column is (p, b, 0). -/
private theorem idx3_eq (i : S6x16384x1.Idx) : ∃ (p : Fin 6) (b : Fin 16384), i = ix3 p b (0 : Fin 1) := by
  refine ⟨i 0, i 1, funext fun a => ?_⟩
  match a with
  | ⟨0, _⟩ => rfl
  | ⟨1, _⟩ => rfl
  | ⟨2, _⟩ =>
    have h : (i 2).val < 1 := (i 2).isLt
    exact Fin.ext (by show (i 2).val = 0; omega)

open Idealize.ShloMosaic.StableHlo.Predicate in
/-- With every label a bin, the fetch along the bin axis reads the array at the label. -/
private theorem takeCol_apply (x : FVec Ideal S6x16384x256 .f32) (i : IVec S6x16384x1 32) (hi : ∀ j, (i j).toNat < 256)
    (p : Fin 6) (b : Fin 16384) :
    Term.takeCol x i (ix3 p b (0 : Fin 1)) = x (ix3 p b (Spec.lab (i (ix3 p b (0 : Fin 1))))) := by
  have hw : ∀ k, (Term.wrap1 i k).toNat < 256 := fun k => by
    obtain ⟨p', b', rfl⟩ := idx4_eq k
    rw [wrap1_apply i p' b' (hi _)]
    exact hi _
  unfold Term.takeCol
  rw [select_apply, inAxis1_apply _ hw, select_one]
  refine (gather_apply x _ p b).trans (congrArg x (congrArg (ix3 p b) (Fin.ext ?_)))
  show min (Term.wrap1 i (ix4 p b (0 : Fin 1) (0 : Fin 1))).toInt.toNat 255 = (Spec.lab (i (ix3 p b (0 : Fin 1)))).val
  have h := hi (ix3 p b (0 : Fin 1))
  rw [wrap1_apply i p b h, Spec.lab_val_of_lt h, toInt_eq_toNat_of_lt (by omega), Int.toNat_natCast]
  exact Nat.min_eq_left (by omega)

/-- The negated log-probability of entry (p, b)'s first label is the specification's. -/
private theorem nllv_apply (a0 : FVec Ideal S6x16384x256 .f32) (a4 : IVec S16384x6x4 32) (h4 : ∀ i, (a4 i).toNat < 256)
    (p : Fin 6) (b : Fin 16384) :
    Term.nllv a0 a4 (ix2 p b) = Spec.nll (N := 16384) a0 (Spec.Lt a4) p b := by
  have hl : ∀ j, (Term.lab0 a4 j).toNat < 256 := fun j => by
    obtain ⟨p', b', rfl⟩ := idx3_eq j
    rw [lab0_apply]
    exact h4 _
  unfold Term.nllv Spec.nll
  rw [hostNegf_apply]
  refine congrArg Neg.neg ?_
  refine (shapeCast_apply _ _ (ix2 p b) (ix3 p b (0 : Fin 1)) ?_).trans ?_
  · rw [Shape.rowMajor_val_three, Shape.rowMajor_val_two]
    show (p.val * 16384 + b.val) * 1 + 0 = p.val * 16384 + b.val
    omega
  rw [takeCol_apply _ _ hl, lab0_apply, logp_apply]
  rfl

/-! ## The two sums -/

private theorem redBatch : S6x16384.Reduces [1] S6 := by decide

private theorem lift_batch (p : Fin 6) (b : Fin (S6x16384.size 1)) :
    redBatch.lift (ix1 p) b = ix2 p (⟨b.val, b.isLt⟩ : Fin 16384) := by
  funext c; apply Fin.ext
  fin_cases c <;> rfl

/-- A sum over the indices of the per-parameter array is the sum over the parameters. -/
private theorem sum_params (f : S6.Idx → EReal) : ∑ i, f i = ∑ p : Fin 6, f (ix1 p) := by
  refine Fintype.sum_equiv ⟨fun i => i 0, fun p => ix1 p, fun i => (eq_ix1 i).symm, fun _ => rfl⟩ _ _ (fun i => ?_)
  exact congrArg f (eq_ix1 i)

theorem out0_eq (a0 : FVec Ideal S6x16384x256 .f32) (a4 : IVec S16384x6x4 32) (h4 : ∀ i, (a4 i).toNat < 256) :
    Term.out0 a0 a4 = fun _ => Spec.one * (Spec.zr + ∑ p : Fin 6,
      Ideal.div (Spec.zr + ∑ b : Fin 16384, Spec.nll (N := 16384) a0 (Spec.Lt a4) p b) Spec.c16384) := by
  funext j
  obtain rfl := eq_ix0 j
  unfold Term.out0
  rw [mulf_apply, constant_apply]
  refine congrArg (fun z => Spec.one * z) ?_
  rw [hostReduceAdd_apply]
  refine (Ideal.hostReduceAdd_total _ (fun b => b.elim0) _ _ ix0).trans ?_
  rw [constant_apply, sum_params]
  refine congrArg (fun z => Spec.zr + z) ?_
  refine Finset.sum_congr rfl (fun p _ => ?_)
  rw [hostDivf_apply, broadcastInDim_scalar_apply, constant_apply, hostReduceAdd_apply]
  refine congrArg (fun z => Ideal.div z Spec.c16384) ?_
  refine (Ideal.hostReduceAdd_single _ redBatch _ _ (ix1 _)).trans ?_
  rw [constant_apply]
  refine congrArg (fun z => Spec.zr + z) ?_
  refine Finset.sum_congr rfl (fun b _ => ?_)
  rw [lift_batch, nllv_apply a0 a4 h4]
  rfl

end Cert.ReferenceIdeal.RefRead

end
-- ==== Proof.RefReadR.lean ====
/-
  The reference's second result at the exact instance, read index by index, when every label is a bin.

  A label below 256 is not negative, so the shift of negative labels leaves it, the range test passes, the fetch of
  the offsets along the bin axis reads them at the label, and the fetch of the centres (whose start index is kept
  inside the table) reads the table at the label. The residual at (p, b, j) is `dif` over the labels and targets read
  parameter-first; the sums over batch and slot are `rotSum` and `mseSum`; odd parameters take minus one times
  (zero plus `rotSum`) over 65536, even ones (zero plus `mseSum`) over 65536, and the six are added to zero.
-/
import proofs.«407714_j46377056862517_3_alg».proof.Proof.RefTerm
import proofs.«407714_j46377056862517_3_alg».proof.Proof.Gen.ReferenceIdeal
import proofs.«407714_j46377056862517_3_alg».proof.Proof.Spec
import Idealize.ShloMosaic.Lib.Pipeline.Value
import Idealize.ShloMosaic.Lib.ValueLayout
import Idealize.ShloMosaic.Lib.StableHlo.Predicate

noncomputable section

open Idealize.ShloMosaic Idealize.ShloMosaic.ValueIdx

namespace Cert.ReferenceIdeal.RefRead

open Cert.ReferenceIdeal Cert.ReferenceIdeal.Gen

/-- The labels parameter-first: entry (p, b, j) is the input's (b, p, j). -/
private theorem labs_apply (a4 : IVec S16384x6x4 32) (p : Fin 6) (b : Fin 16384) (j : Fin 4) :
    Term.labs a4 (ix3 p b j) = a4 (ix3 b p j) :=
  transpose_apply _ a4 _ _ _ fun c => match c with | ⟨0, _⟩ => rfl | ⟨1, _⟩ => rfl | ⟨2, _⟩ => rfl

/-- A word below 256 is not negative. -/
private theorem slt_zero_of_lt {w : BitVec 32} (h : w.toNat < 256) : IntOp.cmpi .slt w 0#32 = 0#1 := by
  refine eq_zero_of_ne_one fun e => ?_
  have := (StableHlo.Predicate.slt_iff_toNat (a := w) (b := 0#32) (by omega) (by decide)).1 e
  simp at this

/-- The shift of negative labels leaves a word below 256. -/
private theorem wrapped_apply (i : IVec S6x16384x4 32) (p : Fin 6) (b : Fin 16384) (j : Fin 4)
    (h : (i (ix3 p b j)).toNat < 256) : Term.wrapped i (ix3 p b j) = i (ix3 p b j) := by
  show Scalar.select (IntOp.cmpi .slt (i (ix3 p b j)) (broadcastInDim S6x16384x4 ![] _ (constantI S_ 32 0#32) (ix3 p b j))) _ _ = _
  rw [StableHlo.Predicate.bcast_scalar _ (by decide)]
  show Scalar.select (IntOp.cmpi .slt (i (ix3 p b j)) 0#32) _ _ = _
  rw [slt_zero_of_lt h, select_zero]

/-- The targets parameter-first, the same at every label slot. -/
private theorem targets_apply (a2 : FVec Ideal S16384x6 .f32) (p : Fin 6) (b : Fin 16384) (j : Fin 4) :
    Term.targets a2 (ix3 p b j) = a2 (ix2 b p) := by
  unfold Term.targets
  refine (broadcastInDim_apply _ _ _ (ix3 p b j) (ix3 p b (0 : Fin 1)) fun a => ?_).trans ?_
  · match a with
    | ⟨0, _⟩ => rfl
    | ⟨1, _⟩ => rfl
    | ⟨2, _⟩ => rfl
  refine (broadcastInDim_apply _ _ _ (ix3 p b (0 : Fin 1)) (ix2 p b) fun a => ?_).trans ?_
  · match a with
    | ⟨0, _⟩ => rfl
    | ⟨1, _⟩ => rfl
  exact transpose_apply _ a2 _ _ _ fun c => match c with | ⟨0, _⟩ => rfl | ⟨1, _⟩ => rfl

/-- A word below 256 reads signed as itself, and the clamp into the table leaves it. -/
private theorem clamp_of_lt {w : BitVec 32} (h : w.toNat < 256) : min w.toInt.toNat (256 - 1) = (Spec.lab w).val := by
  rw [StableHlo.Predicate.toInt_eq_toNat_of_lt (by omega), Int.toNat_natCast, Spec.lab_val_of_lt h]
  omega

/-- The bin centre of a label: the table at (p, label). -/
private theorem centres_apply (a3 : FVec Ideal S6x256 .f32) (a4 : IVec S16384x6x4 32) (h4 : ∀ i, (a4 i).toNat < 256)
    (p : Fin 6) (b : Fin 16384) (j : Fin 4) :
    Term.centres a3 a4 (ix3 p b j) = a3 (ix2 p (Spec.lab (a4 (ix3 b p j)))) := by
  unfold Term.centres Host.gather
  congr 1
  funext a
  refine Fin.ext ?_
  generalize hidx : broadcastInDim S6x16384x4x1 ![0, 1, 2] _ (Term.wrapped (Term.labs a4)) = idx
  have hw : idx (ix4 p b j (0 : Fin 1)) = a4 (ix3 b p j) := by
    subst hidx
    refine (broadcastInDim_apply _ _ _ (ix4 p b j (0 : Fin 1)) (ix3 p b j) fun c => ?_).trans ?_
    · match c with
      | ⟨0, _⟩ => rfl
      | ⟨1, _⟩ => rfl
      | ⟨2, _⟩ => rfl
    rw [wrapped_apply _ p b j (by rw [labs_apply]; exact h4 _), labs_apply]
  match a with
  | ⟨0, _⟩ =>
    show GatherDims.start gather_S6x256_S6x16384x4x1_S6x16384x4_n_1_0_0_1_3_11 (ix3 p b j) idx 0
      + GatherDims.batchCoord gather_S6x256_S6x16384x4x1_S6x16384x4_n_1_0_0_1_3_11 (ix3 p b j) 0
      + GatherDims.offCoord gather_S6x256_S6x16384x4x1_S6x16384x4_n_1_0_0_1_3_11 (ix3 p b j) 0 = p.val
    rw [GatherDims.start_batching _ _ _ _ (List.mem_singleton.mpr rfl),
      GatherDims.offCoord_eq_zero _ _ _ (fun h => ((GatherDims.mem_sKept _ _).mp h).2 (List.mem_singleton.mpr rfl))]
    show 0 + GatherDims.batchCoord gather_S6x256_S6x16384x4x1_S6x16384x4_n_1_0_0_1_3_11 (ix3 p b j) 0 + 0 = p.val
    have : GatherDims.batchCoord gather_S6x256_S6x16384x4x1_S6x16384x4_n_1_0_0_1_3_11 (ix3 p b j) 0 = p.val := rfl
    omega
  | ⟨1, _⟩ =>
    show GatherDims.start gather_S6x256_S6x16384x4x1_S6x16384x4_n_1_0_0_1_3_11 (ix3 p b j) idx 1
      + GatherDims.batchCoord gather_S6x256_S6x16384x4x1_S6x16384x4_n_1_0_0_1_3_11 (ix3 p b j) 1
      + GatherDims.offCoord gather_S6x256_S6x16384x4x1_S6x16384x4_n_1_0_0_1_3_11 (ix3 p b j) 1 = (Spec.lab (a4 (ix3 b p j))).val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S6x256_S6x16384x4x1_S6x16384x4_n_1_0_0_1_3_11).startIndexMap from List.mem_singleton.mpr rfl)]
    have hsi : (gather_S6x256_S6x16384x4x1_S6x16384x4_n_1_0_0_1_3_11).siIdx (ix3 p b j)
        ⟨List.idxOf (1 : Fin 2) (gather_S6x256_S6x16384x4x1_S6x16384x4_n_1_0_0_1_3_11).startIndexMap,
          List.idxOf_lt_length_iff.2 (List.mem_singleton.mpr rfl)⟩ = ix4 p b j (0 : Fin 1) := by
      funext c; refine Fin.ext ?_
      match c with
      | ⟨0, _⟩ => rfl
      | ⟨1, _⟩ => rfl
      | ⟨2, _⟩ => rfl
      | ⟨3, _⟩ => rfl
    rw [hsi, hw]
    exact clamp_of_lt (h4 _)

/-- A left fold by "and" from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l fun n hn => h n (List.mem_cons_of_mem _ hn)

/-- The labels as start indices: a word below 256 at (p, b, j, 0) is the label at (p, b, j). -/
private theorem wrap4_apply (i : IVec S6x16384x4 32) (p : Fin 6) (b : Fin 16384) (j : Fin 4)
    (h : (i (ix3 p b j)).toNat < 256) : Term.wrap4 i (ix4 p b j (0 : Fin 1)) = i (ix3 p b j) := by
  unfold Term.wrap4
  refine (shapeCast_apply _ _ (ix4 p b j (0 : Fin 1)) (ix3 p b j) ?_).trans (wrapped_apply i p b j h)
  rw [Shape.rowMajor_val_three, Shape.rowMajor_val_four]
  show (p.val * 16384 + b.val) * 4 + j.val = ((p.val * 16384 + b.val) * 4 + j.val) * 1 + 0
  omega

/-- Every start index lies on the bin axis when every label is below 256. -/
private theorem inAxis4_apply (i : IVec S6x16384x4 32) (hi : ∀ q, (i q).toNat < 256) (q : S6x16384x4.Idx) :
    Term.inAxis4 (Term.wrap4 i) q = 1#1 := by
  unfold Term.inAxis4
  rw [Host.reduce_eq_foldl]
  refine foldl_andi_one _ _ fun n _ => ?_
  obtain ⟨p, b, j, k, rfl⟩ : ∃ p b j k, n = ix4 p b j k := ⟨n 0, n 1, n 2, n 3, eq_ix4 n⟩
  obtain rfl : k = (0 : Fin 1) := Subsingleton.elim _ _
  show IntOp.andi (IntOp.cmpi .sge (Term.wrap4 i (ix4 p b j (0 : Fin 1))) 0#32)
    (IntOp.cmpi .sle (Term.wrap4 i (ix4 p b j (0 : Fin 1))) 255#32) = 1#1
  rw [wrap4_apply i p b j (hi _)]
  have h1 : IntOp.cmpi .sge (i (ix3 p b j)) 0#32 = 1#1 :=
    (StableHlo.Predicate.sge_iff_toNat (by have := hi (ix3 p b j); omega) (by decide)).2 (Nat.zero_le _)
  have h2 : IntOp.cmpi .sle (i (ix3 p b j)) 255#32 = 1#1 :=
    (StableHlo.Predicate.sle_iff_toNat (by have := hi (ix3 p b j); omega) (by decide)).2
      (by have := hi (ix3 p b j); show _ ≤ 255; omega)
  rw [h1, h2]; decide

/-- The offsets fetched along the bin axis: at (p, b, j) the offset at (p, b, label). -/
private theorem takeFour_apply (a1 : FVec Ideal S6x16384x256 .f32) (i : IVec S6x16384x4 32) (hi : ∀ q, (i q).toNat < 256)
    (p : Fin 6) (b : Fin 16384) (j : Fin 4) :
    Term.takeFour a1 i (ix3 p b j) = a1 (ix3 p b (Spec.lab (i (ix3 p b j)))) := by
  unfold Term.takeFour
  rw [select_apply, inAxis4_apply i hi, select_one]
  unfold Host.gather
  congr 1
  funext a
  refine Fin.ext ?_
  have hw := wrap4_apply i p b j (hi _)
  generalize Term.wrap4 i = idx at hw
  match a with
  | ⟨0, _⟩ =>
    show GatherDims.start gather_S6x16384x256_S6x16384x4x1_S6x16384x4_n_2_01_01_2_3_111 (ix3 p b j) idx 0
      + GatherDims.batchCoord gather_S6x16384x256_S6x16384x4x1_S6x16384x4_n_2_01_01_2_3_111 (ix3 p b j) 0
      + GatherDims.offCoord gather_S6x16384x256_S6x16384x4x1_S6x16384x4_n_2_01_01_2_3_111 (ix3 p b j) 0 = p.val
    rw [GatherDims.start_batching _ _ _ _ (by decide),
      GatherDims.offCoord_eq_zero _ _ _ (fun h => ((GatherDims.mem_sKept _ _).mp h).2 (by decide))]
    show 0 + GatherDims.batchCoord gather_S6x16384x256_S6x16384x4x1_S6x16384x4_n_2_01_01_2_3_111 (ix3 p b j) 0 + 0 = p.val
    have : GatherDims.batchCoord gather_S6x16384x256_S6x16384x4x1_S6x16384x4_n_2_01_01_2_3_111 (ix3 p b j) 0 = p.val := rfl
    omega
  | ⟨1, _⟩ =>
    show GatherDims.start gather_S6x16384x256_S6x16384x4x1_S6x16384x4_n_2_01_01_2_3_111 (ix3 p b j) idx 1
      + GatherDims.batchCoord gather_S6x16384x256_S6x16384x4x1_S6x16384x4_n_2_01_01_2_3_111 (ix3 p b j) 1
      + GatherDims.offCoord gather_S6x16384x256_S6x16384x4x1_S6x16384x4_n_2_01_01_2_3_111 (ix3 p b j) 1 = b.val
    rw [GatherDims.start_batching _ _ _ _ (by decide),
      GatherDims.offCoord_eq_zero _ _ _ (fun h => ((GatherDims.mem_sKept _ _).mp h).2 (by decide))]
    show 0 + GatherDims.batchCoord gather_S6x16384x256_S6x16384x4x1_S6x16384x4_n_2_01_01_2_3_111 (ix3 p b j) 1 + 0 = b.val
    have : GatherDims.batchCoord gather_S6x16384x256_S6x16384x4x1_S6x16384x4_n_2_01_01_2_3_111 (ix3 p b j) 1 = b.val := rfl
    omega
  | ⟨2, _⟩ =>
    show GatherDims.start gather_S6x16384x256_S6x16384x4x1_S6x16384x4_n_2_01_01_2_3_111 (ix3 p b j) idx 2
      + GatherDims.batchCoord gather_S6x16384x256_S6x16384x4x1_S6x16384x4_n_2_01_01_2_3_111 (ix3 p b j) 2
      + GatherDims.offCoord gather_S6x16384x256_S6x16384x4x1_S6x16384x4_n_2_01_01_2_3_111 (ix3 p b j) 2
      = (Spec.lab (i (ix3 p b j))).val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S6x16384x256_S6x16384x4x1_S6x16384x4_n_2_01_01_2_3_111).startIndexMap
      from List.mem_singleton.mpr rfl)]
    have hsi : (gather_S6x16384x256_S6x16384x4x1_S6x16384x4_n_2_01_01_2_3_111).siIdx (ix3 p b j)
        ⟨List.idxOf (2 : Fin 3) (gather_S6x16384x256_S6x16384x4x1_S6x16384x4_n_2_01_01_2_3_111).startIndexMap,
          List.idxOf_lt_length_iff.2 (List.mem_singleton.mpr rfl)⟩ = ix4 p b j (0 : Fin 1) := by
      funext c; refine Fin.ext ?_
      match c with
      | ⟨0, _⟩ => rfl
      | ⟨1, _⟩ => rfl
      | ⟨2, _⟩ => rfl
      | ⟨3, _⟩ => rfl
    rw [hsi, hw]
    exact clamp_of_lt (hi _)

/-- The residual at (p, b, j) is the stated one over the labels and targets read parameter-first. -/
private theorem resid_apply (a1 : FVec Ideal S6x16384x256 .f32) (a2 : FVec Ideal S16384x6 .f32) (a3 : FVec Ideal S6x256 .f32)
    (a4 : IVec S16384x6x4 32) (h4 : ∀ i, (a4 i).toNat < 256) (p : Fin 6) (b : Fin 16384) (j : Fin 4) :
    Term.resid a1 a2 a3 a4 (ix3 p b j) = Spec.dif a1 (Spec.Tt a2) a3 (Spec.Lt a4) p b j := by
  have hL : ∀ q, (Term.labs a4 q).toNat < 256 := fun q => by
    obtain ⟨p, b, j, rfl⟩ : ∃ p b j, q = ix3 p b j := ⟨q 0, q 1, q 2, eq_ix3 q⟩
    rw [labs_apply]; exact h4 _
  show (Term.targets a2 (ix3 p b j) - Term.centres a3 a4 (ix3 p b j)) - Term.takeFour a1 (Term.labs a4) (ix3 p b j) = _
  rw [targets_apply, centres_apply a3 a4 h4, takeFour_apply a1 _ hL, labs_apply]
  rfl

/-- The (batch, slot) pairs as the indices of parameter p. -/
private def bjEmb (p : Fin 6) : Fin 16384 × Fin 4 ↪ S6x16384x4.Idx :=
  ⟨fun x => ix3 p x.1 x.2, fun x y h => Prod.ext (congrFun h (1 : Fin 3)) (congrFun h (2 : Fin 3))⟩

/-- The indices that the sum over batch and slot sends to parameter p are the (p, b, j). -/
private theorem filter_drop (h : S6x16384x4.ReducesTo [1, 2] S6) (p : Fin 6) :
    Finset.univ.filter (fun i : S6x16384x4.Idx => h.drop i = ix1 p) = Finset.univ.map (bjEmb p) := by
  ext i
  simp only [Finset.mem_filter, Finset.mem_univ, true_and, Finset.mem_map, bjEmb, Function.Embedding.coeFn_mk]
  constructor
  · intro e
    refine ⟨(i 1, i 2), ?_⟩
    have h0 : (i 0).val = p.val := by
      have e1 := congrArg Fin.val (congrFun e (0 : Fin 1))
      have e2 := Shape.ReducesTo.drop_apply_val_of_eq h i (0 : Fin 1) (0 : Fin 3)
      exact e2.symm.trans e1
    funext a
    match a with
    | ⟨0, _⟩ => exact Fin.ext h0.symm
    | ⟨1, _⟩ => rfl
    | ⟨2, _⟩ => rfl
  · rintro ⟨⟨b, j⟩, rfl⟩
    funext a
    match a with
    | ⟨0, _⟩ => rfl

/-- The host's sum over batch and slot at parameter p, as a double sum. -/
private theorem hostReduceAdd_bj (h : S6x16384x4.ReducesTo [1, 2] S6) (x : S6x16384x4.Idx → EReal) (init : EReal) (p : Fin 6) :
    Ideal.hostReduceAdd h x init (ix1 p) = init + ∑ b : Fin 16384, ∑ j : Fin 4, x (ix3 p b j) := by
  unfold Ideal.hostReduceAdd
  rw [filter_drop, Finset.sum_map, Fintype.sum_prod_type]
  rfl

/-- The orientation term at parameter p. -/
private theorem rotTerm_apply (d : FVec Ideal S6x16384x4 .f32) (p : Fin 6) :
    Term.rotTerm d (ix1 p)
      = Spec.negOne * Ideal.div (Spec.zr + ∑ b : Fin 16384, ∑ j : Fin 4, Ideal.cos (d (ix3 p b j) * Spec.two)) Spec.c65536 := by
  show Spec.negOne * Ideal.div (Ideal.hostReduceAdd _
    (Host.cos (mulf d (broadcastInDim S6x16384x4 ![] _ (constant S_ .f32 0x40000000#32)))) Spec.zr (ix1 p)) Spec.c65536 = _
  rw [hostReduceAdd_bj]
  rfl

/-- The squared-error term at parameter p. -/
private theorem mseTerm_apply (d : FVec Ideal S6x16384x4 .f32) (p : Fin 6) :
    Term.mseTerm d (ix1 p)
      = Ideal.div (Spec.zr + ∑ b : Fin 16384, ∑ j : Fin 4, d (ix3 p b j) * d (ix3 p b j)) Spec.c65536 := by
  show Ideal.div (Ideal.hostReduceAdd _ (mulf d d) Spec.zr (ix1 p)) Spec.c65536 = _
  rw [hostReduceAdd_bj]
  rfl

/-- A parameter is an orientation exactly when its number is odd. -/
private theorem isRot_apply (p : Fin 6) : Term.isRot (ix1 p) = if p.val % 2 = 1 then 1#1 else 0#1 := by
  fin_cases p <;> rfl

/-- A rank-1 index of the six parameters is its coordinate. -/
private def paramEquiv : S6.Idx ≃ Fin 6 where
  toFun i := i 0
  invFun := ix1
  left_inv i := (eq_ix1 i).symm
  right_inv _ := rfl

theorem out1_eq (a1 : FVec Ideal S6x16384x256 .f32) (a2 : FVec Ideal S16384x6 .f32) (a3 : FVec Ideal S6x256 .f32)
    (a4 : IVec S16384x6x4 32) (h4 : ∀ i, (a4 i).toNat < 256) :
    Term.out1 a1 a2 a3 a4 = fun _ => Spec.zr + ∑ p : Fin 6,
      if p.val % 2 = 1 then
        Spec.negOne * Ideal.div (Spec.zr + Spec.rotSum (N := 16384) a1 (Spec.Tt a2) a3 (Spec.Lt a4) p) Spec.c65536
      else Ideal.div (Spec.zr + Spec.mseSum (N := 16384) a1 (Spec.Tt a2) a3 (Spec.Lt a4) p) Spec.c65536 := by
  funext q
  unfold Term.out1
  generalize hd : Term.resid a1 a2 a3 a4 = d
  have hdv : ∀ p b j, d (ix3 p b j) = Spec.dif a1 (Spec.Tt a2) a3 (Spec.Lt a4) p b j := fun p b j => by
    rw [← hd]; exact resid_apply a1 a2 a3 a4 h4 p b j
  refine (Ideal.hostReduceAdd_total _ (fun b => b.elim0) _ _ q).trans ?_
  refine congrArg (Spec.zr + ·) ?_
  rw [← Equiv.sum_comp paramEquiv.symm]
  refine Finset.sum_congr rfl fun p _ => ?_
  show Scalar.select (Term.isRot (ix1 p)) (Term.rotTerm d (ix1 p)) (Term.mseTerm d (ix1 p)) = _
  rw [isRot_apply, rotTerm_apply, mseTerm_apply]
  simp only [hdv]
  by_cases hp : p.val % 2 = 1
  · rw [if_pos hp, if_pos hp, select_one]; rfl
  · rw [if_neg hp, if_neg hp, select_zero]; rfl

end Cert.ReferenceIdeal.RefRead

end
-- ==== Proof.PreRange.lean ====
/-
  The precondition read: its last conjunct says every label is at least 0 and below 256 as a signed word, so every
  label word's value is below 256.
-/
import proofs.«407714_j46377056862517_3_alg».proof.Pre_finite_inputs
import proofs.«407714_j46377056862517_3_alg».proof.Proof.Gen.Pre_finite_inputs
import Idealize.ShloMosaic.PureOps.Ideal
import Idealize.ShloMosaic.Lib.ReduceAll
import Idealize.ShloMosaic.Lib.StableHlo.Predicate

noncomputable section

open Idealize.ShloMosaic

namespace Cert.PreRange

open Cert.Pre_finite_inputs

/-- A scalar array has one index. -/
private instance : Subsingleton S_.Idx := ⟨fun a b => funext fun d => d.elim0⟩

/-- A word that is at least 0 and below 256, read signed, has value below 256. -/
private theorem word_lt {w : BitVec 32} (h0 : IntOp.cmpi .sge w 0#32 = 1#1) (h1 : IntOp.cmpi .slt w 256#32 = 1#1) :
    w.toNat < 256 := by
  rw [IntOp.cmpi_sge, show (0#32 : BitVec 32).toInt = 0 from by decide] at h0
  rw [IntOp.cmpi_slt, show (256#32 : BitVec 32).toInt = 256 from by decide] at h1
  have hw := w.isLt
  rw [BitVec.toInt_eq_toNat_cond] at h0 h1
  split at h0 <;> omega

theorem labels_lt (a0 a1 : FVec Ideal S6x16384x256 .f32) (a2 : FVec Ideal S16384x6 .f32) (a3 : FVec Ideal S6x256 .f32)
    (a4 : IVec S16384x6x4 32)
    (h : Cert.Pre_finite_inputs.fn (F := Ideal) a0 a1 a2 a3 a4 = (fun _ => 1#1)) :
    ∀ i, (a4 i).toNat < 256 := by
  intro i
  have e := congrFun h (fun d => d.elim0)
  dsimp only [fn, fn_part1] at e
  -- the last conjunct: the all-reduce of the two label comparisons
  have e24 := (IntOp.andi_eq_one.1 e).2
  have e23 := Host.reduce_andi_all _ _ _ _ _ e24 i
  obtain ⟨hge, hlt⟩ := IntOp.andi_eq_one.1 e23
  refine word_lt ?_ ?_
  · refine Eq.trans ?_ hge
    show IntOp.cmpi .sge (a4 i) 0#32 = IntOp.cmpi .sge (a4 i) (broadcastInDim S16384x6x4 ![] _ (constantI S_ 32 0#32) i)
    rw [StableHlo.Predicate.bcast_scalar _ Facts.h_S_]
    rfl
  · refine Eq.trans ?_ hlt
    show IntOp.cmpi .slt (a4 i) 256#32 = IntOp.cmpi .slt (a4 i) (broadcastInDim S16384x6x4 ![] _ (constantI S_ 32 256#32) i)
    rw [StableHlo.Predicate.bcast_scalar _ Facts.h_S_]
    rfl

end Cert.PreRange

end
-- ==== Proof.Bridge.lean ====
/-
  The two programs' last lines meet.

  Classification: the kernel scales the whole double sum once, (1 · ∑_p ∑_b nll) / 16384; the reference scales each
  parameter's batch sum and then adds, 1 · (0 + ∑_p ((0 + ∑_b nll) / 16384)). Dividing by the positive real 16384 is
  multiplying by its reciprocal, and a non-negative real factor distributes over a finite sum of extended reals.
  Regression: (−1 · R) / 65536 = −1 · ((0 + R) / 65536) by associativity of the product, and M / 65536 = (0 + M) / 65536.
-/
import proofs.«407714_j46377056862517_3_alg».proof.Proof.Spec

noncomputable section

namespace Cert.Spec

open Idealize.ShloMosaic Idealize.ShloMosaic.ValueIdx

theorem cls_bridge {N : Nat} (X : (⟨3, ![6, N, 256]⟩ : Shape).Idx → EReal) (L : (⟨3, ![6, N, 4]⟩ : Shape).Idx → BitVec 32) :
    Ideal.div (one * clsSum X L) c16384
      = one * (zr + ∑ p : Fin 6, Ideal.div (zr + ∑ b : Fin N, nll X L p b) c16384) := by
  rw [one_eq, zr_eq, c16384_eq]
  simp only [one_mul, zero_add, Ideal.div_coe (by norm_num : (16384 : ℝ) ≠ 0)]
  unfold clsSum
  exact sum_mul_coe Finset.univ _ _ (by norm_num)

theorem rot_bridge (R : EReal) : Ideal.div (negOne * R) c65536 = negOne * Ideal.div (zr + R) c65536 := by
  rw [zr_eq, c65536_eq, zero_add, Ideal.div_coe (by norm_num : (65536 : ℝ) ≠ 0),
    Ideal.div_coe (by norm_num : (65536 : ℝ) ≠ 0), mul_assoc]

theorem mse_bridge (M : EReal) : Ideal.div M c65536 = Ideal.div (zr + M) c65536 := by
  rw [zr_eq, zero_add]

end Cert.Spec

end
-- ==== Proof.lean ====
/-
  A per-bin classification-and-regression loss: a Pallas kernel streaming the batch in 32 tiles of 512 rows against
  its jnp reference, equal over the extended reals when every float input is finite and every label is a bin
  (0 ≤ label < 256).

  Both programs compute, from logits X, offsets O, targets T, bin centres C and labels L,
    cls = (∑_p ∑_b −logsoftmax(X[p, b, ·])[L[b, p, 0]]) / 16384,
    reg = ∑_p (p odd ? −(∑_b ∑_j cos(2·d)) / 65536 : (∑_b ∑_j d²) / 65536),   d = T[b, p] − C[p, L[b, p, j]] − O[p, b, L[b, p, j]].
  The kernel fetches by comparing the lane number with the label and summing the lanes it keeps, accumulates tile by
  tile into two output blocks that stay in place over the grid, and the host scales lanes 0 and 1 afterwards; the
  reference fetches with gathers, sums each parameter over the batch and scales before adding. For a label in range the
  compare-and-sum keeps exactly the gathered bin; sums of extended reals regroup freely; and the scalings by the
  positive reals 1/16384 and 1/65536 distribute over the sums. The ideal pass rewrote nothing, so `preserves` is `True`.
-/
import proofs.«407714_j46377056862517_3_alg».proof.Defs
import proofs.«407714_j46377056862517_3_alg».proof.Proof.Gen.Kernel
import proofs.«407714_j46377056862517_3_alg».proof.Proof.Gen.Kernel.Frame
import proofs.«407714_j46377056862517_3_alg».proof.Proof.Gen.KernelIdeal
import proofs.«407714_j46377056862517_3_alg».proof.Proof.Gen.KernelIdeal.Frame
import proofs.«407714_j46377056862517_3_alg».proof.Proof.Gen.ReferenceIdeal
import proofs.«407714_j46377056862517_3_alg».proof.Proof.Gen.Pre_finite_inputs
import proofs.«407714_j46377056862517_3_alg».proof.Proof.KPieces
import proofs.«407714_j46377056862517_3_alg».proof.Proof.KTail
import proofs.«407714_j46377056862517_3_alg».proof.Proof.KTailRead
import proofs.«407714_j46377056862517_3_alg».proof.Proof.KValue
import proofs.«407714_j46377056862517_3_alg».proof.Proof.RefRun
import proofs.«407714_j46377056862517_3_alg».proof.Proof.RefReadC
import proofs.«407714_j46377056862517_3_alg».proof.Proof.RefReadR
import proofs.«407714_j46377056862517_3_alg».proof.Proof.PreRange
import proofs.«407714_j46377056862517_3_alg».proof.Proof.Bridge
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is a straight line of host operations that never writes an argument. -/
theorem frame_ri : Cert.frame_ReferenceIdeal := fun m ρ _ =>
  (θ_run Cert.ReferenceIdeal.defs _ _).mono (fun _ h c => (h c).2.2)
    (Cert.ReferenceIdeal.RefRun.run (F := Ideal) m ρ)

theorem preserves : Cert.preserves_Kernel_KernelIdeal := trivial

/-- Both programs end at the same two extended reals. -/
theorem algebraic : Cert.algebraic_KernelIdeal_ReferenceIdeal := by
  intro m ρ m' ρ' hpre hagree
  refine ⟨fun c => Cert.KernelIdeal.Val.tail0 (F := Ideal) ((Cert.KernelIdeal.Gen.dats m 0 c).arrAt 5 Cert.KernelIdeal.cfg0.N),
    fun c => Cert.KernelIdeal.Val.tail1 (F := Ideal) ((Cert.KernelIdeal.Gen.dats m 0 c).arrAt 6 Cert.KernelIdeal.cfg0.N), ?_, ?_⟩
  · exact Cert.KernelIdeal.Val.run m ρ
  refine (θ_run Cert.ReferenceIdeal.defs _ _).mono (fun r h c => ?_) (Cert.ReferenceIdeal.RefRun.run (F := Ideal) m' ρ')
  obtain ⟨h0, h1, hargs⟩ := h c
  have hI : ∀ i, (Cert.KernelIdeal.Val.argI m c i).toNat < 256 := Cert.PreRange.labels_lt _ _ _ _ _ (hpre c)
  obtain ⟨e0, e1, e2, e3, e4⟩ := hagree c
  refine ⟨h0.trans ?_, h1.trans ?_, hargs⟩
  · beta_reduce
    rw [e0, e4, Cert.ReferenceIdeal.RefRead.out0_eq _ _ hI, Cert.KernelIdeal.Val.final5, Cert.KernelIdeal.Val.tail0_apply]
    funext _
    rw [Cert.KernelIdeal.Val.last_cls m c hI]
    exact (Cert.Spec.cls_bridge _ _).symm
  · beta_reduce
    rw [e1, e2, e3, e4, Cert.ReferenceIdeal.RefRead.out1_eq _ _ _ _ hI, Cert.KernelIdeal.Val.final6,
      Cert.KernelIdeal.Val.tail1_apply]
    funext _
    refine congrArg (fun s : EReal => Cert.Spec.zr + s) (Finset.sum_congr rfl fun p _ => ?_)
    rw [Cert.KernelIdeal.Val.last_mse m c hI p, Cert.KernelIdeal.Val.last_rot m c hI p]
    split_ifs
    · exact (Cert.Spec.rot_bridge _).symm
    · exact (Cert.Spec.mse_bridge _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
